-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x16 : Shape := ⟨2, ![16384, 16]⟩
abbrev S1000000 : Shape := ⟨1, ![1000000]⟩
abbrev S1000000x64 : Shape := ⟨2, ![1000000, 64]⟩
abbrev S25x8 : Shape := ⟨2, ![25, 8]⟩
abbrev S12x4 : Shape := ⟨2, ![12, 4]⟩
abbrev S16x64 : Shape := ⟨2, ![16, 64]⟩
abbrev S64 : Shape := ⟨1, ![64]⟩
abbrev S64x64 : Shape := ⟨2, ![64, 64]⟩
abbrev S420x128 : Shape := ⟨2, ![420, 128]⟩
abbrev S128 : Shape := ⟨1, ![128]⟩
abbrev S128x128 : Shape := ⟨2, ![128, 128]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S25x8 : S_.BroadcastsInDim S25x8 (![] : Fin 0 → Fin S25x8.rank)
  reducesTo_S25x8_S_d0_1 : S25x8.ReducesTo [0, 1] S_
  bcast_S_S12x4 : S_.BroadcastsInDim S12x4 (![] : Fin 0 → Fin S12x4.rank)
  reducesTo_S12x4_S_d0_1 : S12x4.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S420x128 : S_.BroadcastsInDim S420x128 (![] : Fin 0 → Fin S420x128.rank)
  reducesTo_S420x128_S_d0_1 : S420x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16384 : S_.BroadcastsInDim S16384 (![] : Fin 0 → Fin S16384.rank)
  reducesTo_S16384_S_d0 : S16384.ReducesTo [0] S_
  bcast_S_S1000000 : S_.BroadcastsInDim S1000000 (![] : Fin 0 → Fin S1000000.rank)
  reducesTo_S1000000_S_d0 : S1000000.ReducesTo [0] S_

variable [Facts]

def fn_part5 {F : FTy → Type} [FloatOps F] (main_v79 : IVec S_ 1) (main_v84 : IVec S1000000 1) : IVec S_ 1 :=
  let main_c_33 : IVec S_ 1 := constantI S_ 1 1#1
  let main_v85 : IVec S_ 1 := (fun x v => Host.reduce IntOp.andi x v reducesTo_S1000000_S_d0 h_S_) main_v84 main_c_33
  let main_v86 : IVec S_ 1 := andi main_v79 main_v85
  main_v86

def fn_part4 {F : FTy → Type} [FloatOps F] (main_arg2 : IVec S16384 32) (main_arg4 : IVec S1000000 32) (main_arg5 : IVec S1000000 32) (main_v65 : IVec S_ 1) (main_v67 : IVec S16384 1) : IVec S_ 1 :=
  let main_c_26 : IVec S_ 32 := constantI S_ 32 12#32
  let main_v68 : IVec S16384 32 := broadcastInDim S16384 ![] bcast_S_S16384 main_c_26
  let main_v69 : IVec S16384 1 := cmpi .slt main_arg2 main_v68
  let main_v70 : IVec S16384 1 := andi main_v67 main_v69
  let main_c_27 : IVec S_ 1 := constantI S_ 1 1#1
  let main_v71 : IVec S_ 1 := (fun x v => Host.reduce IntOp.andi x v reducesTo_S16384_S_d0 h_S_) main_v70 main_c_27
  let main_v72 : IVec S_ 1 := andi main_v65 main_v71
  let main_c_28 : IVec S_ 32 := constantI S_ 32 0#32
  let main_v73 : IVec S1000000 32 := broadcastInDim S1000000 ![] bcast_S_S1000000 main_c_28
  let main_v74 : IVec S1000000 1 := cmpi .sge main_arg4 main_v73
  let main_c_29 : IVec S_ 32 := constantI S_ 32 5000#32
  let main_v75 : IVec S1000000 32 := broadcastInDim S1000000 ![] bcast_S_S1000000 main_c_29
  let main_v76 : IVec S1000000 1 := cmpi .slt main_arg4 main_v75
  let main_v77 : IVec S1000000 1 := andi main_v74 main_v76
  let main_c_30 : IVec S_ 1 := constantI S_ 1 1#1
  let main_v78 : IVec S_ 1 := (fun x v => Host.reduce IntOp.andi x v reducesTo_S1000000_S_d0 h_S_) main_v77 main_c_30
  let main_v79 : IVec S_ 1 := andi main_v72 main_v78
  let main_c_31 : IVec S_ 32 := constantI S_ 32 0#32
  let main_v80 : IVec S1000000 32 := broadcastInDim S1000000 ![] bcast_S_S1000000 main_c_31
  let main_v81 : IVec S1000000 1 := cmpi .sge main_arg5 main_v80
  let main_c_32 : IVec S_ 32 := constantI S_ 32 25#32
  let main_v82 : IVec S1000000 32 := broadcastInDim S1000000 ![] bcast_S_S1000000 main_c_32
  let main_v83 : IVec S1000000 1 := cmpi .slt main_arg5 main_v82
  let main_v84 : IVec S1000000 1 := andi main_v81 main_v83
  fn_part5 (F := F) main_v79 main_v84

def fn_part3 {F : FTy → Type} [FloatOps F] (main_arg1 : IVec S16384 32) (main_arg2 : IVec S16384 32) (main_arg4 : IVec S1000000 32) (main_arg5 : IVec S1000000 32) (main_arg16 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg16
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S16384 32 := broadcastInDim S16384 ![] bcast_S_S16384 main_c_22
  let main_v60 : IVec S16384 1 := cmpi .sge main_arg1 main_v59
  let main_c_23 : IVec S_ 32 := constantI S_ 32 25#32
  let main_v61 : IVec S16384 32 := broadcastInDim S16384 ![] bcast_S_S16384 main_c_23
  let main_v62 : IVec S16384 1 := cmpi .slt main_arg1 main_v61
  let main_v63 : IVec S16384 1 := andi main_v60 main_v62
  let main_c_24 : IVec S_ 1 := constantI S_ 1 1#1
  let main_v64 : IVec S_ 1 := (fun x v => Host.reduce IntOp.andi x v reducesTo_S16384_S_d0 h_S_) main_v63 main_c_24
  let main_v65 : IVec S_ 1 := andi main_v58 main_v64
  let main_c_25 : IVec S_ 32 := constantI S_ 32 0#32
  let main_v66 : IVec S16384 32 := broadcastInDim S16384 ![] bcast_S_S16384 main_c_25
  let main_v67 : IVec S16384 1 := cmpi .sge main_arg2 main_v66
  fn_part4 (F := F) main_arg2 main_arg4 main_arg5 main_v65 main_v67

def fn_part2 {F : FTy → Type} [FloatOps F] (main_arg1 : IVec S16384 32) (main_arg2 : IVec S16384 32) (main_arg4 : IVec S1000000 32) (main_arg5 : IVec S1000000 32) (main_arg12 : FVec F S64 .f32) (main_arg13 : FVec F S420x128 .f32) (main_arg14 : FVec F S128 .f32) (main_arg15 : FVec F S128x128 .f32) (main_arg16 : FVec F S128 .f32) (main_v33 : IVec S_ 1) : IVec S_ 1 :=
  let main_v34 : FVec F S64 .f32 := Host.absf main_arg12
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S420x128 .f32 := Host.absf main_arg13
  let main_cst_14 : FVec F S_ .f32 := constant S_ .f32 0x7F800000#32
  let main_v40 : FVec F S420x128 .f32 := broadcastInDim S420x128 ![] bcast_S_S420x128 main_cst_14
  let main_v41 : IVec S420x128 1 := cmpf .olt main_v39 main_v40
  let main_c_15 : IVec S_ 1 := constantI S_ 1 1#1
  let main_v42 : IVec S_ 1 := (fun x v => Host.reduce IntOp.andi x v reducesTo_S420x128_S_d0_1 h_S_) main_v41 main_c_15
  let main_v43 : IVec S_ 1 := andi main_v38 main_v42
  let main_v44 : FVec F S128 .f32 := Host.absf main_arg14
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg15
  let main_cst_18 : FVec F S_ .f32 := constant S_ .f32 0x7F800000#32
  let main_v50 : FVec F S128x128 .f32 := broadcastInDim S128x128 ![] bcast_S_S128x128 main_cst_18
  fn_part3 (F := F) main_arg1 main_arg2 main_arg4 main_arg5 main_arg16 main_v48 main_v49 main_v50

def fn_part1 {F : FTy → Type} [FloatOps F] (main_arg1 : IVec S16384 32) (main_arg2 : IVec S16384 32) (main_arg4 : IVec S1000000 32) (main_arg5 : IVec S1000000 32) (main_arg9 : FVec F S16x64 .f32) (main_arg10 : FVec F S64 .f32) (main_arg11 : FVec F S64x64 .f32) (main_arg12 : FVec F S64 .f32) (main_arg13 : FVec F S420x128 .f32) (main_arg14 : FVec F S128 .f32) (main_arg15 : FVec F S128x128 .f32) (main_arg16 : FVec F S128 .f32) (main_v13 : IVec S_ 1) (main_v16 : IVec S12x4 1) : IVec S_ 1 :=
  let main_c_5 : IVec S_ 1 := constantI S_ 1 1#1
  let main_v17 : IVec S_ 1 := (fun x v => Host.reduce IntOp.andi x v reducesTo_S12x4_S_d0_1 h_S_) main_v16 main_c_5
  let main_v18 : IVec S_ 1 := andi main_v13 main_v17
  let main_v19 : FVec F S16x64 .f32 := Host.absf main_arg9
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg10
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg11
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg2 main_arg4 main_arg5 main_arg12 main_arg13 main_arg14 main_arg15 main_arg16 main_v33

def fn {F : FTy → Type} [FloatOps F] (main_arg0 : IVec S16384 32) (main_arg1 : IVec S16384 32) (main_arg2 : IVec S16384 32) (main_arg3 : FVec F S16384x16 .f32) (main_arg4 : IVec S1000000 32) (main_arg5 : IVec S1000000 32) (main_arg6 : FVec F S1000000x64 .f32) (main_arg7 : FVec F S25x8 .f32) (main_arg8 : FVec F S12x4 .f32) (main_arg9 : FVec F S16x64 .f32) (main_arg10 : FVec F S64 .f32) (main_arg11 : FVec F S64x64 .f32) (main_arg12 : FVec F S64 .f32) (main_arg13 : FVec F S420x128 .f32) (main_arg14 : FVec F S128 .f32) (main_arg15 : FVec F S128x128 .f32) (main_arg16 : FVec F S128 .f32) : IVec S_ 1 :=
  let main_v0 : FVec F S16384x16 .f32 := Host.absf main_arg3
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  let main_v4 : FVec F S1000000x64 .f32 := Host.absf main_arg6
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S25x8 .f32 := Host.absf main_arg7
  let main_cst_2 : FVec F S_ .f32 := constant S_ .f32 0x7F800000#32
  let main_v10 : FVec F S25x8 .f32 := broadcastInDim S25x8 ![] bcast_S_S25x8 main_cst_2
  let main_v11 : IVec S25x8 1 := cmpf .olt main_v9 main_v10
  let main_c_3 : IVec S_ 1 := constantI S_ 1 1#1
  let main_v12 : IVec S_ 1 := (fun x v => Host.reduce IntOp.andi x v reducesTo_S25x8_S_d0_1 h_S_) main_v11 main_c_3
  let main_v13 : IVec S_ 1 := andi main_v8 main_v12
  let main_v14 : FVec F S12x4 .f32 := Host.absf main_arg8
  let main_cst_4 : FVec F S_ .f32 := constant S_ .f32 0x7F800000#32
  let main_v15 : FVec F S12x4 .f32 := broadcastInDim S12x4 ![] bcast_S_S12x4 main_cst_4
  let main_v16 : IVec S12x4 1 := cmpf .olt main_v14 main_v15
  fn_part1 (F := F) main_arg1 main_arg2 main_arg4 main_arg5 main_arg9 main_arg10 main_arg11 main_arg12 main_arg13 main_arg14 main_arg15 main_arg16 main_v13 main_v16
-- ==== Kernel.lean ====
abbrev S16384 : Shape := ⟨1, ![16384]⟩
abbrev S16384x16 : Shape := ⟨2, ![16384, 16]⟩
abbrev S1000000 : Shape := ⟨1, ![1000000]⟩
abbrev S1000000x64 : Shape := ⟨2, ![1000000, 64]⟩
abbrev S25x8 : Shape := ⟨2, ![25, 8]⟩
abbrev S12x4 : Shape := ⟨2, ![12, 4]⟩
abbrev S16x64 : Shape := ⟨2, ![16, 64]⟩
abbrev S64 : Shape := ⟨1, ![64]⟩
abbrev S64x64 : Shape := ⟨2, ![64, 64]⟩
abbrev S420x128 : Shape := ⟨2, ![420, 128]⟩
abbrev S128 : Shape := ⟨1, ![128]⟩
abbrev S128x128 : Shape := ⟨2, ![128, 128]⟩
abbrev S16384x1 : Shape := ⟨2, ![16384, 1]⟩
abbrev S16384x2 : Shape := ⟨2, ![16384, 2]⟩
abbrev S_ : Shape := ⟨0, ![]⟩
abbrev S16384x64 : Shape := ⟨2, ![16384, 64]⟩
abbrev S16384x140 : Shape := ⟨2, ![16384, 140]⟩
abbrev S512x64 : Shape := ⟨2, ![512, 64]⟩
abbrev S512x2 : Shape := ⟨2, ![512, 2]⟩
abbrev S512x16 : Shape := ⟨2, ![512, 16]⟩
abbrev S512x140 : Shape := ⟨2, ![512, 140]⟩
abbrev S512x1 : Shape := ⟨2, ![512, 1]⟩
abbrev S512x25 : Shape := ⟨2, ![512, 25]⟩
abbrev S512x8 : Shape := ⟨2, ![512, 8]⟩
abbrev S512x12 : Shape := ⟨2, ![512, 12]⟩
abbrev S512x4 : Shape := ⟨2, ![512, 4]⟩
abbrev S1x64 : Shape := ⟨2, ![1, 64]⟩
abbrev S2x5120x140 : Shape := ⟨3, ![2, 5120, 140]⟩
abbrev S2x1x5120 : Shape := ⟨3, ![2, 1, 5120]⟩
abbrev S2x128x140 : Shape := ⟨3, ![2, 128, 140]⟩
abbrev S2x1x128 : Shape := ⟨3, ![2, 1, 128]⟩
abbrev S1x5120x140 : Shape := ⟨3, ![1, 5120, 140]⟩
abbrev S1x1x5120 : Shape := ⟨3, ![1, 1, 5120]⟩
abbrev S1x128x140 : Shape := ⟨3, ![1, 128, 140]⟩
abbrev S1x1x128 : Shape := ⟨3, ![1, 1, 128]⟩
abbrev S5120x140 : Shape := ⟨2, ![5120, 140]⟩
abbrev S1x5120 : Shape := ⟨2, ![1, 5120]⟩
abbrev S128x140 : Shape := ⟨2, ![128, 140]⟩
abbrev S1x128 : Shape := ⟨2, ![1, 128]⟩
abbrev S1x512 : Shape := ⟨2, ![1, 512]⟩
abbrev S512x5120 : Shape := ⟨2, ![512, 5120]⟩
abbrev S512x128 : Shape := ⟨2, ![512, 128]⟩
abbrev S5120x1 : Shape := ⟨2, ![5120, 1]⟩
abbrev S128x1 : Shape := ⟨2, ![128, 1]⟩
abbrev S16384x128 : Shape := ⟨2, ![16384, 128]⟩
abbrev S512x420 : Shape := ⟨2, ![512, 420]⟩

abbrev nBuf : Space → Nat
  | .hbm => 76
  | .vmem => 38
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384x16, .f32⟩
  | .hbm, ⟨4, _⟩ => ⟨S1000000, .i32⟩
  | .hbm, ⟨5, _⟩ => ⟨S1000000, .i32⟩
  | .hbm, ⟨6, _⟩ => ⟨S1000000x64, .f32⟩
  | .hbm, ⟨7, _⟩ => ⟨S25x8, .f32⟩
  | .hbm, ⟨8, _⟩ => ⟨S12x4, .f32⟩
  | .hbm, ⟨9, _⟩ => ⟨S16x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S420x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S16384x1, .i32⟩
  | .hbm, ⟨18, _⟩ => ⟨S16384x1, .i32⟩
  | .hbm, ⟨19, _⟩ => ⟨S16384x2, .i32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x64, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384, .i32⟩
  | .hbm, ⟨47, _⟩ => ⟨S16384x1, .i32⟩
  | .hbm, ⟨48, _⟩ => ⟨S16384x1, .i32⟩
  | .hbm, ⟨49, _⟩ => ⟨S16384x2, .i32⟩
  | .hbm, ⟨50, _⟩ => ⟨S16384x140, .f32⟩
  | .hbm, ⟨51, _⟩ => ⟨S2x5120x140, .f32⟩
  | .hbm, ⟨52, _⟩ => ⟨S2x1x5120, .f32⟩
  | .hbm, ⟨53, _⟩ => ⟨S2x128x140, .f32⟩
  | .hbm, ⟨54, _⟩ => ⟨S2x1x128, .f32⟩
  | .hbm, ⟨55, _⟩ => ⟨S_, .f32⟩
  | .hbm, ⟨56, _⟩ => ⟨S5120x140, .f32⟩
  | .hbm, ⟨57, _⟩ => ⟨S_, .f32⟩
  | .hbm, ⟨58, _⟩ => ⟨S1x5120, .f32⟩
  | .hbm, ⟨59, _⟩ => ⟨S_, .f32⟩
  | .hbm, ⟨60, _⟩ => ⟨S128x140, .f32⟩
  | .hbm, ⟨61, _⟩ => ⟨S_, .f32⟩
  | .hbm, ⟨62, _⟩ => ⟨S1x128, .f32⟩
  | .hbm, ⟨63, _⟩ => ⟨S5120x1, .f32⟩
  | .hbm, ⟨64, _⟩ => ⟨S_, .f32⟩
  | .hbm, ⟨65, _⟩ => ⟨S5120x1, .f32⟩
  | .hbm, ⟨66, _⟩ => ⟨S5120x1, .f32⟩
  | .hbm, ⟨67, _⟩ => ⟨S5120x140, .f32⟩
  | .hbm, ⟨68, _⟩ => ⟨S5120x140, .f32⟩
  | .hbm, ⟨69, _⟩ => ⟨S128x1, .f32⟩
  | .hbm, ⟨70, _⟩ => ⟨S_, .f32⟩
  | .hbm, ⟨71, _⟩ => ⟨S128x1, .f32⟩
  | .hbm, ⟨72, _⟩ => ⟨S128x1, .f32⟩
  | .hbm, ⟨73, _⟩ => ⟨S128x140, .f32⟩
  | .hbm, ⟨74, _⟩ => ⟨S128x140, .f32⟩
  | .hbm, ⟨75, _⟩ => ⟨S16384x128, .f32⟩
  | .local _ .vmem, ⟨0, _⟩ => ⟨S512x64, .f32⟩
  | .local _ .vmem, ⟨1, _⟩ => ⟨S512x64, .f32⟩
  | .local _ .vmem, ⟨2, _⟩ => ⟨S512x2, .i32⟩
  | .local _ .vmem, ⟨3, _⟩ => ⟨S512x2, .i32⟩
  | .local _ .vmem, ⟨4, _⟩ => ⟨S512x16, .f32⟩
  | .local _ .vmem, ⟨5, _⟩ => ⟨S512x16, .f32⟩
  | .local _ .vmem, ⟨6, _⟩ => ⟨S25x8, .f32⟩
  | .local _ .vmem, ⟨7, _⟩ => ⟨S12x4, .f32⟩
  | .local _ .vmem, ⟨8, _⟩ => ⟨S16x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S512x140, .f32⟩
  | .local _ .vmem, ⟨13, _⟩ => ⟨S512x140, .f32⟩
  | .local _ .vmem, ⟨14, _⟩ => ⟨S512x140, .f32⟩
  | .local _ .vmem, ⟨15, _⟩ => ⟨S512x140, .f32⟩
  | .local _ .vmem, ⟨16, _⟩ => ⟨S512x2, .i32⟩
  | .local _ .vmem, ⟨17, _⟩ => ⟨S512x2, .i32⟩
  | .local _ .vmem, ⟨18, _⟩ => ⟨S1x5120x140, .f32⟩
  | .local _ .vmem, ⟨19, _⟩ => ⟨S1x5120x140, .f32⟩
  | .local _ .vmem, ⟨20, _⟩ => ⟨S1x1x5120, .f32⟩
  | .local _ .vmem, ⟨21, _⟩ => ⟨S1x1x5120, .f32⟩
  | .local _ .vmem, ⟨22, _⟩ => ⟨S1x128x140, .f32⟩
  | .local _ .vmem, ⟨23, _⟩ => ⟨S1x128x140, .f32⟩
  | .local _ .vmem, ⟨24, _⟩ => ⟨S1x1x128, .f32⟩
  | .local _ .vmem, ⟨25, _⟩ => ⟨S1x1x128, .f32⟩
  | .local _ .vmem, ⟨26, _⟩ => ⟨S512x140, .f32⟩
  | .local _ .vmem, ⟨27, _⟩ => ⟨S512x140, .f32⟩
  | .local _ .vmem, ⟨28, _⟩ => ⟨S512x2, .i32⟩
  | .local _ .vmem, ⟨29, _⟩ => ⟨S512x2, .i32⟩
  | .local _ .vmem, ⟨30, _⟩ => ⟨S5120x140, .f32⟩
  | .local _ .vmem, ⟨31, _⟩ => ⟨S128x140, .f32⟩
  | .local _ .vmem, ⟨32, _⟩ => ⟨S420x128, .f32⟩
  | .local _ .vmem, ⟨33, _⟩ => ⟨S128, .f32⟩
  | .local _ .vmem, ⟨34, _⟩ => ⟨S128x128, .f32⟩
  | .local _ .vmem, ⟨35, _⟩ => ⟨S128, .f32⟩
  | .local _ .vmem, ⟨36, _⟩ => ⟨S512x128, .f32⟩
  | .local _ .vmem, ⟨37, _⟩ => ⟨S512x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28_0 : Ref sig .tc := ⟨.hbm, 51, rfl⟩
abbrev main_v28_1 : Ref sig .tc := ⟨.hbm, 52, rfl⟩
abbrev main_v28_2 : Ref sig .tc := ⟨.hbm, 53, rfl⟩
abbrev main_v28_3 : Ref sig .tc := ⟨.hbm, 54, rfl⟩
abbrev main_cst : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_cst_7 : Ref sig .tc := ⟨.hbm, 61, rfl⟩
abbrev main_v32 : Ref sig .tc := ⟨.hbm, 62, rfl⟩
abbrev main_v33 : Ref sig .tc := ⟨.hbm, 63, rfl⟩
abbrev main_cst_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg8_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem8_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S25x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x140 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x140 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x5120x140 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x5120 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128x140 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x140 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S5120x140 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x140 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S420x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S512x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S16384_S16384x1_0 : S16384.BroadcastsInDim S16384x1 (![0] : Fin 1 → Fin S16384x1.rank)
  concatenates_S16384x1_S16384x1_S16384x2_d1 : Shape.Concatenates [S16384x1, S16384x1] S16384x2 1
  bcast_S_S16384 : S_.BroadcastsInDim S16384 (![] : Fin 0 → Fin S16384.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x2_S512x2_0_0 : ∀ a, (![0, 0] : Fin 2 → Nat) a + S512x2.size a ≤ S512x2.size a
  h_S512x2 : 0 < S512x2.numel
  shapeCasts_S512x2_S512x2 : S512x2.ShapeCasts S512x2
  slices_S512x2_o0_0_S512x1 : S512x2.Slices ![0, 0] S512x1
  slices_S512x2_o0_1_S512x1 : S512x2.Slices ![0, 1] S512x1
  iota_S512x25_d1_w32 : S512x25.Iotas .tc 32 [1]
  broadcasts_S512x1_S512x25 : S512x1.Broadcasts S512x25
  natLt_1_32 : 1 < 32
  bitsLt_bf16_f32 : FTy.bits .bf16 < FTy.bits .f32
  inb_S25x8_S25x8_0_0 : ∀ a, (![0, 0] : Fin 2 → Nat) a + S25x8.size a ≤ S25x8.size a
  h_S25x8 : 0 < S25x8.numel
  iota_S512x12_d1_w32 : S512x12.Iotas .tc 32 [1]
  broadcasts_S512x1_S512x12 : S512x1.Broadcasts S512x12
  inb_S12x4_S12x4_0_0 : ∀ a, (![0, 0] : Fin 2 → Nat) a + S12x4.size a ≤ S12x4.size a
  h_S12x4 : 0 < S12x4.numel
  inb_S512x16_S512x16_0_0 : ∀ a, (![0, 0] : Fin 2 → Nat) a + S512x16.size a ≤ S512x16.size a
  h_S512x16 : 0 < S512x16.numel
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S64x64_S64x64_0_0 : ∀ a, (![0, 0] : Fin 2 → Nat) a + S64x64.size a ≤ S64x64.size a
  h_S64x64 : 0 < S64x64.numel
  concatenates_S512x64_S512x8_S512x4_S512x64_S512x140_d1 : Shape.Concatenates [S512x64, S512x8, S512x4, S512x64] S512x140 1
  inb_S512x140_S512x140_0_0 : ∀ a, (![0, 0] : Fin 2 → Nat) a + S512x140.size a ≤ S512x140.size a
  h_S512x140 : 0 < S512x140.numel
  inb_S1x5120x140_S1x5120x140_0_0_0 : ∀ a, (![0, 0, 0] : Fin 3 → Nat) a + S1x5120x140.size a ≤ S1x5120x140.size a
  h_S1x5120x140 : 0 < S1x5120x140.numel
  shapeCasts_S1x5120x140_S5120x140 : S1x5120x140.ShapeCasts S5120x140
  shapeCasts_S5120x140_S1x5120x140 : S5120x140.ShapeCasts S1x5120x140
  inb_S1x1x5120_S1x1x5120_0_0_0 : ∀ a, (![0, 0, 0] : Fin 3 → Nat) a + S1x1x5120.size a ≤ S1x1x5120.size a
  h_S1x1x5120 : 0 < S1x1x5120.numel
  shapeCasts_S1x1x5120_S1x5120 : S1x1x5120.ShapeCasts S1x5120
  shapeCasts_S1x5120_S1x1x5120 : S1x5120.ShapeCasts S1x1x5120
  inb_S1x128x140_S1x128x140_0_0_0 : ∀ a, (![0, 0, 0] : Fin 3 → Nat) a + S1x128x140.size a ≤ S1x128x140.size a
  h_S1x128x140 : 0 < S1x128x140.numel
  shapeCasts_S1x128x140_S128x140 : S1x128x140.ShapeCasts S128x140
  shapeCasts_S128x140_S1x128x140 : S128x140.ShapeCasts S1x128x140
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S512x140_S512x140 : S512x140.ShapeCasts S512x140
  iota_S512x5120_d1_w32 : S512x5120.Iotas .tc 32 [1]
  broadcasts_S512x1_S512x5120 : S512x1.Broadcasts S512x5120
  iota_S512x128_d1_w32 : S512x128.Iotas .tc 32 [1]
  broadcasts_S512x1_S512x128 : S512x1.Broadcasts S512x128
  reducesTo_S2x5120x140_S5120x140_d0 : S2x5120x140.ReducesTo [0] S5120x140
  h_S_ : 0 < S_.numel
  reducesTo_S2x1x5120_S1x5120_d0 : S2x1x5120.ReducesTo [0] S1x5120
  reducesTo_S2x128x140_S128x140_d0 : S2x128x140.ReducesTo [0] S128x140
  reducesTo_S2x1x128_S1x128_d0 : S2x1x128.ReducesTo [0] S1x128
  shapeCasts_S1x5120_S5120x1 : S1x5120.ShapeCasts S5120x1
  bcast_S_S5120x1 : S_.BroadcastsInDim S5120x1 (![] : Fin 0 → Fin S5120x1.rank)
  bcast_S5120x1_S5120x140_0_1 : S5120x1.BroadcastsInDim S5120x140 (![0, 1] : Fin 2 → Fin S5120x140.rank)
  shapeCasts_S1x128_S128x1 : S1x128.ShapeCasts S128x1
  bcast_S_S128x1 : S_.BroadcastsInDim S128x1 (![] : Fin 0 → Fin S128x1.rank)
  bcast_S128x1_S128x140_0_1 : S128x1.BroadcastsInDim S128x140 (![0, 1] : Fin 2 → Fin S128x140.rank)
  inb_S5120x140_S5120x140_0_0 : ∀ a, (![0, 0] : Fin 2 → Nat) a + S5120x140.size a ≤ S5120x140.size a
  h_S5120x140 : 0 < S5120x140.numel
  shapeCasts_S5120x140_S5120x140 : S5120x140.ShapeCasts S5120x140
  inb_S128x140_S128x140_0_0 : ∀ a, (![0, 0] : Fin 2 → Nat) a + S128x140.size a ≤ S128x140.size a
  h_S128x140 : 0 < S128x140.numel
  shapeCasts_S128x140_S128x140 : S128x140.ShapeCasts S128x140
  concatenates_S512x140_S512x140_S512x140_S512x420_d1 : Shape.Concatenates [S512x140, S512x140, S512x140] S512x420 1
  inb_S420x128_S420x128_0_0 : ∀ a, (![0, 0] : Fin 2 → Nat) a + S420x128.size a ≤ S420x128.size a
  h_S420x128 : 0 < S420x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  gather_S1000000x64_S16384x1_S16384x64_1_0_n_n_0_1_164_wf : GatherDims.WF S1000000x64 S16384x1 S16384x64 [1] [0] [] [0] [] 1 ![1, 64]
  gather_S1000000_S16384x1_S16384_n_0_n_n_0_1_1_wf : GatherDims.WF S1000000 S16384x1 S16384 [] [0] [] [0] [] 1 ![1]
  dot_S512x25_S25x8_S512x8_1_0_0_1_n_n_wf : DotDims.WF S512x25 S25x8 S512x8 [1] [0] [0] [1] [] []
  dot_S512x12_S12x4_S512x4_1_0_0_1_n_n_wf : DotDims.WF S512x12 S12x4 S512x4 [1] [0] [0] [1] [] []
  dot_S512x16_S16x64_S512x64_1_0_0_1_n_n_wf : DotDims.WF S512x16 S16x64 S512x64 [1] [0] [0] [1] [] []
  dot_S512x64_S64x64_S512x64_1_0_0_1_n_n_wf : DotDims.WF S512x64 S64x64 S512x64 [1] [0] [0] [1] [] []
  dot_S512x5120_S512x140_S5120x140_0_0_1_1_n_n_wf : DotDims.WF S512x5120 S512x140 S5120x140 [0] [0] [1] [1] [] []
  dot_S1x512_S512x5120_S1x5120_1_0_0_1_n_n_wf : DotDims.WF S1x512 S512x5120 S1x5120 [1] [0] [0] [1] [] []
  dot_S512x128_S512x140_S128x140_0_0_1_1_n_n_wf : DotDims.WF S512x128 S512x140 S128x140 [0] [0] [1] [1] [] []
  dot_S1x512_S512x128_S1x128_1_0_0_1_n_n_wf : DotDims.WF S1x512 S512x128 S1x128 [1] [0] [0] [1] [] []
  dot_S512x5120_S5120x140_S512x140_1_0_0_1_n_n_wf : DotDims.WF S512x5120 S5120x140 S512x140 [1] [0] [0] [1] [] []
  dot_S512x128_S128x140_S512x140_1_0_0_1_n_n_wf : DotDims.WF S512x128 S128x140 S512x140 [1] [0] [0] [1] [] []
  dot_S512x420_S420x128_S512x128_1_0_0_1_n_n_wf : DotDims.WF S512x420 S420x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S16384x64.size a
  hwx0_0 : ∀ i : grid0.Coords, EltTy.bits .f32 = 32 ∨ (Rect.block (s := S16384x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S16384x2.size a
  hwx0_1 : ∀ i : grid0.Coords, EltTy.bits .i32 = 32 ∨ (Rect.block (s := S16384x2) S512x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S16384x16.size a
  hwx0_2 : ∀ i : grid0.Coords, EltTy.bits .f32 = 32 ∨ (Rect.block (s := S16384x16) S512x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S25x8.size a ≤ S25x8.size a
  hwx0_3 : ∀ i : grid0.Coords, EltTy.bits .f32 = 32 ∨ (Rect.block (s := S25x8) S25x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x4.size a ≤ S12x4.size a
  hwx0_4 : ∀ i : grid0.Coords, EltTy.bits .f32 = 32 ∨ (Rect.block (s := S12x4) S12x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x140.size a ≤ S16384x140.size a
  hwx0_9 : ∀ i : grid0.Coords, EltTy.bits .f32 = 32 ∨ (Rect.block (s := S16384x140) S512x140.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x140.size a ≤ S16384x140.size a
  hwx1_0 : ∀ i : grid1.Coords, EltTy.bits .f32 = 32 ∨ (Rect.block (s := S16384x140) S512x140.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2.size a ≤ S16384x2.size a
  hwx1_1 : ∀ i : grid1.Coords, EltTy.bits .i32 = 32 ∨ (Rect.block (s := S16384x2) S512x2.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x5120x140.size a ≤ S2x5120x140.size a
  hwx1_2 : ∀ i : grid1.Coords, EltTy.bits .f32 = 32 ∨ (Rect.block (s := S2x5120x140) S1x5120x140.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x5120.size a ≤ S2x1x5120.size a
  hwx1_3 : ∀ i : grid1.Coords, EltTy.bits .f32 = 32 ∨ (Rect.block (s := S2x1x5120) S1x1x5120.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x140.size a ≤ S2x128x140.size a
  hwx1_4 : ∀ i : grid1.Coords, EltTy.bits .f32 = 32 ∨ (Rect.block (s := S2x128x140) S1x128x140.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S2x1x128.size a
  hwx1_5 : ∀ i : grid1.Coords, EltTy.bits .f32 = 32 ∨ (Rect.block (s := S2x1x128) S1x1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x140.size a ≤ S16384x140.size a
  hwx2_0 : ∀ i : grid2.Coords, EltTy.bits .f32 = 32 ∨ (Rect.block (s := S16384x140) S512x140.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2.size a ≤ S16384x2.size a
  hwx2_1 : ∀ i : grid2.Coords, EltTy.bits .i32 = 32 ∨ (Rect.block (s := S16384x2) S512x2.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5120x140.size a ≤ S5120x140.size a
  hwx2_2 : ∀ i : grid2.Coords, EltTy.bits .f32 = 32 ∨ (Rect.block (s := S5120x140) S5120x140.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x140.size a ≤ S128x140.size a
  hwx2_3 : ∀ i : grid2.Coords, EltTy.bits .f32 = 32 ∨ (Rect.block (s := S128x140) S128x140.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S420x128.size a ≤ S420x128.size a
  hwx2_4 : ∀ i : grid2.Coords, EltTy.bits .f32 = 32 ∨ (Rect.block (s := S420x128) S420x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S512x128.size a ≤ S16384x128.size a
  hwx2_8 : ∀ i : grid2.Coords, EltTy.bits .f32 = 32 ∨ (Rect.block (s := S16384x128) S512x128.size (cc2_transform_8 i) (hinb2_8 i)).WholeWords (EltTy.packing .f32)

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S1000000_S16384x1_S16384_n_0_n_n_0_1_1 : GatherDims S1000000 S16384x1 S16384 where
  offsetDims := []
  collapsedSliceDims := [0]
  operandBatchingDims := []
  startIndicesBatchingDims := []
  startIndexMap := [0]
  indexVectorDim := 1
  sliceSizes := ![1]
  wf := gather_S1000000_S16384x1_S16384_n_0_n_n_0_1_1_wf
def dot_S512x25_S25x8_S512x8_1_0_0_1_n_n : DotDims S512x25 S25x8 S512x8 where
  lhsContracting := [1]
  rhsContracting := [0]
  lhsNonContracting := [0]
  rhsNonContracting := [1]
  lhsBatch := []
  rhsBatch := []
  wf := dot_S512x25_S25x8_S512x8_1_0_0_1_n_n_wf
def dot_S512x12_S12x4_S512x4_1_0_0_1_n_n : DotDims S512x12 S12x4 S512x4 where
  lhsContracting := [1]
  rhsContracting := [0]
  lhsNonContracting := [0]
  rhsNonContracting := [1]
  lhsBatch := []
  rhsBatch := []
  wf := dot_S512x12_S12x4_S512x4_1_0_0_1_n_n_wf
def dot_S512x16_S16x64_S512x64_1_0_0_1_n_n : DotDims S512x16 S16x64 S512x64 where
  lhsContracting := [1]
  rhsContracting := [0]
  lhsNonContracting := [0]
  rhsNonContracting := [1]
  lhsBatch := []
  rhsBatch := []
  wf := dot_S512x16_S16x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x5120_S512x140_S5120x140_0_0_1_1_n_n : DotDims S512x5120 S512x140 S5120x140 where
  lhsContracting := [0]
  rhsContracting := [0]
  lhsNonContracting := [1]
  rhsNonContracting := [1]
  lhsBatch := []
  rhsBatch := []
  wf := dot_S512x5120_S512x140_S5120x140_0_0_1_1_n_n_wf
def dot_S1x512_S512x5120_S1x5120_1_0_0_1_n_n : DotDims S1x512 S512x5120 S1x5120 where
  lhsContracting := [1]
  rhsContracting := [0]
  lhsNonContracting := [0]
  rhsNonContracting := [1]
  lhsBatch := []
  rhsBatch := []
  wf := dot_S1x512_S512x5120_S1x5120_1_0_0_1_n_n_wf
def dot_S512x128_S512x140_S128x140_0_0_1_1_n_n : DotDims S512x128 S512x140 S128x140 where
  lhsContracting := [0]
  rhsContracting := [0]
  lhsNonContracting := [1]
  rhsNonContracting := [1]
  lhsBatch := []
  rhsBatch := []
  wf := dot_S512x128_S512x140_S128x140_0_0_1_1_n_n_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf
def dot_S512x5120_S5120x140_S512x140_1_0_0_1_n_n : DotDims S512x5120 S5120x140 S512x140 where
  lhsContracting := [1]
  rhsContracting := [0]
  lhsNonContracting := [0]
  rhsNonContracting := [1]
  lhsBatch := []
  rhsBatch := []
  wf := dot_S512x5120_S5120x140_S512x140_1_0_0_1_n_n_wf
def dot_S512x128_S128x140_S512x140_1_0_0_1_n_n : DotDims S512x128 S128x140 S512x140 where
  lhsContracting := [1]
  rhsContracting := [0]
  lhsNonContracting := [0]
  rhsNonContracting := [1]
  lhsBatch := []
  rhsBatch := []
  wf := dot_S512x128_S128x140_S512x140_1_0_0_1_n_n_wf
def dot_S512x420_S420x128_S512x128_1_0_0_1_n_n : DotDims S512x420 S420x128 S512x128 where
  lhsContracting := [1]
  rhsContracting := [0]
  lhsNonContracting := [0]
  rhsNonContracting := [1]
  lhsBatch := []
  rhsBatch := []
  wf := dot_S512x420_S420x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v9) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S25x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S12x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S512x140.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v27) S512x140.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S512x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28_0) S1x5120x140.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28_1) S1x1x5120.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_2) S1x128x140.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28_3) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S512x140.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S512x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S5120x140.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S128x140.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S420x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v43) S512x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S16384 : Shape := ⟨1, ![16384]⟩
abbrev S16384x16 : Shape := ⟨2, ![16384, 16]⟩
abbrev S1000000 : Shape := ⟨1, ![1000000]⟩
abbrev S1000000x64 : Shape := ⟨2, ![1000000, 64]⟩
abbrev S25x8 : Shape := ⟨2, ![25, 8]⟩
abbrev S12x4 : Shape := ⟨2, ![12, 4]⟩
abbrev S16x64 : Shape := ⟨2, ![16, 64]⟩
abbrev S64 : Shape := ⟨1, ![64]⟩
abbrev S64x64 : Shape := ⟨2, ![64, 64]⟩
abbrev S420x128 : Shape := ⟨2, ![420, 128]⟩
abbrev S128 : Shape := ⟨1, ![128]⟩
abbrev S128x128 : Shape := ⟨2, ![128, 128]⟩
abbrev S16384x64 : Shape := ⟨2, ![16384, 64]⟩
abbrev S1x64 : Shape := ⟨2, ![1, 64]⟩
abbrev S_ : Shape := ⟨0, ![]⟩
abbrev S16384x1 : Shape := ⟨2, ![16384, 1]⟩
abbrev S16384x8 : Shape := ⟨2, ![16384, 8]⟩
abbrev S16384x4 : Shape := ⟨2, ![16384, 4]⟩
abbrev S16384x140 : Shape := ⟨2, ![16384, 140]⟩
abbrev S5000x140 : Shape := ⟨2, ![5000, 140]⟩
abbrev S5000 : Shape := ⟨1, ![5000]⟩
abbrev S5000x1 : Shape := ⟨2, ![5000, 1]⟩
abbrev S25x140 : Shape := ⟨2, ![25, 140]⟩
abbrev S25 : Shape := ⟨1, ![25]⟩
abbrev S25x1 : Shape := ⟨2, ![25, 1]⟩
abbrev S16384x420 : Shape := ⟨2, ![16384, 420]⟩
abbrev S16384x128 : Shape := ⟨2, ![16384, 128]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384x16, .f32⟩
  | 4 => ⟨S1000000, .i32⟩
  | 5 => ⟨S1000000, .i32⟩
  | 6 => ⟨S1000000x64, .f32⟩
  | 7 => ⟨S25x8, .f32⟩
  | 8 => ⟨S12x4, .f32⟩
  | 9 => ⟨S16x64, .f32⟩
  | 10 => ⟨S64, .f32⟩
  | 11 => ⟨S64x64, .f32⟩
  | 12 => ⟨S64, .f32⟩
  | 13 => ⟨S420x128, .f32⟩
  | 14 => ⟨S128, .f32⟩
  | 15 => ⟨S128x128, .f32⟩
  | 16 => ⟨S128, .f32⟩
  | 17 => ⟨S16384x64, .f32⟩
  | 18 => ⟨S1x64, .f32⟩
  | 19 => ⟨S16384x64, .f32⟩
  | 20 => ⟨S16384x64, .f32⟩
  | 21 => ⟨S_, .f32⟩
  | 22 => ⟨S16384x64, .f32⟩
  | 23 => ⟨S16384x64, .f32⟩
  | 24 => ⟨S16384x64, .f32⟩
  | 25 => ⟨S1x64, .f32⟩
  | 26 => ⟨S16384x64, .f32⟩
  | 27 => ⟨S16384x64, .f32⟩
  | 28 => ⟨S_, .f32⟩
  | 29 => ⟨S16384x64, .f32⟩
  | 30 => ⟨S16384x64, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S16384x64, .f32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S16384x8, .f32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S16384x4, .f32⟩
  | 58 => ⟨S16384x140, .f32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S16384, .i32⟩
  | 68 => ⟨S_, .i32⟩
  | 69 => ⟨S16384, .i32⟩
  | 70 => ⟨S16384, .i1⟩
  | 71 => ⟨S_, .i32⟩
  | 72 => ⟨S16384, .i32⟩
  | 73 => ⟨S16384, .i32⟩
  | 74 => ⟨S16384, .i32⟩
  | 75 => ⟨S16384x1, .i32⟩
  | 76 => ⟨S16384, .i32⟩
  | 77 => ⟨S_, .f32⟩
  | 78 => ⟨S5000x140, .f32⟩
  | 79 => ⟨S16384x1, .i32⟩
  | 80 => ⟨S5000x140, .f32⟩
  | 81 => ⟨S_, .f32⟩
  | 82 => ⟨S16384, .f32⟩
  | 83 => ⟨S_, .f32⟩
  | 84 => ⟨S5000, .f32⟩
  | 85 => ⟨S16384x1, .i32⟩
  | 86 => ⟨S5000, .f32⟩
  | 87 => ⟨S_, .f32⟩
  | 88 => ⟨S5000, .f32⟩
  | 89 => ⟨S5000, .f32⟩
  | 90 => ⟨S5000x1, .f32⟩
  | 91 => ⟨S5000x140, .f32⟩
  | 92 => ⟨S5000x140, .f32⟩
  | 93 => ⟨S_, .i32⟩
  | 94 => ⟨S16384, .i32⟩
  | 95 => ⟨S16384, .i1⟩
  | 96 => ⟨S_, .i32⟩
  | 97 => ⟨S16384, .i32⟩
  | 98 => ⟨S16384, .i32⟩
  | 99 => ⟨S16384, .i32⟩
  | 100 => ⟨S16384x1, .i32⟩
  | 101 => ⟨S16384x140, .f32⟩
  | 102 => ⟨S_, .f32⟩
  | 103 => ⟨S25x140, .f32⟩
  | 104 => ⟨S16384x1, .i32⟩
  | 105 => ⟨S25x140, .f32⟩
  | 106 => ⟨S_, .f32⟩
  | 107 => ⟨S16384, .f32⟩
  | 108 => ⟨S_, .f32⟩
  | 109 => ⟨S25, .f32⟩
  | 110 => ⟨S16384x1, .i32⟩
  | 111 => ⟨S25, .f32⟩
  | 112 => ⟨S_, .f32⟩
  | 113 => ⟨S25, .f32⟩
  | 114 => ⟨S25, .f32⟩
  | 115 => ⟨S25x1, .f32⟩
  | 116 => ⟨S25x140, .f32⟩
  | 117 => ⟨S25x140, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S16384x140, .f32⟩
  | 127 => ⟨S16384x420, .f32⟩
  | _ => ⟨S16384, .i32⟩

abbrev hbmTy0_1 (i : Nat) : BufTy := match i % 128 with
  | 0 => ⟨S16384x128, .f32⟩
  | 1 => ⟨S1x128, .f32⟩
  | 2 => ⟨S16384x128, .f32⟩
  | 3 => ⟨S16384x128, .f32⟩
  | 4 => ⟨S_, .f32⟩
  | 5 => ⟨S16384x128, .f32⟩
  | 6 => ⟨S16384x128, .f32⟩
  | 7 => ⟨S16384x128, .f32⟩
  | 8 => ⟨S1x128, .f32⟩
  | 9 => ⟨S16384x128, .f32⟩
  | 10 => ⟨S16384x128, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_c : Ref sig .tc := ⟨.hbm, 31, rfl⟩
abbrev main_v10 : Ref sig .tc := ⟨.hbm, 32, rfl⟩
abbrev main_v11 : Ref sig .tc := ⟨.hbm, 33, rfl⟩
abbrev main_c_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_1 : Ref sig .tc := ⟨.hbm, 40, rfl⟩
abbrev main_v17 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_3 : Ref sig .tc := ⟨.hbm, 49, rfl⟩
abbrev main_v24 : Ref sig .tc := ⟨.hbm, 50, rfl⟩
abbrev main_v25 : Ref sig .tc := ⟨.hbm, 51, rfl⟩
abbrev main_c_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_7 : Ref sig .tc := ⟨.hbm, 68, rfl⟩
abbrev main_v39 : Ref sig .tc := ⟨.hbm, 69, rfl⟩
abbrev main_v40 : Ref sig .tc := ⟨.hbm, 70, rfl⟩
abbrev main_c_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_12 : Ref sig .tc := ⟨.hbm, 93, rfl⟩
abbrev main_v58 : Ref sig .tc := ⟨.hbm, 94, rfl⟩
abbrev main_v59 : Ref sig .tc := ⟨.hbm, 95, rfl⟩
abbrev main_c_13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_15 : Ref sig .tc := ⟨.hbm, 106, rfl⟩
abbrev main_v68 : Ref sig .tc := ⟨.hbm, 107, rfl⟩
abbrev main_cst_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_17 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_18 : Ref sig .tc := ⟨.hbm, 118, rfl⟩
abbrev main_v77 : Ref sig .tc := ⟨.hbm, 119, rfl⟩
abbrev main_v78 : Ref sig .tc := ⟨.hbm, 120, rfl⟩
abbrev main_c_19 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_call2_cst : Ref sig .tc := ⟨.hbm, 132, rfl⟩
abbrev main_call2_v0 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x64_S16384x8_S16384x4_S16384x64_S16384x140_d1 : Shape.Concatenates [S16384x64, S16384x8, S16384x4, S16384x64] S16384x140 1
  bcast_S_S5000x140 : S_.BroadcastsInDim S5000x140 (![] : Fin 0 → Fin S5000x140.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x140_0_1 : S5000x1.BroadcastsInDim S5000x140 (![0, 1] : Fin 2 → Fin S5000x140.rank)
  bcast_S_S25x140 : S_.BroadcastsInDim S25x140 (![] : Fin 0 → Fin S25x140.rank)
  bcast_S_S25 : S_.BroadcastsInDim S25 (![] : Fin 0 → Fin S25.rank)
  bcast_S25_S25x1_0 : S25.BroadcastsInDim S25x1 (![0] : Fin 1 → Fin S25x1.rank)
  bcast_S25x1_S25x140_0_1 : S25x1.BroadcastsInDim S25x140 (![0, 1] : Fin 2 → Fin S25x140.rank)
  concatenates_S16384x140_S16384x140_S16384x140_S16384x420_d1 : Shape.Concatenates [S16384x140, S16384x140, S16384x140] S16384x420 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  dot_S16384x16_S16x64_S16384x64_1_0_0_1_n_n_wf : DotDims.WF S16384x16 S16x64 S16384x64 [1] [0] [0] [1] [] []
  dot_S16384x64_S64x64_S16384x64_1_0_0_1_n_n_wf : DotDims.WF S16384x64 S64x64 S16384x64 [1] [0] [0] [1] [] []
  gather_S1000000x64_S16384x1_S16384x64_1_0_n_n_0_1_164_wf : GatherDims.WF S1000000x64 S16384x1 S16384x64 [1] [0] [] [0] [] 1 ![1, 64]
  gather_S25x8_S16384x1_S16384x8_1_0_n_n_0_1_18_wf : GatherDims.WF S25x8 S16384x1 S16384x8 [1] [0] [] [0] [] 1 ![1, 8]
  gather_S12x4_S16384x1_S16384x4_1_0_n_n_0_1_14_wf : GatherDims.WF S12x4 S16384x1 S16384x4 [1] [0] [] [0] [] 1 ![1, 4]
  gather_S1000000_S16384x1_S16384_n_0_n_n_0_1_1_wf : GatherDims.WF S1000000 S16384x1 S16384 [] [0] [] [0] [] 1 ![1]
  scatter_S5000x140_S16384x1_S16384x140_1_0_0_1_wf : ScatterDims.WF S5000x140 S16384x1 S16384x140 [1] [0] [0] 1
  scatter_S5000_S16384x1_S16384_n_0_0_1_wf : ScatterDims.WF S5000 S16384x1 S16384 [] [0] [0] 1
  gather_S5000x140_S16384x1_S16384x140_1_0_n_n_0_1_1140_wf : GatherDims.WF S5000x140 S16384x1 S16384x140 [1] [0] [] [0] [] 1 ![1, 140]
  scatter_S25x140_S16384x1_S16384x140_1_0_0_1_wf : ScatterDims.WF S25x140 S16384x1 S16384x140 [1] [0] [0] 1
  scatter_S25_S16384x1_S16384_n_0_0_1_wf : ScatterDims.WF S25 S16384x1 S16384 [] [0] [0] 1
  gather_S25x140_S16384x1_S16384x140_1_0_n_n_0_1_1140_wf : GatherDims.WF S25x140 S16384x1 S16384x140 [1] [0] [] [0] [] 1 ![1, 140]
  dot_S16384x420_S420x128_S16384x128_1_0_0_1_n_n_wf : DotDims.WF S16384x420 S420x128 S16384x128 [1] [0] [0] [1] [] []
  dot_S16384x128_S128x128_S16384x128_1_0_0_1_n_n_wf : DotDims.WF S16384x128 S128x128 S16384x128 [1] [0] [0] [1] [] []

variable [Facts₀]

def dot_S16384x16_S16x64_S16384x64_1_0_0_1_n_n : DotDims S16384x16 S16x64 S16384x64 where
  lhsContracting := [1]
  rhsContracting := [0]
  lhsNonContracting := [0]
  rhsNonContracting := [1]
  lhsBatch := []
  rhsBatch := []
  wf := dot_S16384x16_S16x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S25x8_S16384x1_S16384x8_1_0_n_n_0_1_18 : GatherDims S25x8 S16384x1 S16384x8 where
  offsetDims := [1]
  collapsedSliceDims := [0]
  operandBatchingDims := []
  startIndicesBatchingDims := []
  startIndexMap := [0]
  indexVectorDim := 1
  sliceSizes := ![1, 8]
  wf := gather_S25x8_S16384x1_S16384x8_1_0_n_n_0_1_18_wf
def gather_S12x4_S16384x1_S16384x4_1_0_n_n_0_1_14 : GatherDims S12x4 S16384x1 S16384x4 where
  offsetDims := [1]
  collapsedSliceDims := [0]
  operandBatchingDims := []
  startIndicesBatchingDims := []
  startIndexMap := [0]
  indexVectorDim := 1
  sliceSizes := ![1, 4]
  wf := gather_S12x4_S16384x1_S16384x4_1_0_n_n_0_1_14_wf
def gather_S1000000_S16384x1_S16384_n_0_n_n_0_1_1 : GatherDims S1000000 S16384x1 S16384 where
  offsetDims := []
  collapsedSliceDims := [0]
  operandBatchingDims := []
  startIndicesBatchingDims := []
  startIndexMap := [0]
  indexVectorDim := 1
  sliceSizes := ![1]
  wf := gather_S1000000_S16384x1_S16384_n_0_n_n_0_1_1_wf
def scatter_S5000x140_S16384x1_S16384x140_1_0_0_1 : ScatterDims S5000x140 S16384x1 S16384x140 where
  updateWindowDims := [1]
  insertedWindowDims := [0]
  scatterDimsToOperandDims := [0]
  indexVectorDim := 1
  wf := scatter_S5000x140_S16384x1_S16384x140_1_0_0_1_wf
def scatter_S5000_S16384x1_S16384_n_0_0_1 : ScatterDims S5000 S16384x1 S16384 where
  updateWindowDims := []
  insertedWindowDims := [0]
  scatterDimsToOperandDims := [0]
  indexVectorDim := 1
  wf := scatter_S5000_S16384x1_S16384_n_0_0_1_wf
def gather_S5000x140_S16384x1_S16384x140_1_0_n_n_0_1_1140 : GatherDims S5000x140 S16384x1 S16384x140 where
  offsetDims := [1]
  collapsedSliceDims := [0]
  operandBatchingDims := []
  startIndicesBatchingDims := []
  startIndexMap := [0]
  indexVectorDim := 1
  sliceSizes := ![1, 140]
  wf := gather_S5000x140_S16384x1_S16384x140_1_0_n_n_0_1_1140_wf
def scatter_S25x140_S16384x1_S16384x140_1_0_0_1 : ScatterDims S25x140 S16384x1 S16384x140 where
  updateWindowDims := [1]
  insertedWindowDims := [0]
  scatterDimsToOperandDims := [0]
  indexVectorDim := 1
  wf := scatter_S25x140_S16384x1_S16384x140_1_0_0_1_wf
def scatter_S25_S16384x1_S16384_n_0_0_1 : ScatterDims S25 S16384x1 S16384 where
  updateWindowDims := []
  insertedWindowDims := [0]
  scatterDimsToOperandDims := [0]
  indexVectorDim := 1
  wf := scatter_S25_S16384x1_S16384_n_0_0_1_wf
def gather_S25x140_S16384x1_S16384x140_1_0_n_n_0_1_1140 : GatherDims S25x140 S16384x1 S16384x140 where
  offsetDims := [1]
  collapsedSliceDims := [0]
  operandBatchingDims := []
  startIndicesBatchingDims := []
  startIndexMap := [0]
  indexVectorDim := 1
  sliceSizes := ![1, 140]
  wf := gather_S25x140_S16384x1_S16384x140_1_0_n_n_0_1_1140_wf
def dot_S16384x420_S420x128_S16384x128_1_0_0_1_n_n : DotDims S16384x420 S420x128 S16384x128 where
  lhsContracting := [1]
  rhsContracting := [0]
  lhsNonContracting := [0]
  rhsNonContracting := [1]
  lhsBatch := []
  rhsBatch := []
  wf := dot_S16384x420_S420x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.Spec.lean ====
/-
  The mathematics both programs compute, over the extended reals, index by index.

  A batch of 16384 samples. Each sample's own representation is a row of 140 numbers: the 64 entries of its
  row of the node table, the 8 entries of its rating's row, the 4 entries of its currency's row, and a
  two-layer perceptron (affine, clip at zero, affine, clip at zero) of its 16 numeric features.
  Samples are grouped twice, by an issuer word and by a sector word; a group's mean is the sum of its
  members' rows divided by the larger of the member count and one. The result row of a sample is a second
  two-layer perceptron of its own row joined with its issuer group's mean and its sector group's mean.

  A group is selected by an indicator: `hot w g` is one where the word `w` is the number `g` and zero
  elsewhere, so a sum of `hot w g * f g` over `g` picks `f` at the word's number, and a sum of
  `hot (seg b) g * h b` over the samples `b` adds `h` over the members of group `g`.
-/
import Idealize.ShloMosaic.PureOps.Ideal
import Idealize.ShloMosaic.Lib.ValueIdx
import Idealize.ShloMosaic.Lib.ValueIdxRank1

noncomputable section

namespace Cert.Spec

open Idealize.ShloMosaic Idealize.ShloMosaic.ValueIdx

/-- A matrix of extended reals, a row of them, and a matrix of 32-bit words, over literal shapes. -/
abbrev Mat (a b : ℕ) : Type := (⟨2, ![a, b]⟩ : Shape).Idx → EReal
abbrev Row (a : ℕ) : Type := (⟨1, ![a]⟩ : Shape).Idx → EReal
abbrev WMat (a b : ℕ) : Type := (⟨2, ![a, b]⟩ : Shape).Idx → BitVec 32

/-- The indicator of "the word `w` is the number `g`". -/
def hot (w : BitVec 32) (g : ℕ) : EReal := if w = BitVec.ofNat 32 g then 1 else 0

/-- A word that names a row of a table of `N` rows: its signed reading lies in `[0, N)`. -/
def InRange (N : ℕ) (w : BitVec 32) : Prop := 0 ≤ w.toInt ∧ w.toInt < (N : ℤ)

/-- The row a word names in a table of `N` rows (the last row for a word that names none). -/
def rowIx (N : ℕ) (hN : 0 < N) (w : BitVec 32) : Fin N := ⟨min w.toNat (N - 1), by omega⟩

/-- Clip at zero. -/
def relu (x : EReal) : EReal := max x 0

/-- An affine layer on row `b`: the row times the weight matrix, plus the bias. -/
def lin {n K Mo : ℕ} (X : Fin n → Fin K → EReal) (W : Mat K Mo) (bias : Row Mo) (b : Fin n) (j : Fin Mo) : EReal :=
  (∑ k : Fin K, X b k * W (ix2 k j)) + bias (ix1 j)

/-- The numeric features' two-layer perceptron. -/
def hnum (nums : Mat 16384 16) (W1 : Mat 16 64) (b1 : Row 64) (W2 : Mat 64 64) (b2 : Row 64)
    (b : Fin 16384) (j : Fin 64) : EReal :=
  relu (lin (fun b k => relu (lin (fun b i => nums (ix2 b i)) W1 b1 b k)) W2 b2 b j)

/-- A sample's own row: node-table row | rating row | currency row | numeric perceptron. -/
def hself (idr : Mat 16384 64) (RE : Mat 25 8) (CE : Mat 12 4) (rat : Fin 16384 → Fin 25) (cur : Fin 16384 → Fin 12)
    (hn : Fin 16384 → Fin 64 → EReal) (b : Fin 16384) (d : Fin 140) : EReal :=
  if h : d.val < 64 then idr (ix2 b ⟨d.val, h⟩)
  else if h2 : d.val < 72 then RE (ix2 (rat b) ⟨d.val - 64, by omega⟩)
  else if h3 : d.val < 76 then CE (ix2 (cur b) ⟨d.val - 72, by omega⟩)
  else hn b ⟨d.val - 76, by have := d.isLt; omega⟩

/-- The sum of the members' rows of group `g`, and the member count. -/
def segsum (H : Fin 16384 → Fin 140 → EReal) (seg : Fin 16384 → BitVec 32) (g : ℕ) (d : Fin 140) : EReal :=
  ∑ b : Fin 16384, hot (seg b) g * H b d
def segcnt (seg : Fin 16384 → BitVec 32) (g : ℕ) : EReal := ∑ b : Fin 16384, hot (seg b) g

/-- A group's mean: the sum over the larger of the count and one. -/
def segmean (H : Fin 16384 → Fin 140 → EReal) (seg : Fin 16384 → BitVec 32) (g : ℕ) (d : Fin 140) : EReal :=
  Ideal.div (segsum H seg g d) (max (segcnt seg g) 1)

/-- Own row | issuer mean | sector mean: 420 numbers. -/
def hcat (H MI MS : Fin 16384 → Fin 140 → EReal) (b : Fin 16384) (d : Fin 420) : EReal :=
  if h : d.val < 140 then H b ⟨d.val, h⟩
  else if h2 : d.val < 280 then MI b ⟨d.val - 140, by omega⟩
  else MS b ⟨d.val - 280, by have := d.isLt; omega⟩

/-- The result row: affine, clip at zero, affine. -/
def out (X : Fin 16384 → Fin 420 → EReal) (A1 : Mat 420 128) (a1 : Row 128) (A2 : Mat 128 128) (a2 : Row 128)
    (b : Fin 16384) (j : Fin 128) : EReal :=
  lin (fun b k => relu (lin X A1 a1 b k)) A2 a2 b j

/-- The whole function of the arguments: `iss`, `sec` the samples' group words, `rat`, `cur` their table rows. -/
def result (idr : Mat 16384 64) (RE : Mat 25 8) (CE : Mat 12 4) (rat : Fin 16384 → Fin 25) (cur : Fin 16384 → Fin 12)
    (nums : Mat 16384 16) (W1 : Mat 16 64) (b1 : Row 64) (W2 : Mat 64 64) (b2 : Row 64)
    (iss sec : Fin 16384 → BitVec 32)
    (A1 : Mat 420 128) (a1 : Row 128) (A2 : Mat 128 128) (a2 : Row 128) (b : Fin 16384) (j : Fin 128) : EReal :=
  let H := hself idr RE CE rat cur (hnum nums W1 b1 W2 b2)
  out (hcat H (fun b d => segmean H iss (iss b).toNat d) (fun b d => segmean H sec (sec b).toNat d)) A1 a1 A2 a2 b j

/-- Row `r` of batch tile `t`: the batch is 32 tiles of 512 rows. -/
def tileRow (t : Fin 32) (r : Fin 512) : Fin 16384 := ⟨t.val * 512 + r.val, by omega⟩
/-- Tile `n` of half `cc` of the batch: a half is 16 tiles. -/
def halfTile (cc : Fin 2) (n : Fin 16) : Fin 32 := ⟨cc.val * 16 + n.val, by omega⟩
/-- The sum of `f` over one half of the batch, tile by tile. -/
def halfSum (f : Fin 16384 → EReal) (cc : Fin 2) : EReal :=
  ∑ n : Fin 16, ∑ r : Fin 512, f (tileRow (halfTile cc n) r)

/-- The batch is its 32 tiles laid end to end. -/
theorem sum_tiles (f : Fin 16384 → EReal) :
    ∑ b : Fin 16384, f b = ∑ t : Fin 32, ∑ r : Fin 512, f (tileRow t r) := by
  calc ∑ b : Fin 16384, f b
      = ∑ p : Fin 32 × Fin 512, f (finProdFinEquiv p) :=
        (Equiv.sum_comp (finProdFinEquiv (m := 32) (n := 512)) f).symm
    _ = ∑ t : Fin 32, ∑ r : Fin 512, f (finProdFinEquiv (t, r)) := Fintype.sum_prod_type _
    _ = ∑ t : Fin 32, ∑ r : Fin 512, f (tileRow t r) :=
        Finset.sum_congr rfl fun t _ => Finset.sum_congr rfl fun r _ => congrArg f (Fin.ext (by
          show r.val + 512 * t.val = t.val * 512 + r.val
          omega))

/-- The 32 tiles are the two halves' 16 tiles laid end to end. -/
theorem sum_halfTiles (g : Fin 32 → EReal) :
    ∑ t : Fin 32, g t = ∑ cc : Fin 2, ∑ n : Fin 16, g (halfTile cc n) := by
  calc ∑ t : Fin 32, g t
      = ∑ p : Fin 2 × Fin 16, g (finProdFinEquiv p) :=
        (Equiv.sum_comp (finProdFinEquiv (m := 2) (n := 16)) g).symm
    _ = ∑ cc : Fin 2, ∑ n : Fin 16, g (finProdFinEquiv (cc, n)) := Fintype.sum_prod_type _
    _ = ∑ cc : Fin 2, ∑ n : Fin 16, g (halfTile cc n) :=
        Finset.sum_congr rfl fun cc _ => Finset.sum_congr rfl fun n _ => congrArg g (Fin.ext (by
          show n.val + 16 * cc.val = cc.val * 16 + n.val
          omega))

/-- The two halves' sums add up to the sum over the batch. -/
theorem sum_halfSum (f : Fin 16384 → EReal) : ∑ cc : Fin 2, halfSum f cc = ∑ b : Fin 16384, f b := by
  rw [sum_tiles, sum_halfTiles]
  rfl

/-- An in-range word is the number of its own row. -/
theorem InRange.toNat_lt {N : ℕ} {w : BitVec 32} (h : InRange N w) : w.toNat < N := by
  obtain ⟨h0, h1⟩ := h
  have : w.toInt = (w.toNat : ℤ) := by
    rcases BitVec.toInt_eq_toNat_cond w with hc
    rw [hc] at h0 ⊢
    split at h0 <;> rename_i hlt
    · simp [hlt]
    · exfalso; have := w.isLt; omega
  omega

theorem rowIx_val {N : ℕ} (hN : 0 < N) {w : BitVec 32} (h : InRange N w) : (rowIx N hN w).val = w.toNat := by
  have := h.toNat_lt
  show min w.toNat (N - 1) = w.toNat
  omega

/-- The indicator against a row number: one exactly at the word's own number. -/
theorem hot_eq {w : BitVec 32} {g : ℕ} (hg : g < 2 ^ 32) : hot w g = if w.toNat = g then 1 else 0 := by
  unfold hot
  have : (w = BitVec.ofNat 32 g) ↔ w.toNat = g := by
    constructor
    · rintro rfl; rw [BitVec.toNat_ofNat]; exact Nat.mod_eq_of_lt hg
    · intro h; apply BitVec.eq_of_toNat_eq; rw [BitVec.toNat_ofNat, Nat.mod_eq_of_lt hg]; exact h
  simp only [this]

/-- Summing an indicator-weighted family over the rows picks the word's own row. -/
theorem sum_hot_mul {C : ℕ} (hC : C ≤ 2 ^ 32) {w : BitVec 32} (hw : w.toNat < C) (f : Fin C → EReal) :
    ∑ g : Fin C, hot w g.val * f g = f ⟨w.toNat, hw⟩ := by
  rw [Finset.sum_eq_single (⟨w.toNat, hw⟩ : Fin C)]
  · rw [hot_eq (by omega), if_pos rfl, one_mul]
  · intro g _ hne
    rw [hot_eq (by have := g.isLt; omega), if_neg (fun h => hne (Fin.ext h.symm)), zero_mul]
  · intro h; exact absurd (Finset.mem_univ _) h

end Cert.Spec

end
-- ==== Proof.Words.lean ====
/-
  The index words both programs derive from the sample's node number before anything else: a word vector made ready
  for a gather (a negative word wraps by the table's height, then the vector is laid out as a column), the samples'
  group words (a one-word-per-node group table read at each sample's node), and the samples' node-table rows.
  Stated once over each program's own printed gather records.
-/
import proofs.«412861_j3332894622337_3_alg».proof.Proof.Gen.KernelIdeal
import proofs.«412861_j3332894622337_3_alg».proof.Proof.Gen.ReferenceIdeal
import proofs.«412861_j3332894622337_3_alg».proof.Proof.Spec

noncomputable section

open Idealize.ShloMosaic

namespace Cert.KernelIdeal.Val

open Cert.KernelIdeal Cert.KernelIdeal.Facts₀ Cert.KernelIdeal.Facts

/-- A vector of 16384 index words made ready for a gather from a table of `N` rows. -/
def wrapCol (N : BitVec 32) (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 N))) x)

/-- The samples' group words: a group table of one word per node, read at each sample's node. -/
def groupWords (tbl : IVec S1000000 32) (nid : IVec S16384 32) : IVec S16384 32 :=
  Host.gather gather_S1000000_S16384x1_S16384_n_0_n_n_0_1_1 tbl (wrapCol 1000000#32 nid)

/-- The samples' node-table rows. -/
def nodeRows (E : FVec Ideal S1000000x64 .f32) (nid : IVec S16384 32) : FVec Ideal S16384x64 .f32 :=
  Host.gather gather_S1000000x64_S16384x1_S16384x64_1_0_n_n_0_1_164 E (wrapCol 1000000#32 nid)

end Cert.KernelIdeal.Val

namespace Cert.ReferenceIdeal.RefVal

open Cert.ReferenceIdeal Cert.ReferenceIdeal.Facts₀ Cert.ReferenceIdeal.Facts

/-- A vector of 16384 index words made ready for a gather from a table of `N` rows. -/
def wrapCol (N : BitVec 32) (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 N))) x)

/-- The samples' group words: a group table of one word per node, read at each sample's node. -/
def groupWords (tbl : IVec S1000000 32) (nid : IVec S16384 32) : IVec S16384 32 :=
  Host.gather gather_S1000000_S16384x1_S16384_n_0_n_n_0_1_1 tbl (wrapCol 1000000#32 nid)

/-- The samples' node-table rows. -/
def nodeRows (E : FVec Ideal S1000000x64 .f32) (nid : IVec S16384 32) : FVec Ideal S16384x64 .f32 :=
  Host.gather gather_S1000000x64_S16384x1_S16384x64_1_0_n_n_0_1_164 E (wrapCol 1000000#32 nid)

end Cert.ReferenceIdeal.RefVal

end
-- ==== Proof.HostOps.lean ====
/-
  The host operations around the kernel regions, read as values of the contents they start from.
  Before the first region: the gathered node-table rows, the two category words side by side, and the two group
  words (each the group table read at the sample's node) side by side.
  Between the second and the third region: each group's mean — the two halves' sums added, over the larger of the two
  halves' counts added and one.
-/
import proofs.«412861_j3332894622337_3_alg».proof.Proof.Gen.KernelIdeal.Frame
import proofs.«412861_j3332894622337_3_alg».proof.Proof.Spec
import proofs.«412861_j3332894622337_3_alg».proof.Proof.Words
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
namespace Cert.KernelIdeal.Val

open Cert.KernelIdeal Cert.KernelIdeal.Gen Cert.Spec Idealize.ShloMosaic.StableHlo

variable (Wv : Valuation τ sig (Elt Ideal))

/-! ## Columns side by side -/

/-- A vector laid out as a column, read at a row: the vector's entry there. -/
private theorem col_apply {α : Type} (x : S16384.Idx → α) (b : Fin 16384) :
    broadcastInDim S16384x1 ![0] bcast_S16384_S16384x1_0 x (ix2 b (0 : Fin 1)) = x (ix1 b) :=
  broadcastInDim_apply _ bcast_S16384_S16384x1_0 x (ix2 b (0 : Fin 1)) (ix1 b) (fun a => match a with
    | ⟨0, _⟩ => by show b.val = if (16384 : Nat) = 1 then 0 else b.val; rw [if_neg (by decide)])

/-- Two columns side by side, read in column 0: the first column. -/
private theorem pair_left {α : Type} (x y : S16384x1.Idx → α) (b : Fin 16384) :
    concatenate S16384x2 1 [⟨S16384x1, x⟩, ⟨S16384x1, y⟩] concatenates_S16384x1_S16384x1_S16384x2_d1 (ix2 b (0 : Fin 2))
      = x (ix2 b (0 : Fin 1)) :=
  concatenate_pair_apply_left (t := S16384x2) (s₁ := S16384x1) (s₂ := S16384x1) (1 : Fin 2) x y
    concatenates_S16384x1_S16384x1_S16384x2_d1 (ix2 b (0 : Fin 2)) rfl (ix2 b (0 : Fin 1)) (fun a => match a with
      | ⟨0, _⟩ => rfl
      | ⟨1, _⟩ => rfl)

/-- Two columns side by side, read in column 1: the second column. -/
private theorem pair_right {α : Type} (x y : S16384x1.Idx → α) (b : Fin 16384) :
    concatenate S16384x2 1 [⟨S16384x1, x⟩, ⟨S16384x1, y⟩] concatenates_S16384x1_S16384x1_S16384x2_d1 (ix2 b (1 : Fin 2))
      = y (ix2 b (0 : Fin 1)) :=
  concatenate_pair_apply_right (t := S16384x2) (s₁ := S16384x1) (s₂ := S16384x1) (1 : Fin 2) x y
    concatenates_S16384x1_S16384x1_S16384x2_d1 (ix2 b (1 : Fin 2)) rfl rfl (ix2 b (0 : Fin 1)) (fun a => match a with
      | ⟨0, _⟩ => fun _ => rfl
      | ⟨1, _⟩ => fun h => absurd rfl h) rfl

/-- Before region 0: the buffer of gathered node-table rows. -/
theorem hostpre_idrows :
    (StableHlo.after hostOps0 Wv (Proc.devRef .tc main_v9) : FVec Ideal S16384x64 .f32)
      = nodeRows (Wv (Proc.devRef .tc main_arg6)) (Wv (Proc.devRef .tc main_arg0)) := by
  show StableHlo.after hostOps0 Wv (Proc.devRef .tc main_v9) = _
  unfold nodeRows wrapCol
  after_results_simp

/-- Before region 0: the category words, rating in column 0 and currency in column 1. -/
theorem hostpre_meta (b : Fin 16384) :
    (StableHlo.after hostOps0 Wv (Proc.devRef .tc main_v2) : WMat 16384 2) (ix2 b (0 : Fin 2))
        = (Wv (Proc.devRef .tc main_arg1) : IVec S16384 32) (ix1 b)
    ∧ (StableHlo.after hostOps0 Wv (Proc.devRef .tc main_v2) : WMat 16384 2) (ix2 b (1 : Fin 2))
        = (Wv (Proc.devRef .tc main_arg2) : IVec S16384 32) (ix1 b) := by
  -- the buffer is the two word vectors, each laid out as a column, side by side
  have e : (StableHlo.after hostOps0 Wv (Proc.devRef .tc main_v2) : WMat 16384 2)
      = concatenate S16384x2 1
          [⟨S16384x1, broadcastInDim S16384x1 ![0] bcast_S16384_S16384x1_0 (Wv (Proc.devRef .tc main_arg1) : IVec S16384 32)⟩,
           ⟨S16384x1, broadcastInDim S16384x1 ![0] bcast_S16384_S16384x1_0 (Wv (Proc.devRef .tc main_arg2) : IVec S16384 32)⟩]
          concatenates_S16384x1_S16384x1_S16384x2_d1 := by
    show StableHlo.after hostOps0 Wv (Proc.devRef .tc main_v2) = _
    after_results
  rw [e]
  exact ⟨(pair_left _ _ b).trans (col_apply _ b), (pair_right _ _ b).trans (col_apply _ b)⟩

/-- Before region 0: the group words, issuer in column 0 and sector in column 1. -/
theorem hostpre_groups (b : Fin 16384) :
    (StableHlo.after hostOps0 Wv (Proc.devRef .tc main_v26) : WMat 16384 2) (ix2 b (0 : Fin 2))
        = groupWords (Wv (Proc.devRef .tc main_arg4)) (Wv (Proc.devRef .tc main_arg0)) (ix1 b)
    ∧ (StableHlo.after hostOps0 Wv (Proc.devRef .tc main_v26) : WMat 16384 2) (ix2 b (1 : Fin 2))
        = groupWords (Wv (Proc.devRef .tc main_arg5)) (Wv (Proc.devRef .tc main_arg0)) (ix1 b) := by
  -- the buffer is the two group-word vectors, each laid out as a column, side by side
  have e : (StableHlo.after hostOps0 Wv (Proc.devRef .tc main_v26) : WMat 16384 2)
      = concatenate S16384x2 1
          [⟨S16384x1, broadcastInDim S16384x1 ![0] bcast_S16384_S16384x1_0
              (groupWords (Wv (Proc.devRef .tc main_arg4)) (Wv (Proc.devRef .tc main_arg0)))⟩,
           ⟨S16384x1, broadcastInDim S16384x1 ![0] bcast_S16384_S16384x1_0
              (groupWords (Wv (Proc.devRef .tc main_arg5)) (Wv (Proc.devRef .tc main_arg0)))⟩]
          concatenates_S16384x1_S16384x1_S16384x2_d1 := by
    show StableHlo.after hostOps0 Wv (Proc.devRef .tc main_v26) = _
    simp only [after_cons, after_nil]
    rw [binary_result]
    -- column by column: each is a group table read at the wrapped node words
    refine congrArg₂ (fun x y : IVec S16384x1 32 => concatenate S16384x2 1 [⟨S16384x1, x⟩, ⟨S16384x1, y⟩]
      concatenates_S16384x1_S16384x1_S16384x2_d1) ?_ ?_
    · unfold groupWords wrapCol
      after_results_simp
    · unfold groupWords wrapCol
      after_results_simp
  rw [e]
  exact ⟨(pair_left _ _ b).trans (col_apply _ b), (pair_right _ _ b).trans (col_apply _ b)⟩

/-! ## The means between the regions -/

/-- The word `0x3F800000` read as a float is one. -/
private theorem one_f32 : Ideal.ofBits .f32 0x3F800000#32 = 1 := by
  rw [show (1 : EReal) = ((1 : ℝ) : EReal) by norm_cast]
  simp [Ideal.ofBits, Ideal.ieee, -EReal.coe_mul]; norm_num

/-- The two halves of a stacked array added, from a zero start: the sum over the two halves at the same place. -/
private theorem halves_sum {n m : ℕ} (x : (⟨3, ![2, n, m]⟩ : Shape).Idx → EReal)
    (h' : (⟨3, ![2, n, m]⟩ : Shape).ReducesTo [0] ⟨2, ![n, m]⟩) (h : (⟨3, ![2, n, m]⟩ : Shape).Reduces [0] ⟨2, ![n, m]⟩)
    (g : Fin n) (d : Fin m) :
    Host.reduceAdd (F := Ideal) x (constant S_ .f32 0x00000000#32) h' h_S_ (ix2 g d) = ∑ cc : Fin 2, x (ix3 cc g d) := by
  show Ideal.hostReduceAdd h' x (Ideal.ofBits .f32 0x00000000#32) (ix2 g d) = _
  rw [Ideal.hostReduceAdd_single h' h, Ideal.ofBits_zero_f32, zero_add]
  refine Finset.sum_congr rfl fun cc _ => congrArg x (funext fun a => Fin.ext ?_)
  match a with
  | ⟨0, _⟩ => rfl
  | ⟨1, _⟩ => rfl
  | ⟨2, _⟩ => rfl

/-- A row of `n` entries viewed as a column reads, at row `g`, the row's entry `g`. -/
private theorem row_as_col {α : Type} {n : ℕ} (x : (⟨2, ![1, n]⟩ : Shape).Idx → α)
    (h : (⟨2, ![1, n]⟩ : Shape).ShapeCasts ⟨2, ![n, 1]⟩) (g : Fin n) :
    shapeCast ⟨2, ![n, 1]⟩ x h (ix2 g (0 : Fin 1)) = x (ix2 (0 : Fin 1) g) :=
  shapeCast_apply x h _ _ (by
    rw [Shape.rowMajor_val_two, Shape.rowMajor_val_two]
    show (0 : ℕ) * n + g.val = g.val * 1 + 0
    omega)

/-- A column spread over `m` lanes reads, at `(g, d)`, the column's entry `g`. -/
private theorem col_spread {α : Type} {n m : ℕ} (v : (⟨2, ![n, 1]⟩ : Shape).Idx → α)
    (h : (⟨2, ![n, 1]⟩ : Shape).BroadcastsInDim ⟨2, ![n, m]⟩ ![0, 1]) (g : Fin n) (d : Fin m) :
    broadcastInDim ⟨2, ![n, m]⟩ ![0, 1] h v (ix2 g d) = v (ix2 g (0 : Fin 1)) :=
  broadcastInDim_apply _ h v (ix2 g d) (ix2 g (0 : Fin 1)) (fun a => match a with
    | ⟨0, _⟩ => by
      show g.val = if n = 1 then 0 else g.val
      split
      · have := g.isLt; omega
      · rfl
    | ⟨1, _⟩ => by show 0 = if (1 : ℕ) = 1 then 0 else d.val; rw [if_pos rfl])

/-- The constant one spread over a column reads one everywhere. -/
private theorem one_col {n : ℕ} (h : S_.BroadcastsInDim ⟨2, ![n, 1]⟩ ![]) (j : (⟨2, ![n, 1]⟩ : Shape).Idx) :
    broadcastInDim ⟨2, ![n, 1]⟩ ![] h (constant (F := Ideal) S_ .f32 0x3F800000#32) j = (1 : EReal) :=
  (broadcastInDim_apply _ h (constant (F := Ideal) S_ .f32 0x3F800000#32) j ix0 (fun a => a.elim0)).trans one_f32

/-- A group's mean as the host computes it between the regions: the two halves' sums added, over the larger of the two
    halves' counts added and one. -/
private theorem mean_apply {n m : ℕ} (S : (⟨3, ![2, n, m]⟩ : Shape).Idx → EReal) (C : (⟨3, ![2, 1, n]⟩ : Shape).Idx → EReal)
    (hS' : (⟨3, ![2, n, m]⟩ : Shape).ReducesTo [0] ⟨2, ![n, m]⟩) (hS : (⟨3, ![2, n, m]⟩ : Shape).Reduces [0] ⟨2, ![n, m]⟩)
    (hC' : (⟨3, ![2, 1, n]⟩ : Shape).ReducesTo [0] ⟨2, ![1, n]⟩) (hC : (⟨3, ![2, 1, n]⟩ : Shape).Reduces [0] ⟨2, ![1, n]⟩)
    (hcast : (⟨2, ![1, n]⟩ : Shape).ShapeCasts ⟨2, ![n, 1]⟩) (hone : S_.BroadcastsInDim ⟨2, ![n, 1]⟩ ![])
    (hb : (⟨2, ![n, 1]⟩ : Shape).BroadcastsInDim ⟨2, ![n, m]⟩ ![0, 1]) (g : Fin n) (d : Fin m) :
    Host.divf (F := Ideal) (Host.reduceAdd (F := Ideal) S (constant S_ .f32 0x00000000#32) hS' h_S_)
        (broadcastInDim ⟨2, ![n, m]⟩ ![0, 1] hb
          (maximumf (F := Ideal)
            (shapeCast ⟨2, ![n, 1]⟩ (Host.reduceAdd (F := Ideal) C (constant S_ .f32 0x00000000#32) hC' h_S_) hcast)
            (broadcastInDim ⟨2, ![n, 1]⟩ ![] hone (constant (F := Ideal) S_ .f32 0x3F800000#32)))) (ix2 g d)
      = Ideal.div (∑ cc : Fin 2, S (ix3 cc g d)) (max (∑ cc : Fin 2, C (ix3 cc (0 : Fin 1) g)) 1) := by
  show Ideal.div _ _ = _
  rw [halves_sum S hS' hS g d, col_spread _ hb g d]
  show Ideal.div _ (max _ _) = _
  rw [row_as_col _ hcast g, halves_sum C hC' hC (0 : Fin 1) g, one_col hone]

/-- Between regions 1 and 2: the issuer means. -/
theorem hostmid_issuer_mean (g : Fin 5120) (d : Fin 140) :
    (StableHlo.after hostOps2 Wv (Proc.devRef .tc main_v37) : Mat 5120 140) (ix2 g d)
      = Ideal.div (∑ cc : Fin 2, (Wv (Proc.devRef .tc main_v28_0) : (⟨3, ![2, 5120, 140]⟩ : Shape).Idx → EReal) (ix3 cc g d))
          (max (∑ cc : Fin 2, (Wv (Proc.devRef .tc main_v28_1) : (⟨3, ![2, 1, 5120]⟩ : Shape).Idx → EReal) (ix3 cc (0 : Fin 1) g)) 1) := by
  show StableHlo.after hostOps2 Wv (Proc.devRef .tc main_v37) (ix2 g d) = _
  after_results_simp
  exact mean_apply (n := 5120) (m := 140) _ _ reducesTo_S2x5120x140_S5120x140_d0 (by decide)
    reducesTo_S2x1x5120_S1x5120_d0 (by decide) shapeCasts_S1x5120_S5120x1 bcast_S_S5120x1 bcast_S5120x1_S5120x140_0_1 g d

/-- Between regions 1 and 2: the sector means. -/
theorem hostmid_sector_mean (g : Fin 128) (d : Fin 140) :
    (StableHlo.after hostOps2 Wv (Proc.devRef .tc main_v42) : Mat 128 140) (ix2 g d)
      = Ideal.div (∑ cc : Fin 2, (Wv (Proc.devRef .tc main_v28_2) : (⟨3, ![2, 128, 140]⟩ : Shape).Idx → EReal) (ix3 cc g d))
          (max (∑ cc : Fin 2, (Wv (Proc.devRef .tc main_v28_3) : (⟨3, ![2, 1, 128]⟩ : Shape).Idx → EReal) (ix3 cc (0 : Fin 1) g)) 1) := by
  show StableHlo.after hostOps2 Wv (Proc.devRef .tc main_v42) (ix2 g d) = _
  after_results_simp
  exact mean_apply (n := 128) (m := 140) _ _ reducesTo_S2x128x140_S128x140_d0 (by decide)
    reducesTo_S2x1x128_S1x128_d0 (by decide) shapeCasts_S1x128_S128x1 bcast_S_S128x1 bcast_S128x1_S128x140_0_1 g d

end Cert.KernelIdeal.Val

end
-- ==== Proof.Chain.lean ====
/-
  Which contents each region starts from. Between the launch and the result the buffers pass five boundaries: the
  host operations before the first region, the three regions, and the host operations before the third. A buffer a
  stretch does not write is the same on both sides of it; a region's input array is unchanged by the region; a
  region's output array ends at what its write-backs leave. Reading each buffer a region uses back through these
  boundaries gives it as a value of the launch memory or of an earlier region's result array.
-/
import proofs.«412861_j3332894622337_3_alg».proof.Proof.RunResult
import proofs.«412861_j3332894622337_3_alg».proof.Proof.HostOps
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.Spec Idealize.ShloMosaic.StableHlo

variable (m : (ℓ : Loc nD τ sig) → Buf (Elt Ideal) ℓ) (ρ : Dev nD → PrngReg)

/-- "No operation of this stretch writes the buffer": the stretch's list opened, each operation's one written
    buffer compared with it. -/
local macro "unwritten" : tactic => `(tactic| (
  refine List.forall_iff_forall_mem.mp ?_
  simp only [hostOps0, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A buffer the first host stretch does not write is as launched at the first region's entry. -/
theorem W1_of_unwritten (c : Dev nD) (b : Ref sig .tc)
    (hb : ∀ op ∈ (hostOps0 : List (HloOp τ sig (Elt Ideal))), (Proc.devRef .tc b : DevRef τ sig) ∉ op.writes) :
    W1 m ρ c (Proc.devRef .tc b) = m ((c : Thread nD τ).loc b) :=
  (StableHlo.after_of_forall_not_mem (b := Proc.devRef .tc b) _ _ hb).trans rfl

/-- A buffer the second host stretch does not write is, at the third region's entry, as the second region left it. -/
theorem W4_of_unwritten (c : Dev nD) (b : Ref sig .tc)
    (hb : ∀ op ∈ (hostOps2 : List (HloOp τ sig (Elt Ideal))), (Proc.devRef .tc b : DevRef τ sig) ∉ op.writes) :
    W4 m ρ c (Proc.devRef .tc b) = W3 m ρ c (Proc.devRef .tc b) :=
  StableHlo.after_of_forall_not_mem (b := Proc.devRef .tc b) _ _ hb

/-! ## The first region's entry -/

theorem V1_arg3 (c : Dev nD) : V1 m ρ c main_arg3 = m ((c : Thread nD τ).loc main_arg3) := W1_of_unwritten m ρ c main_arg3 (by unwritten)
theorem V1_arg7 (c : Dev nD) : V1 m ρ c main_arg7 = m ((c : Thread nD τ).loc main_arg7) := W1_of_unwritten m ρ c main_arg7 (by unwritten)
theorem V1_arg8 (c : Dev nD) : V1 m ρ c main_arg8 = m ((c : Thread nD τ).loc main_arg8) := W1_of_unwritten m ρ c main_arg8 (by unwritten)
theorem V1_arg9 (c : Dev nD) : V1 m ρ c main_arg9 = m ((c : Thread nD τ).loc main_arg9) := W1_of_unwritten m ρ c main_arg9 (by unwritten)
theorem V1_arg10 (c : Dev nD) : V1 m ρ c main_arg10 = m ((c : Thread nD τ).loc main_arg10) := W1_of_unwritten m ρ c main_arg10 (by unwritten)
theorem V1_arg11 (c : Dev nD) : V1 m ρ c main_arg11 = m ((c : Thread nD τ).loc main_arg11) := W1_of_unwritten m ρ c main_arg11 (by unwritten)
theorem V1_arg12 (c : Dev nD) : V1 m ρ c main_arg12 = m ((c : Thread nD τ).loc main_arg12) := W1_of_unwritten m ρ c main_arg12 (by unwritten)

/-- The gathered node-table rows. -/
theorem V1_idrows (c : Dev nD) :
    (V1 m ρ c main_v9 : FVec Ideal S16384x64 .f32)
      = nodeRows (m ((c : Thread nD τ).loc main_arg6)) (m ((c : Thread nD τ).loc main_arg0)) :=
  hostpre_idrows (W0 m ρ c)

/-- The category words. -/
theorem V1_meta (c : Dev nD) (b : Fin 16384) :
    (V1 m ρ c main_v2 : WMat 16384 2) (ix2 b (0 : Fin 2)) = (m ((c : Thread nD τ).loc main_arg1) : IVec S16384 32) (ix1 b)
    ∧ (V1 m ρ c main_v2 : WMat 16384 2) (ix2 b (1 : Fin 2)) = (m ((c : Thread nD τ).loc main_arg2) : IVec S16384 32) (ix1 b) :=
  hostpre_meta (W0 m ρ c) b

/-- The group words. -/
theorem V1_groups (c : Dev nD) (b : Fin 16384) :
    (V1 m ρ c main_v26 : WMat 16384 2) (ix2 b (0 : Fin 2))
        = groupWords (m ((c : Thread nD τ).loc main_arg4)) (m ((c : Thread nD τ).loc main_arg0)) (ix1 b)
    ∧ (V1 m ρ c main_v26 : WMat 16384 2) (ix2 b (1 : Fin 2))
        = groupWords (m ((c : Thread nD τ).loc main_arg5)) (m ((c : Thread nD τ).loc main_arg0)) (ix1 b) :=
  hostpre_groups (W0 m ρ c) b

/-! ## The second region's entry -/

/-- The samples' own rows: the first region's result array. -/
theorem V2_hself (c : Dev nD) : V2 m ρ c main_v27 = (dat0 (V1 m ρ) c).arrAt 9 cfg0.N := W2_arr m ρ c 9

/-- The group words pass the first region untouched. -/
theorem V2_groups (c : Dev nD) : V2 m ρ c main_v26 = V1 m ρ c main_v26 := W2_of_ne m ρ c main_v26 (by decide)

/-! ## The third region's entry -/

/-- The samples' own rows are still the first region's result array. -/
theorem V4_hself (c : Dev nD) : V4 m ρ c main_v27 = (dat0 (V1 m ρ) c).arrAt 9 cfg0.N :=
  calc V4 m ρ c main_v27
    _ = W3 m ρ c (Proc.devRef .tc main_v27) := W4_of_unwritten m ρ c main_v27 (by unwritten)
    _ = V2 m ρ c main_v27 := (W3_arr m ρ c 0).trans (((dat1 (V2 m ρ) c).arrAt_in 0 rfl _).trans (A_eq1 (V2 m ρ) c 0))
    _ = _ := V2_hself m ρ c

/-- The group words are still those of the first region's entry. -/
theorem V4_groups (c : Dev nD) : V4 m ρ c main_v26 = V1 m ρ c main_v26 :=
  calc V4 m ρ c main_v26
    _ = W3 m ρ c (Proc.devRef .tc main_v26) := W4_of_unwritten m ρ c main_v26 (by unwritten)
    _ = V2 m ρ c main_v26 := (W3_arr m ρ c 1).trans (((dat1 (V2 m ρ) c).arrAt_in 1 rfl _).trans (A_eq1 (V2 m ρ) c 1))
    _ = _ := V2_groups m ρ c

/-- The second perceptron's weights and biases are as launched. -/
theorem V4_arg13 (c : Dev nD) : V4 m ρ c main_arg13 = m ((c : Thread nD τ).loc main_arg13) :=
  (W4_of_unwritten m ρ c main_arg13 (by unwritten)).trans ((W3_of_ne m ρ c main_arg13 (by decide)).trans
    ((W2_of_ne m ρ c main_arg13 (by decide)).trans (W1_of_unwritten m ρ c main_arg13 (by unwritten))))
theorem V4_arg14 (c : Dev nD) : V4 m ρ c main_arg14 = m ((c : Thread nD τ).loc main_arg14) :=
  (W4_of_unwritten m ρ c main_arg14 (by unwritten)).trans ((W3_of_ne m ρ c main_arg14 (by decide)).trans
    ((W2_of_ne m ρ c main_arg14 (by decide)).trans (W1_of_unwritten m ρ c main_arg14 (by unwritten))))
theorem V4_arg15 (c : Dev nD) : V4 m ρ c main_arg15 = m ((c : Thread nD τ).loc main_arg15) :=
  (W4_of_unwritten m ρ c main_arg15 (by unwritten)).trans ((W3_of_ne m ρ c main_arg15 (by decide)).trans
    ((W2_of_ne m ρ c main_arg15 (by decide)).trans (W1_of_unwritten m ρ c main_arg15 (by unwritten))))
theorem V4_arg16 (c : Dev nD) : V4 m ρ c main_arg16 = m ((c : Thread nD τ).loc main_arg16) :=
  (W4_of_unwritten m ρ c main_arg16 (by unwritten)).trans ((W3_of_ne m ρ c main_arg16 (by decide)).trans
    ((W2_of_ne m ρ c main_arg16 (by decide)).trans (W1_of_unwritten m ρ c main_arg16 (by unwritten))))

/-- The issuer means: the two halves' sums of the second region's result over the two halves' counts and one. -/
theorem V4_issuer_mean (c : Dev nD) (g : Fin 5120) (d : Fin 140) :
    (V4 m ρ c main_v37 : Mat 5120 140) (ix2 g d)
      = Ideal.div (∑ cc : Fin 2, ((dat1 (V2 m ρ) c).arrAt 2 cfg1.N : (⟨3, ![2, 5120, 140]⟩ : Shape).Idx → EReal) (ix3 cc g d))
          (max (∑ cc : Fin 2, ((dat1 (V2 m ρ) c).arrAt 3 cfg1.N : (⟨3, ![2, 1, 5120]⟩ : Shape).Idx → EReal) (ix3 cc (0 : Fin 1) g)) 1) := by
  rw [← W3_arr m ρ c 2, ← W3_arr m ρ c 3]
  exact hostmid_issuer_mean (W3 m ρ c) g d

/-- The sector means. -/
theorem V4_sector_mean (c : Dev nD) (g : Fin 128) (d : Fin 140) :
    (V4 m ρ c main_v42 : Mat 128 140) (ix2 g d)
      = Ideal.div (∑ cc : Fin 2, ((dat1 (V2 m ρ) c).arrAt 4 cfg1.N : (⟨3, ![2, 128, 140]⟩ : Shape).Idx → EReal) (ix3 cc g d))
          (max (∑ cc : Fin 2, ((dat1 (V2 m ρ) c).arrAt 5 cfg1.N : (⟨3, ![2, 1, 128]⟩ : Shape).Idx → EReal) (ix3 cc (0 : Fin 1) g)) 1) := by
  rw [← W3_arr m ρ c 4, ← W3_arr m ρ c 5]
  exact hostmid_sector_mean (W3 m ρ c) g d

/-- The result buffer ends at the third region's result array. -/
theorem W5_result (c : Dev nD) : W5 m ρ c (Proc.devRef .tc main_v43) = (dat2 (V4 m ρ) c).arrAt 8 cfg2.N := W5_arr m ρ c 8

end Cert.KernelIdeal.Val

end
-- ==== Proof.Region0.lean ====
/-
  The first kernel region's result array, index by index: row `b` of it is sample `b`'s own representation —
  its node-table row as gathered on the host, its rating's and currency's table rows picked by an indicator product
  (a word in range picks exactly its own row), and the two-layer perceptron of its numeric features.
-/
import proofs.«412861_j3332894622337_3_alg».proof.Proof.Gen.KernelIdeal.Frame
import proofs.«412861_j3332894622337_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.Spec

private theorem plain_lhs0 {M K N : ℕ} (i : (⟨2, ![M, N]⟩ : Shape).Idx) (q : (DotDims.plain M K N).contr.Idx) :
    ((DotDims.plain M K N).lhsIdx i q 0).val = (i 0).val := rfl
private theorem plain_lhs1 {M K N : ℕ} (i : (⟨2, ![M, N]⟩ : Shape).Idx) (q : (DotDims.plain M K N).contr.Idx) :
    ((DotDims.plain M K N).lhsIdx i q 1).val = (q ⟨0, Nat.one_pos⟩).val := rfl
private theorem plain_rhs0 {M K N : ℕ} (i : (⟨2, ![M, N]⟩ : Shape).Idx) (q : (DotDims.plain M K N).contr.Idx) :
    ((DotDims.plain M K N).rhsIdx i q 0).val = (q ⟨0, Nat.one_pos⟩).val := rfl
private theorem plain_rhs1 {M K N : ℕ} (i : (⟨2, ![M, N]⟩ : Shape).Idx) (q : (DotDims.plain M K N).contr.Idx) :
    ((DotDims.plain M K N).rhsIdx i q 1).val = (i 1).val := rfl

/-- A plain matrix product into a zero accumulator, entry by entry: row of the left times column of the right. -/
private theorem plain_matmul_zero_apply {M K N : ℕ} {φ₁ φ₂ : FTy} (l : FVec Ideal ⟨2, ![M, K]⟩ φ₁) (r : FVec Ideal ⟨2, ![K, N]⟩ φ₂)
    (p : Fin M) (k : Fin N) :
    FloatOps.matmul (DotDims.plain M K N) none l r (constant (F := Ideal) ⟨2, ![M, N]⟩ .f32 0x00000000#32) (ix2 p k)
      = ∑ i : Fin K, l (ix2 p i) * r (ix2 i k) := by
  rw [Ideal.matmul_constant_zero_apply, ← Equiv.sum_comp (contrEquiv1 (DotDims.plain M K N) K rfl rfl).symm]
  refine Finset.sum_congr rfl fun i _ => ?_
  have hk := contrEquiv1_symm_val (DotDims.plain M K N) K rfl rfl i
  have el : (DotDims.plain M K N).lhsIdx (ix2 p k) ((contrEquiv1 (DotDims.plain M K N) K rfl rfl).symm i) = ix2 p i :=
    funext fun a => Fin.ext (by
      match a with
      | ⟨0, _⟩ => exact plain_lhs0 _ _
      | ⟨1, _⟩ => exact (plain_lhs1 _ _).trans hk)
  have er : (DotDims.plain M K N).rhsIdx (ix2 p k) ((contrEquiv1 (DotDims.plain M K N) K rfl rfl).symm i) = ix2 i k :=
    funext fun a => Fin.ext (by
      match a with
      | ⟨0, _⟩ => exact (plain_rhs0 _ _).trans hk
      | ⟨1, _⟩ => exact plain_rhs1 _ _)
  rw [el, er]

private theorem mmN1_apply (l : FVec Ideal S512x16 .bf16) (r : FVec Ideal S16x64 .bf16) (p : Fin 512) (k : Fin 64) :
    matmul dot_S512x16_S16x64_S512x64_1_0_0_1_n_n none l r (constant S512x64 .f32 0x00000000#32) (ix2 p k)
      = ∑ i : Fin 16, l (ix2 p i) * r (ix2 i k) :=
  plain_matmul_zero_apply (M := 512) (K := 16) (N := 64) l r p k

private theorem mmR_apply (l : FVec Ideal S512x25 .bf16) (r : FVec Ideal S25x8 .bf16) (p : Fin 512) (k : Fin 8) :
    matmul dot_S512x25_S25x8_S512x8_1_0_0_1_n_n none l r (constant S512x8 .f32 0x00000000#32) (ix2 p k)
      = ∑ i : Fin 25, l (ix2 p i) * r (ix2 i k) :=
  plain_matmul_zero_apply (M := 512) (K := 25) (N := 8) l r p k

private theorem mmC_apply (l : FVec Ideal S512x12 .bf16) (r : FVec Ideal S12x4 .bf16) (p : Fin 512) (k : Fin 4) :
    matmul dot_S512x12_S12x4_S512x4_1_0_0_1_n_n none l r (constant S512x4 .f32 0x00000000#32) (ix2 p k)
      = ∑ i : Fin 12, l (ix2 p i) * r (ix2 i k) :=
  plain_matmul_zero_apply (M := 512) (K := 12) (N := 4) l r p k

private theorem mmN2_apply (l : FVec Ideal S512x64 .bf16) (r : FVec Ideal S64x64 .bf16) (p : Fin 512) (k : Fin 64) :
    matmul dot_S512x64_S64x64_S512x64_1_0_0_1_n_n none l r (constant S512x64 .f32 0x00000000#32) (ix2 p k)
      = ∑ i : Fin 64, l (ix2 p i) * r (ix2 i k) :=
  plain_matmul_zero_apply (M := 512) (K := 64) (N := 64) l r p k

/-- The f32 zero word is the number zero. -/
private theorem scalar_zero : (Scalar.ofBits .f32 0x00000000#32 : Ideal .f32) = (0 : EReal) := Ideal.ofBits_zero_f32

/-- The indicator entry: a comparison bit widened to a word and converted is one where the words agree, zero elsewhere. -/
private theorem hot_of_bit (w : BitVec 32) (g : ℕ) :
    ((((IntOp.cmpi .eq w (BitVec.ofNat 32 g)).setWidth 32).toInt : ℝ) : EReal) = hot w g := by
  unfold hot
  by_cases h : w = BitVec.ofNat 32 g
  · rw [if_pos h, h]
    simp [IntOp.cmpi]
  · rw [if_neg h]
    have : (w == BitVec.ofNat 32 g) = false := by simpa using h
    simp [IntOp.cmpi, this]

/-- A column broadcast along the rows reads the column's entry of the same row. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The indicator matrix of a column of words against the column numbers: entry `(p, g)` is one exactly when
    row `p`'s word is the number `g`. -/
private theorem indicator_apply {a n : ℕ} (ids : IVec ⟨2, ![a, 1]⟩ 32) (hb : (⟨2, ![a, 1]⟩ : Shape).Broadcasts ⟨2, ![a, n]⟩)
    (hi : (⟨2, ![a, n]⟩ : Shape).Iotas .tc 32 [1]) (h1 : 1 < 32) (h2 : FTy.bf16.bits < FTy.f32.bits) (p : Fin a) (g : Fin n) :
    (truncf .bf16 (sitofp .f32 (extui 32 (cmpi .eq (broadcastTo ⟨2, ![a, n]⟩ ids hb) (iota .tc ⟨2, ![a, n]⟩ 32 [1] hi)) h1)
        : FVec Ideal ⟨2, ![a, n]⟩ .f32) h2) (ix2 p g) = hot (ids (ix2 p (0 : Fin 1))) g.val := by
  show ((((IntOp.cmpi .eq (broadcastTo ⟨2, ![a, n]⟩ ids hb (ix2 p g)) (iota .tc ⟨2, ![a, n]⟩ 32 [1] hi (ix2 p g))).setWidth 32).toInt : ℝ) : EReal) = _
  rw [iota_single_apply, broadcastTo_a1_ab_apply]
  exact hot_of_bit _ _

/-- The node-table part of a block is the block of gathered rows itself. -/
private theorem id_part_eq (x0 : Vec Ideal S512x64 .f32) : k0_pay2 x0 = x0 := by
  unfold k0_pay2
  exact shapeCast_self x0 _

/-- The rating part of row `p`: the indicator of the row's rating word against the table's row numbers, times the table. -/
private theorem rat_part_apply (x1 : Vec Ideal S512x2 .i32) (x3 : Vec Ideal S25x8 .f32) (p : Fin 512) (q : Fin 8) :
    k0_pay4 x1 x3 (ix2 p q) = ∑ g : Fin 25, hot (x1 (ix2 p (0 : Fin 2))) g.val * x3 (ix2 g q) := by
  unfold k0_pay4 k0_pay3
  refine (mmR_apply _ _ p q).trans (Finset.sum_congr rfl fun g _ => ?_)
  refine congrArg₂ (· * ·) ?_ rfl
  refine (indicator_apply _ _ _ _ _ p g).trans ?_
  refine congrArg (fun w => hot w g.val) ?_
  refine (slice2_axis1_apply 0 _ _ p (0 : Fin 1) (0 : Fin 2) rfl).trans ?_
  exact congrFun (shapeCast_self x1 _) _

/-- The currency part of row `p`, likewise from the row's second word. -/
private theorem cur_part_apply (x1 : Vec Ideal S512x2 .i32) (x4 : Vec Ideal S12x4 .f32) (p : Fin 512) (q : Fin 4) :
    k0_pay5 x1 x4 (ix2 p q) = ∑ g : Fin 12, hot (x1 (ix2 p (1 : Fin 2))) g.val * x4 (ix2 g q) := by
  unfold k0_pay5 k0_pay3
  refine (mmC_apply _ _ p q).trans (Finset.sum_congr rfl fun g _ => ?_)
  refine congrArg₂ (· * ·) ?_ rfl
  refine (indicator_apply _ _ _ _ _ p g).trans ?_
  refine congrArg (fun w => hot w g.val) ?_
  refine (slice2_axis1_apply 1 _ _ p (0 : Fin 1) (1 : Fin 2) rfl).trans ?_
  exact congrFun (shapeCast_self x1 _) _

/-- A bias row laid over the block's rows reads the bias at the column. -/
private theorem bias_apply (b : Vec Ideal S64 .f32) (p : Fin 512) (k : Fin 64) :
    broadcastTo S512x64 (shapeCast S1x64 b shapeCasts_S64_S1x64) broadcasts_S1x64_S512x64 (ix2 p k) = b (ix1 k) :=
  (broadcastTo_1b_ab_apply _ _ p k).trans (shapeCast_a_1a_apply b _ (0 : Fin 1) k)

/-- The second layer's product of row `p`, before its bias and clip: the clipped first layer of the row's features
    times the second weight matrix. -/
private theorem num_part_apply (x2 : Vec Ideal S512x16 .f32) (x5 : Vec Ideal S16x64 .f32) (x6 : Vec Ideal S64 .f32)
    (x7 : Vec Ideal S64x64 .f32) (p : Fin 512) (j : Fin 64) :
    k0_pay6 x2 x5 x6 x7 (ix2 p j)
      = ∑ k : Fin 64, relu ((∑ i : Fin 16, x2 (ix2 p i) * x5 (ix2 i k)) + x6 (ix1 k)) * x7 (ix2 k j) := by
  unfold k0_pay6
  refine (mmN2_apply _ _ p j).trans (Finset.sum_congr rfl fun k _ => ?_)
  refine congrArg₂ (· * ·) ?_ rfl
  show max (_ + _) (Scalar.ofBits .f32 0x00000000#32 : Ideal .f32) = _
  rw [scalar_zero, mmN1_apply, bias_apply]
  rfl

/-- Summing an indicator against a table's rows picks the row an in-range word names. -/
private theorem pick_row {N M : ℕ} (hN : 0 < N) (hN2 : N ≤ 2 ^ 32) {w : BitVec 32} (h : InRange N w) (T : Mat N M) (q : Fin M) :
    ∑ g : Fin N, hot w g.val * T (ix2 g q) = T (ix2 (rowIx N hN w) q) := by
  rw [sum_hot_mul hN2 h.toNat_lt (fun g => T (ix2 g q))]
  exact congrArg (fun r => T (ix2 r q)) (Fin.ext (rowIx_val hN h).symm)

/-- One sample's row of the region's result, from that sample's own data alone: its gathered node row, its rating
    and currency words, its numeric features; and the tables and the perceptron's weights. -/
private def rowOf (idrow : Fin 64 → EReal) (wr wc : BitVec 32) (nrow : Fin 16 → EReal)
    (RE : Mat 25 8) (CE : Mat 12 4) (W1 : Mat 16 64) (b1 : Row 64) (W2 : Mat 64 64) (b2 : Row 64) (d : Fin 140) : EReal :=
  if h : d.val < 64 then idrow ⟨d.val, h⟩
  else if h2 : d.val < 72 then RE (ix2 (rowIx 25 (by decide) wr) ⟨d.val - 64, by omega⟩)
  else if h3 : d.val < 76 then CE (ix2 (rowIx 12 (by decide) wc) ⟨d.val - 72, by omega⟩)
  else relu ((∑ k : Fin 64, relu ((∑ i : Fin 16, nrow i * W1 (ix2 i k)) + b1 (ix1 k))
      * W2 (ix2 k ⟨d.val - 76, by have := d.isLt; omega⟩)) + b2 (ix1 ⟨d.val - 76, by have := d.isLt; omega⟩))

/-- The specification's own row is that row function of the sample's data. -/
private theorem hself_eq_rowOf (idr : Mat 16384 64) (w : WMat 16384 2) (nums : Mat 16384 16)
    (RE : Mat 25 8) (CE : Mat 12 4) (W1 : Mat 16 64) (b1 : Row 64) (W2 : Mat 64 64) (b2 : Row 64) (b : Fin 16384) (d : Fin 140) :
    hself idr RE CE (fun b => rowIx 25 (by decide) (w (ix2 b (0 : Fin 2)))) (fun b => rowIx 12 (by decide) (w (ix2 b (1 : Fin 2))))
        (hnum nums W1 b1 W2 b2) b d
      = rowOf (fun k => idr (ix2 b k)) (w (ix2 b (0 : Fin 2))) (w (ix2 b (1 : Fin 2))) (fun i => nums (ix2 b i)) RE CE W1 b1 W2 b2 d := rfl

/-- The body's result block is the four parts side by side, the last with its bias added and clipped at zero. -/
private theorem pay1_eq (v1 : FVec Ideal S512x64 .f32) (v14 : FVec Ideal S512x8 .f32) (v23 : FVec Ideal S512x4 .f32)
    (v38 : FVec Ideal S512x64 .f32) (v39 : Vec Ideal S64 .f32) :
    k0_pay1 v1 v14 v23 v38 v39
      = concatenate S512x140 1 [⟨S512x64, v1⟩, ⟨S512x8, v14⟩, ⟨S512x4, v23⟩,
          ⟨S512x64, maximumf (addf v38 (broadcastTo S512x64 (shapeCast S1x64 v39 shapeCasts_S64_S1x64) broadcasts_S1x64_S512x64))
            (broadcast S512x64 (Scalar.ofBits .f32 0x00000000#32))⟩]
          concatenates_S512x64_S512x8_S512x4_S512x64_S512x140_d1 := rfl

/-- Four blocks of widths 64, 8, 4, 64 side by side, read at column `q`: the block whose span holds `q`. -/
private theorem cat_apply (A : FVec Ideal S512x64 .f32) (B : FVec Ideal S512x8 .f32) (C : FVec Ideal S512x4 .f32)
    (D : FVec Ideal S512x64 .f32) (p : Fin 512) (q : Fin 140) :
    concatenate S512x140 1 [⟨S512x64, A⟩, ⟨S512x8, B⟩, ⟨S512x4, C⟩, ⟨S512x64, D⟩]
        concatenates_S512x64_S512x8_S512x4_S512x64_S512x140_d1 (ix2 p q)
      = if h : q.val < 64 then A (ix2 p ⟨q.val, h⟩)
        else if h2 : q.val < 72 then B (ix2 p ⟨q.val - 64, by omega⟩)
        else if h3 : q.val < 76 then C (ix2 p ⟨q.val - 72, by omega⟩)
        else D (ix2 p ⟨q.val - 76, by have := q.isLt; omega⟩) := by
  have hq := q.isLt
  by_cases h : q.val < 64
  · rw [dif_pos h]
    refine concatenate_apply_piece (t := S512x140) (1 : Fin 2) [⟨S512x64, A⟩, ⟨S512x8, B⟩, ⟨S512x4, C⟩, ⟨S512x64, D⟩] concatenates_S512x64_S512x8_S512x4_S512x64_S512x140_d1 (ix2 p q) 0 (by simp) S512x64 A rfl rfl 0 rfl (ix2 p ⟨q.val, h⟩) ?_ ?_
    · intro b hb; match b with
      | ⟨0, _⟩ => rfl
      | ⟨1, _⟩ => exact absurd rfl hb
    · exact Nat.zero_add _
  · rw [dif_neg h]
    by_cases h2 : q.val < 72
    · rw [dif_pos h2]
      refine concatenate_apply_piece (t := S512x140) (1 : Fin 2) [⟨S512x64, A⟩, ⟨S512x8, B⟩, ⟨S512x4, C⟩, ⟨S512x64, D⟩] concatenates_S512x64_S512x8_S512x4_S512x64_S512x140_d1 (ix2 p q) 1 (by simp) S512x8 B rfl rfl 64 rfl (ix2 p ⟨q.val - 64, by omega⟩) ?_ ?_
      · intro b hb; match b with
        | ⟨0, _⟩ => rfl
        | ⟨1, _⟩ => exact absurd rfl hb
      · show 64 + (q.val - 64) = q.val; omega
    · rw [dif_neg h2]
      by_cases h3 : q.val < 76
      · rw [dif_pos h3]
        refine concatenate_apply_piece (t := S512x140) (1 : Fin 2) [⟨S512x64, A⟩, ⟨S512x8, B⟩, ⟨S512x4, C⟩, ⟨S512x64, D⟩] concatenates_S512x64_S512x8_S512x4_S512x64_S512x140_d1 (ix2 p q) 2 (by simp) S512x4 C rfl rfl 72 rfl (ix2 p ⟨q.val - 72, by omega⟩) ?_ ?_
        · intro b hb; match b with
          | ⟨0, _⟩ => rfl
          | ⟨1, _⟩ => exact absurd rfl hb
        · show 72 + (q.val - 72) = q.val; omega
      · rw [dif_neg h3]
        refine concatenate_apply_piece (t := S512x140) (1 : Fin 2) [⟨S512x64, A⟩, ⟨S512x8, B⟩, ⟨S512x4, C⟩, ⟨S512x64, D⟩] concatenates_S512x64_S512x8_S512x4_S512x64_S512x140_d1 (ix2 p q) 3 (by simp) S512x64 D rfl rfl 76 rfl (ix2 p ⟨q.val - 76, by omega⟩) ?_ ?_
        · intro b hb; match b with
          | ⟨0, _⟩ => rfl
          | ⟨1, _⟩ => exact absurd rfl hb
        · show 76 + (q.val - 76) = q.val; omega

/-- THE BODY AT AN INDEX: entry `(p, q)` of the block the body stores is the row function of row `p` of the blocks
    it loaded, when that row's two words name rows of their tables. -/
private theorem payload_row (x0 : Vec Ideal S512x64 .f32) (x1 : Vec Ideal S512x2 .i32) (x2 : Vec Ideal S512x16 .f32)
    (x3 : Vec Ideal S25x8 .f32) (x4 : Vec Ideal S12x4 .f32) (x5 : Vec Ideal S16x64 .f32) (x6 : Vec Ideal S64 .f32)
    (x7 : Vec Ideal S64x64 .f32) (x8 : Vec Ideal S64 .f32) (p : Fin 512) (q : Fin 140)
    (hr : InRange 25 (x1 (ix2 p (0 : Fin 2)))) (hc : InRange 12 (x1 (ix2 p (1 : Fin 2)))) :
    k0_pay1 (k0_pay2 x0) (k0_pay4 x1 x3) (k0_pay5 x1 x4) (k0_pay6 x2 x5 x6 x7) x8 (ix2 p q)
      = rowOf (fun k => x0 (ix2 p k)) (x1 (ix2 p (0 : Fin 2))) (x1 (ix2 p (1 : Fin 2))) (fun i => x2 (ix2 p i))
          x3 x4 x5 x6 x7 x8 q := by
  rw [pay1_eq, cat_apply]
  unfold rowOf
  by_cases h : q.val < 64
  · rw [dif_pos h, dif_pos h, id_part_eq]
  · rw [dif_neg h, dif_neg h]
    by_cases h2 : q.val < 72
    · rw [dif_pos h2, dif_pos h2, rat_part_apply]
      exact pick_row (by decide) (by decide) hr x3 _
    · rw [dif_neg h2, dif_neg h2]
      by_cases h3 : q.val < 76
      · rw [dif_pos h3, dif_pos h3, cur_part_apply]
        exact pick_row (by decide) (by decide) hc x4 _
      · rw [dif_neg h3, dif_neg h3]
        show max (_ + _) (Scalar.ofBits .f32 0x00000000#32 : Ideal .f32) = _
        rw [scalar_zero, num_part_apply, bias_apply]
        rfl

private theorem hz2 : (![0, 0] : Fin 2 → Nat) = fun _ => 0 := funext fun a => by fin_cases a <;> rfl
private theorem hz1 : (![0] : Fin 1 → Nat) = fun _ => 0 := funext fun a => by fin_cases a; rfl

/-- The windows' index maps over the grid: the three batch windows and the result window are at block `t` of the rows
    at point `t`, the tables at their one block. -/
private theorem idx0 : ∀ t : Fin cfg0.N, win0_0.index t (0 : Fin 2) = t.val ∧ win0_0.index t (1 : Fin 2) = 0 :=
  (by decide +kernel : ∀ t : Fin grid0.N, _)
private theorem idx1 : ∀ t : Fin cfg0.N, win0_1.index t (0 : Fin 2) = t.val ∧ win0_1.index t (1 : Fin 2) = 0 :=
  (by decide +kernel : ∀ t : Fin grid0.N, _)
private theorem idx2 : ∀ t : Fin cfg0.N, win0_2.index t (0 : Fin 2) = t.val ∧ win0_2.index t (1 : Fin 2) = 0 :=
  (by decide +kernel : ∀ t : Fin grid0.N, _)
private theorem idx3 : ∀ t : Fin cfg0.N, win0_3.index t (0 : Fin 2) = 0 ∧ win0_3.index t (1 : Fin 2) = 0 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)
private theorem idx6 : ∀ t : Fin cfg0.N, win0_6.index t (0 : Fin 1) = 0 :=
  (by decide +kernel : ∀ t : Fin grid0.N, _)
private theorem idx7 : ∀ t : Fin cfg0.N, win0_7.index t (0 : Fin 2) = 0 ∧ win0_7.index t (1 : Fin 2) = 0 :=
  (by decide +kernel : ∀ t : Fin grid0.N, _)
private theorem idx8 : ∀ t : Fin cfg0.N, win0_8.index t (0 : Fin 1) = 0 :=
  (by decide +kernel : ∀ t : Fin grid0.N, _)
private theorem idx9 : ∀ t : Fin cfg0.N, win0_9.index t (0 : Fin 2) = t.val ∧ win0_9.index t (1 : Fin 2) = 0 :=
  (by decide +kernel : ∀ t : Fin grid0.N, _)

/-- Row `p` of batch tile `t`, as a row of the batch. -/
private def brow (t : Fin cfg0.N) (p : Fin 512) : Fin 16384 :=
  ⟨t.val * 512 + p.val, by have h : t.val < 32 := Nat.lt_of_lt_of_eq t.isLt N_0; omega⟩

/-- The body at an index, with each loaded block's row named by what it holds. -/
private theorem payload_at (x0 : Vec Ideal S512x64 .f32) (x1 : Vec Ideal S512x2 .i32) (x2 : Vec Ideal S512x16 .f32)
    (x3 : Vec Ideal S25x8 .f32) (x4 : Vec Ideal S12x4 .f32) (x5 : Vec Ideal S16x64 .f32) (x6 : Vec Ideal S64 .f32)
    (x7 : Vec Ideal S64x64 .f32) (x8 : Vec Ideal S64 .f32) (p : Fin 512) (q : Fin 140)
    (idrow : Fin 64 → EReal) (wr wc : BitVec 32) (nrow : Fin 16 → EReal)
    (RE : Mat 25 8) (CE : Mat 12 4) (W1 : Mat 16 64) (b1 : Row 64) (W2 : Mat 64 64) (b2 : Row 64)
    (h0 : ∀ k : Fin 64, x0 (ix2 p k) = idrow k) (h1r : x1 (ix2 p (0 : Fin 2)) = wr) (h1c : x1 (ix2 p (1 : Fin 2)) = wc)
    (h2 : ∀ i : Fin 16, x2 (ix2 p i) = nrow i)
    (h3 : x3 = RE) (h4 : x4 = CE) (h5 : x5 = W1) (h6 : x6 = b1) (h7 : x7 = W2) (h8 : x8 = b2)
    (hr : InRange 25 wr) (hc : InRange 12 wc) :
    k0_pay1 (k0_pay2 x0) (k0_pay4 x1 x3) (k0_pay5 x1 x4) (k0_pay6 x2 x5 x6 x7) x8 (ix2 p q)
      = rowOf idrow wr wc nrow RE CE W1 b1 W2 b2 q := by
  subst h3 h4 h5 h6 h7 h8 h1r h1c
  obtain rfl : (fun k => x0 (ix2 p k)) = idrow := funext h0
  obtain rfl : (fun i => x2 (ix2 p i)) = nrow := funext h2
  exact payload_row x0 x1 x2 x3 x4 x5 x6 x7 x8 p q hr hc

/-- THE WHOLE ARRAY: row `b` of the region's result is the row function of sample `b`'s data. -/
private def G0 (idr : Mat 16384 64) (w : WMat 16384 2) (nums : Mat 16384 16)
    (RE : Mat 25 8) (CE : Mat 12 4) (W1 : Mat 16 64) (b1 : Row 64) (W2 : Mat 64 64) (b2 : Row 64) : Mat 16384 140 :=
  fun i => rowOf (fun k => idr (ix2 (i 0 : Fin 16384) k)) (w (ix2 (i 0 : Fin 16384) (0 : Fin 2))) (w (ix2 (i 0 : Fin 16384) (1 : Fin 2)))
    (fun k => nums (ix2 (i 0 : Fin 16384) k)) RE CE W1 b1 W2 b2 (i 1 : Fin 140)

variable (V : (c : Dev nD) → (b : Ref sig .tc) → Buf (Elt Ideal) ((c : Thread nD τ).loc b))

/-- The batch windows' blocks at point `t` are rows `512 t … 512 t + 511` of their arrays. -/
private theorem blk0_apply (c : Dev nD) (t : Fin cfg0.N) (p : Fin 512) (k : Fin 64) :
    (iblk0 V c 0 t : Vec Ideal S512x64 .f32) (ix2 p k) = (V c main_v9 : Mat 16384 64) (ix2 (brow t p) k) := by
  obtain ⟨e0, e1⟩ := idx0 t
  unfold iblk0
  rw [View.read_apply]
  show V c main_v9 _ = V c main_v9 _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 64 + 1 * k.val = k.val; rw [e1]; omega

private theorem blk1_apply (c : Dev nD) (t : Fin cfg0.N) (p : Fin 512) (k : Fin 2) :
    (iblk0 V c 1 t : Vec Ideal S512x2 .i32) (ix2 p k) = (V c main_v2 : WMat 16384 2) (ix2 (brow t p) k) := by
  obtain ⟨e0, e1⟩ := idx1 t
  unfold iblk0
  rw [View.read_apply]
  show V c main_v2 _ = V c main_v2 _
  congr 1
  funext a
  apply Fin.ext
  match a with
  | ⟨0, _⟩ => show win0_1.index t (0 : Fin 2) * 512 + 1 * p.val = t.val * 512 + p.val; rw [e0]; omega
  | ⟨1, _⟩ => show win0_1.index t (1 : Fin 2) * 2 + 1 * k.val = k.val; rw [e1]; omega

private theorem blk2_apply (c : Dev nD) (t : Fin cfg0.N) (p : Fin 512) (k : Fin 16) :
    (iblk0 V c 2 t : Vec Ideal S512x16 .f32) (ix2 p k) = (V c main_arg3 : Mat 16384 16) (ix2 (brow t p) k) := by
  obtain ⟨e0, e1⟩ := idx2 t
  unfold iblk0
  rw [View.read_apply]
  show V c main_arg3 _ = V c main_arg3 _
  congr 1
  funext a
  apply Fin.ext
  match a with
  | ⟨0, _⟩ => show win0_2.index t (0 : Fin 2) * 512 + 1 * p.val = t.val * 512 + p.val; rw [e0]; omega
  | ⟨1, _⟩ => show win0_2.index t (1 : Fin 2) * 16 + 1 * k.val = k.val; rw [e1]; omega

/-- The table windows' one block is the whole table, at every point. -/
private theorem blk3_eq (c : Dev nD) (t : Fin cfg0.N) : (iblk0 V c 3 t : Vec Ideal S25x8 .f32) = (V c main_arg7 : Mat 25 8) := by
  obtain ⟨e0, e1⟩ := idx3 t
  funext y
  unfold iblk0
  rw [View.read_apply]
  show V c main_arg7 _ = V c main_arg7 y
  congr 1
  funext a
  apply Fin.ext
  match a with
  | ⟨0, _⟩ => show win0_3.index t (0 : Fin 2) * 25 + 1 * (y 0).val = (y 0).val; rw [e0]; omega
  | ⟨1, _⟩ => show win0_3.index t (1 : Fin 2) * 8 + 1 * (y 1).val = (y 1).val; rw [e1]; omega

private theorem blk4_eq (c : Dev nD) (t : Fin cfg0.N) : (iblk0 V c 4 t : Vec Ideal S12x4 .f32) = (V c main_arg8 : Mat 12 4) := by
  obtain ⟨e0, e1⟩ := idx4 t
  funext y
  unfold iblk0
  rw [View.read_apply]
  show V c main_arg8 _ = V c main_arg8 y
  congr 1
  funext a
  apply Fin.ext
  match a with
  | ⟨0, _⟩ => show win0_4.index t (0 : Fin 2) * 12 + 1 * (y 0).val = (y 0).val; rw [e0]; omega
  | ⟨1, _⟩ => show win0_4.index t (1 : Fin 2) * 4 + 1 * (y 1).val = (y 1).val; rw [e1]; omega

private theorem blk5_eq (c : Dev nD) (t : Fin cfg0.N) : (iblk0 V c 5 t : Vec Ideal S16x64 .f32) = (V c main_arg9 : Mat 16 64) := by
  obtain ⟨e0, e1⟩ := idx5 t
  funext y
  unfold iblk0
  rw [View.read_apply]
  show V c main_arg9 _ = V c main_arg9 y
  congr 1
  funext a
  apply Fin.ext
  match a with
  | ⟨0, _⟩ => show win0_5.index t (0 : Fin 2) * 16 + 1 * (y 0).val = (y 0).val; rw [e0]; omega
  | ⟨1, _⟩ => show win0_5.index t (1 : Fin 2) * 64 + 1 * (y 1).val = (y 1).val; rw [e1]; omega

private theorem blk6_eq (c : Dev nD) (t : Fin cfg0.N) : (iblk0 V c 6 t : Vec Ideal S64 .f32) = (V c main_arg10 : Row 64) := by
  have e0 := idx6 t
  funext y
  unfold iblk0
  rw [View.read_apply]
  show V c main_arg10 _ = V c main_arg10 y
  congr 1
  funext a
  apply Fin.ext
  match a with
  | ⟨0, _⟩ => show win0_6.index t (0 : Fin 1) * 64 + 1 * (y 0).val = (y 0).val; rw [e0]; omega

private theorem blk7_eq (c : Dev nD) (t : Fin cfg0.N) : (iblk0 V c 7 t : Vec Ideal S64x64 .f32) = (V c main_arg11 : Mat 64 64) := by
  obtain ⟨e0, e1⟩ := idx7 t
  funext y
  unfold iblk0
  rw [View.read_apply]
  show V c main_arg11 _ = V c main_arg11 y
  congr 1
  funext a
  apply Fin.ext
  match a with
  | ⟨0, _⟩ => show win0_7.index t (0 : Fin 2) * 64 + 1 * (y 0).val = (y 0).val; rw [e0]; omega
  | ⟨1, _⟩ => show win0_7.index t (1 : Fin 2) * 64 + 1 * (y 1).val = (y 1).val; rw [e1]; omega

private theorem blk8_eq (c : Dev nD) (t : Fin cfg0.N) : (iblk0 V c 8 t : Vec Ideal S64 .f32) = (V c main_arg12 : Row 64) := by
  have e0 := idx8 t
  funext y
  unfold iblk0
  rw [View.read_apply]
  show V c main_arg12 _ = V c main_arg12 y
  congr 1
  funext a
  apply Fin.ext
  match a with
  | ⟨0, _⟩ => show win0_8.index t (0 : Fin 1) * 64 + 1 * (y 0).val = (y 0).val; rw [e0]; omega

/-- WHAT POINT `t` WRITES BACK is block `t` of the whole-array function of the arrays as the region finds them. -/
private theorem flushed_eq (c : Dev nD)
    (hrat : ∀ b : Fin 16384, InRange 25 ((V c main_v2 : WMat 16384 2) (ix2 b (0 : Fin 2))))
    (hcur : ∀ b : Fin 16384, InRange 12 ((V c main_v2 : WMat 16384 2) (ix2 b (1 : Fin 2))))
    (t : Fin cfg0.N) :
    (dat0 V c).flushed 9 t = ((cfg0.win 9).blk t).view.read (Elt Ideal)
      (G0 (V c main_v9) (V c main_v2) (V c main_arg3) (V c main_arg7) (V c main_arg8) (V c main_arg9) (V c main_arg10)
        (V c main_arg11) (V c main_arg12)) := by
  show (cfg0.win 9).cut (grid0.coords t) ((dat0 V c).after 9 t) = _
  rw [after0_9]
  unfold out0_9
  rw [View.canon_unit_zero hz2]
  simp only [View.ld_unit_zero (S := S512x64) hz2, View.ld_unit_zero (S := S512x2) hz2, View.ld_unit_zero (S := S512x16) hz2,
    View.ld_unit_zero (S := S25x8) hz2, View.ld_unit_zero (S := S12x4) hz2, View.ld_unit_zero (S := S16x64) hz2,
    View.ld_unit_zero (S := S64) hz1, View.ld_unit_zero (S := S64x64) hz2]
  refine funext fun (j : S512x140.Idx) => ?_
  obtain ⟨p, q, rfl⟩ : ∃ (p : Fin 512) (q : Fin 140), j = ix2 p q := ⟨j 0, j 1, eq_ix2 j⟩
  have hemb : ((cfg0.win 9).blk t).view.emb (ix2 p q) = (ix2 (brow t p) q : S16384x140.Idx) := by
    obtain ⟨e0, e1⟩ := idx9 t
    funext a
    apply Fin.ext
    match a with
    | ⟨0, _⟩ => show win0_9.index t (0 : Fin 2) * 512 + 1 * p.val = t.val * 512 + p.val; rw [e0]; omega
    | ⟨1, _⟩ => show win0_9.index t (1 : Fin 2) * 140 + 1 * q.val = q.val; rw [e1]; omega
  rw [View.read_apply, hemb]
  exact payload_at (iblk0 V c 0 t) (iblk0 V c 1 t) (iblk0 V c 2 t) (iblk0 V c 3 t) (iblk0 V c 4 t) (iblk0 V c 5 t)
    (iblk0 V c 6 t) (iblk0 V c 7 t) (iblk0 V c 8 t) p q
    (fun k => (V c main_v9 : Mat 16384 64) (ix2 (brow t p) k))
    ((V c main_v2 : WMat 16384 2) (ix2 (brow t p) (0 : Fin 2))) ((V c main_v2 : WMat 16384 2) (ix2 (brow t p) (1 : Fin 2)))
    (fun i => (V c main_arg3 : Mat 16384 16) (ix2 (brow t p) i))
    (V c main_arg7) (V c main_arg8) (V c main_arg9) (V c main_arg10) (V c main_arg11) (V c main_arg12)
    (fun k => blk0_apply V c t p k) (blk1_apply V c t p (0 : Fin 2)) (blk1_apply V c t p (1 : Fin 2))
    (fun i => blk2_apply V c t p i)
    (blk3_eq V c t) (blk4_eq V c t) (blk5_eq V c t) (blk6_eq V c t) (blk7_eq V c t) (blk8_eq V c t)
    (hrat (brow t p)) (hcur (brow t p))

/-- An index of the result array is in point `t`'s block iff each coordinate is in the block's range on its axis. -/
private theorem mem_blk9 (t : Fin cfg0.N) (i : S16384x140.Idx) :
    i ∈ ((cfg0.win 9).blk t).view.set ↔ ∀ a : Fin 2, win0_9.index t a * S512x140.size a ≤ (i a).val
      ∧ (i a).val < win0_9.index t a * S512x140.size a + S512x140.size a := by
  show i ∈ ((View.whole main_v27).slice (win0_9.rect t)).set ↔ _
  rw [View.set_slice_whole, Rect.mem_set_unit]
  exact Iff.rfl

/-- THE COVER: row `b` of the result lies in the block of point `b / 512`, which is written back. -/
private theorem cover9 (i : S16384x140.Idx) :
    ∃ t : Fin cfg0.N, (cfg0.win 9).flush t = true ∧ i ∈ ((cfg0.win 9).blk t).view.set := by
  have hi0 : (i 0).val < 16384 := (i 0).isLt
  have hi1 : (i 1).val < 140 := (i 1).isLt
  have hN : cfg0.N = 32 := N_0
  have ht : (i 0).val / 512 < cfg0.N := by rw [hN]; omega
  obtain ⟨e0, e1⟩ := idx9 ⟨(i 0).val / 512, ht⟩
  refine ⟨⟨(i 0).val / 512, ht⟩, flush0_9 _, ?_⟩
  rw [mem_blk9]
  intro a
  match a with
  | ⟨0, _⟩ =>
    show win0_9.index ⟨(i 0).val / 512, ht⟩ (0 : Fin 2) * 512 ≤ (i 0).val
      ∧ (i 0).val < win0_9.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_9.index ⟨(i 0).val / 512, ht⟩ (1 : Fin 2) * 140 ≤ (i 1).val
      ∧ (i 1).val < win0_9.index ⟨(i 0).val / 512, ht⟩ (1 : Fin 2) * 140 + 140
    rw [e1]
    omega

/-- Region 0's output array after its last point, at row `b`, column `d`. -/
theorem region0_value (c : Dev nD)
    (hrat : ∀ b : Fin 16384, InRange 25 ((V c main_v2 : WMat 16384 2) (ix2 b (0 : Fin 2))))
    (hcur : ∀ b : Fin 16384, InRange 12 ((V c main_v2 : WMat 16384 2) (ix2 b (1 : Fin 2))))
    (b : Fin 16384) (d : Fin 140) :
    ((dat0 V c).arrAt 9 cfg0.N : Mat 16384 140) (ix2 b d)
      = hself (V c main_v9) (V c main_arg7) (V c main_arg8)
          (fun b => rowIx 25 (by decide) ((V c main_v2 : WMat 16384 2) (ix2 b (0 : Fin 2))))
          (fun b => rowIx 12 (by decide) ((V c main_v2 : WMat 16384 2) (ix2 b (1 : Fin 2))))
          (hnum (V c main_arg3) (V c main_arg9) (V c main_arg10) (V c main_arg11) (V c main_arg12)) b d := by
  have hfin := (dat0 V c).arrAt_eq_of_cover 9
    (G0 (V c main_v9) (V c main_v2) (V c main_arg3) (V c main_arg7) (V c main_arg8) (V c main_arg9) (V c main_arg10)
      (V c main_arg11) (V c main_arg12))
    (fun t _ => flushed_eq V c hrat hcur t) (fun i => cover9 i)
  exact (congrFun hfin (ix2 b d)).trans
    (hself_eq_rowOf (V c main_v9) (V c main_v2) (V c main_arg3) (V c main_arg7) (V c main_arg8) (V c main_arg9)
      (V c main_arg10) (V c main_arg11) (V c main_arg12) b d).symm

end Cert.KernelIdeal.Val

end
-- ==== Proof.Region1Sums.lean ====
/-
  The second kernel region accumulates, for each half of the batch and each group, the members' rows: at each of a
  half's 16 tiles the region adds, to what the tile before left, the product of the tile's transposed indicator
  matrix with the tile's 512 rows; the first tile of a half starts from zero. After a half's last tile its block
  holds the half's sum, which is what ends in the result array.
  This module: the issuer sums (5120 group slots) and the sector sums (128 group slots).
-/
import proofs.«412861_j3332894622337_3_alg».proof.Proof.Gen.KernelIdeal.Frame
import proofs.«412861_j3332894622337_3_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
namespace Cert.KernelIdeal.Val

open Cert.KernelIdeal Cert.KernelIdeal.Gen Cert.Spec

variable (V : (c : Dev nD) → (b : Ref sig .tc) → Buf (Elt Ideal) ((c : Thread nD τ).loc b))

namespace Region1Sums

/-! ## What each case of the body leaves in the two sum blocks -/

section pieces
variable {F : FTy → Type} [FloatOps F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- A later tile leaves in the issuer block its step applied to the block as it found it. -/
theorem piece_B_2 (c : Dev nD) (i : grid1.Coords) (a2 : Memref sig .tc .vmem S512x140 .f32) (h2 : a2.IsWhole) (a3 : Memref sig .tc .vmem S512x2 .i32) (h3 : a3.IsWhole) (a4 : Memref sig .tc .vmem S1x5120x140 .f32) (h4 : a4.IsWhole) (a5 : Memref sig .tc .vmem S1x1x5120 .f32) (h5 : a5.IsWhole) (a6 : Memref sig .tc .vmem S1x128x140 .f32) (h6 : a6.IsWhole) (a7 : Memref sig .tc .vmem S1x1x128 .f32) (h7 : a7.IsWhole) (hc : ¬cond1_0 i)
    (x0 : Vec F S512x140 .f32) (x1 : Vec F S512x2 .i32) (o2 : Vec F S1x5120x140 .f32) (o3 : Vec F S1x1x5120 .f32)
    (o4 : Vec F S1x128x140 .f32) (o5 : Vec F S1x1x128 .f32) :
    out1_B_2 c i a2 h2 a3 h3 a4 h4 a5 h5 a6 h6 a7 h7 hc x0 x1 o2 o3 o4 o5 = k1_pay15 x0 x1 o2 := by
  unfold out1_B_2
  rw [View.read_writes_eq_canon _ _ _ (cover1_B_2 c i a2 h2 a3 h3 a4 h4 a5 h5 a6 h6 a7 h7 hc x0 x1 o2 o3 o4 o5)]
  unfold kernelRun1_B
  dsimp only
  sl_unfold_words
  rw [View.canon_unit_zero hz3]
  simp only [View.readAt_eq_ld, h2.read_unread, h3.read_unread, h4.read_unread, View.ld_unit_zero (S := S512x140) hz2,
    View.ld_unit_zero (S := S512x2) hz2, View.ld_unit_zero (S := S1x5120x140) hz3]

/-- A half's first tile stores the zero block, reads it back, and leaves its step applied to that. -/
theorem piece_A_2 (c : Dev nD) (i : grid1.Coords) (a2 : Memref sig .tc .vmem S512x140 .f32) (h2 : a2.IsWhole) (a3 : Memref sig .tc .vmem S512x2 .i32) (h3 : a3.IsWhole) (a4 : Memref sig .tc .vmem S1x5120x140 .f32) (h4 : a4.IsWhole) (a5 : Memref sig .tc .vmem S1x1x5120 .f32) (h5 : a5.IsWhole) (a6 : Memref sig .tc .vmem S1x128x140 .f32) (h6 : a6.IsWhole) (a7 : Memref sig .tc .vmem S1x1x128 .f32) (h7 : a7.IsWhole) (hc : cond1_0 i)
    (x0 : Vec F S512x140 .f32) (x1 : Vec F S512x2 .i32) :
    out1_A_2 c i a2 h2 a3 h3 a4 h4 a5 h5 a6 h6 a7 h7 hc x0 x1 = k1_pay15 x0 x1 k1_pay4 := by
  unfold out1_A_2
  rw [View.read_writes_eq_canon _ _ _ (cover1_A_2 c i a2 h2 a3 h3 a4 h4 a5 h5 a6 h6 a7 h7 hc x0 x1)]
  unfold kernelRun1_A
  dsimp only
  sl_unfold_words
  rw [View.canon_cons_unit_zero (S := S1x5120x140) hz3, View.readCov_unit_zero (S := S1x5120x140) _ hz3]
  simp only [View.readAt_eq_ld, h2.read_unread, h3.read_unread, View.ld_unit_zero (S := S512x140) hz2,
    View.ld_unit_zero (S := S512x2) hz2, View.ld_unit_zero (S := S1x5120x140) hz3]

/-- A later tile leaves in the sector block its step applied to the block as it found it. -/
theorem piece_B_4 (c : Dev nD) (i : grid1.Coords) (a2 : Memref sig .tc .vmem S512x140 .f32) (h2 : a2.IsWhole) (a3 : Memref sig .tc .vmem S512x2 .i32) (h3 : a3.IsWhole) (a4 : Memref sig .tc .vmem S1x5120x140 .f32) (h4 : a4.IsWhole) (a5 : Memref sig .tc .vmem S1x1x5120 .f32) (h5 : a5.IsWhole) (a6 : Memref sig .tc .vmem S1x128x140 .f32) (h6 : a6.IsWhole) (a7 : Memref sig .tc .vmem S1x1x128 .f32) (h7 : a7.IsWhole) (hc : ¬cond1_0 i)
    (x0 : Vec F S512x140 .f32) (x1 : Vec F S512x2 .i32) (o2 : Vec F S1x5120x140 .f32) (o3 : Vec F S1x1x5120 .f32)
    (o4 : Vec F S1x128x140 .f32) (o5 : Vec F S1x1x128 .f32) :
    out1_B_4 c i a2 h2 a3 h3 a4 h4 a5 h5 a6 h6 a7 h7 hc x0 x1 o2 o3 o4 o5 = k1_pay2 (k1_pay13 x0 x1) o4 := by
  unfold out1_B_4
  rw [View.read_writes_eq_canon _ _ _ (cover1_B_4 c i a2 h2 a3 h3 a4 h4 a5 h5 a6 h6 a7 h7 hc x0 x1 o2 o3 o4 o5)]
  unfold kernelRun1_B
  dsimp only
  sl_unfold_words
  rw [View.canon_unit_zero hz3]
  simp only [View.readAt_eq_ld, h2.read_unread, h3.read_unread, h6.read_unread, View.ld_unit_zero (S := S512x140) hz2,
    View.ld_unit_zero (S := S512x2) hz2, View.ld_unit_zero (S := S1x128x140) hz3]

/-- A half's first tile stores the zero block, reads it back, and leaves its step applied to that. -/
theorem piece_A_4 (c : Dev nD) (i : grid1.Coords) (a2 : Memref sig .tc .vmem S512x140 .f32) (h2 : a2.IsWhole) (a3 : Memref sig .tc .vmem S512x2 .i32) (h3 : a3.IsWhole) (a4 : Memref sig .tc .vmem S1x5120x140 .f32) (h4 : a4.IsWhole) (a5 : Memref sig .tc .vmem S1x1x5120 .f32) (h5 : a5.IsWhole) (a6 : Memref sig .tc .vmem S1x128x140 .f32) (h6 : a6.IsWhole) (a7 : Memref sig .tc .vmem S1x1x128 .f32) (h7 : a7.IsWhole) (hc : cond1_0 i)
    (x0 : Vec F S512x140 .f32) (x1 : Vec F S512x2 .i32) :
    out1_A_4 c i a2 h2 a3 h3 a4 h4 a5 h5 a6 h6 a7 h7 hc x0 x1 = k1_pay2 (k1_pay13 x0 x1) k1_pay6 := by
  unfold out1_A_4
  rw [View.read_writes_eq_canon _ _ _ (cover1_A_4 c i a2 h2 a3 h3 a4 h4 a5 h5 a6 h6 a7 h7 hc x0 x1)]
  unfold kernelRun1_A
  dsimp only
  sl_unfold_words
  rw [View.canon_cons_unit_zero (S := S1x128x140) hz3, View.readCov_unit_zero (S := S1x128x140) _ hz3]
  simp only [View.readAt_eq_ld, h2.read_unread, h3.read_unread, View.ld_unit_zero (S := S512x140) hz2,
    View.ld_unit_zero (S := S512x2) hz2, View.ld_unit_zero (S := S1x128x140) hz3]
end pieces

/-! ## One tile's step, entry by entry -/

section payload

/-- The widened comparison bit of two words, read as an integer: one where they are equal, zero elsewhere. -/
private theorem eqBit_toInt (w v : BitVec 32) :
    (((IntOp.cmpi .eq w v).setWidth 32).toInt : ℤ) = if w = v then 1 else 0 := by
  show ((BitVec.ofBool (w == v)).setWidth 32).toInt = _
  by_cases h : w = v
  · rw [if_pos h, show (w == v) = true from beq_iff_eq.mpr h]; decide
  · rw [if_neg h, show (w == v) = false from beq_eq_false_iff_ne.mpr h]; decide

/-- The same as an extended real: the indicator of "the word is the number". -/
private theorem eqBit_hot (w : BitVec 32) (g : ℕ) :
    ((((IntOp.cmpi .eq w (BitVec.ofNat 32 g)).setWidth 32).toInt : ℝ) : EReal) = hot w g := by
  rw [eqBit_toInt]
  unfold hot
  by_cases h : w = BitVec.ofNat 32 g
  · rw [if_pos h, if_pos h]; simp
  · rw [if_neg h, if_neg h]; simp

/-- The tile's issuer indicator matrix: row `r`, column `g` is one exactly where row `r`'s issuer word is `g`. -/
theorem issuerHot_apply (x1 : Vec Ideal S512x2 .i32) (r : Fin 512) (g : Fin 5120) :
    k1_pay11 (F := Ideal) x1 (ix2 r g) = hot (x1 (ix2 r (0 : Fin 2))) g.val := by
  have e1 : broadcastTo S512x5120 (extractStridedSlice S512x1 ![0, 0] (k1_pay8 (F := Ideal) x1) slices_S512x2_o0_0_S512x1)
      broadcasts_S512x1_S512x5120 (ix2 r g) = x1 (ix2 r (0 : Fin 2)) := by
    refine (broadcastTo_apply _ _ (ix2 r g) (ix2 r (0 : Fin 1)) (fun a => ?_)).trans ?_
    · match a with
      | ⟨0, _⟩ => show r.val = if (512 : Nat) = 1 then 0 else r.val; rw [if_neg (by decide)]
      | ⟨1, _⟩ => show (0 : Nat) = if (1 : Nat) = 1 then 0 else g.val; rw [if_pos rfl]
    refine (extractStridedSlice_apply _ _ _ (ix2 r (0 : Fin 1)) (ix2 r (0 : Fin 2)) (fun a => ?_)).trans ?_
    · match a with
      | ⟨0, _⟩ => show r.val = 0 + r.val; omega
      | ⟨1, _⟩ => show (0 : Nat) = 0 + 0; rfl
    unfold k1_pay8
    rw [shapeCast_self]
  have e2 : iota .tc S512x5120 32 [1] iota_S512x5120_d1_w32 (ix2 r g) = BitVec.ofNat 32 g.val :=
    iota_single_apply .tc S512x5120 32 1 iota_S512x5120_d1_w32 (ix2 r g)
  unfold k1_pay11
  show ((((IntOp.cmpi .eq _ _).setWidth 32).toInt : ℝ) : EReal) = _
  rw [e1, e2]
  exact eqBit_hot _ _

/-- The tile's rows as the product reads them: unchanged. -/
theorem rows_apply (x0 : Vec Ideal S512x140 .f32) (r : Fin 512) (d : Fin 140) :
    k1_pay9 (F := Ideal) x0 (ix2 r d) = x0 (ix2 r d) := by
  unfold k1_pay9
  show shapeCast S512x140 x0 shapeCasts_S512x140_S512x140 (ix2 r d) = _
  rw [shapeCast_self]

/-- The issuer product contracts the row axis of both operands: entry `(g, d)` pairs the indicator's `(k, g)` with the
    rows' `(k, d)`. Axis by axis: -/
theorem issuer_lhs_0 (j : S5120x140.Idx) (q : dot_S512x5120_S512x140_S5120x140_0_0_1_1_n_n.contr.Idx) :
    (dot_S512x5120_S512x140_S5120x140_0_0_1_1_n_n.lhsIdx j q 0).val = (q ⟨0, by decide⟩).val :=
  dot_S512x5120_S512x140_S5120x140_0_0_1_1_n_n.lhsIdx_val_of_single rfl j q
theorem issuer_lhs_1 (j : S5120x140.Idx) (q : dot_S512x5120_S512x140_S5120x140_0_0_1_1_n_n.contr.Idx) :
    (dot_S512x5120_S512x140_S5120x140_0_0_1_1_n_n.lhsIdx j q 1).val = (j 0).val := by
  unfold DotDims.lhsIdx
  rw [dif_neg (show ¬(1 : Fin S512x5120.rank) ∈ dot_S512x5120_S512x140_S5120x140_0_0_1_1_n_n.lhsBatch by decide), dif_pos (show (1 : Fin S512x5120.rank) ∈ dot_S512x5120_S512x140_S5120x140_0_0_1_1_n_n.lhsNonContracting by decide)]
  rfl
theorem issuer_rhs_0 (j : S5120x140.Idx) (q : dot_S512x5120_S512x140_S5120x140_0_0_1_1_n_n.contr.Idx) :
    (dot_S512x5120_S512x140_S5120x140_0_0_1_1_n_n.rhsIdx j q 0).val = (q ⟨0, by decide⟩).val :=
  dot_S512x5120_S512x140_S5120x140_0_0_1_1_n_n.rhsIdx_val_of_single rfl j q
theorem issuer_rhs_1 (j : S5120x140.Idx) (q : dot_S512x5120_S512x140_S5120x140_0_0_1_1_n_n.contr.Idx) :
    (dot_S512x5120_S512x140_S5120x140_0_0_1_1_n_n.rhsIdx j q 1).val = (j 1).val := by
  unfold DotDims.rhsIdx
  rw [dif_neg (show ¬(1 : Fin S512x140.rank) ∈ dot_S512x5120_S512x140_S5120x140_0_0_1_1_n_n.rhsBatch by decide), dif_pos (show (1 : Fin S512x140.rank) ∈ dot_S512x5120_S512x140_S5120x140_0_0_1_1_n_n.rhsNonContracting by decide)]
  rfl

/-- One tile's step on the issuer block: entry `(g, d)` grows by the sum, over the tile's rows whose issuer word is
    `g`, of their column `d`. -/
theorem issuerStep_apply (x0 : Vec Ideal S512x140 .f32) (x1 : Vec Ideal S512x2 .i32) (acc : Vec Ideal S1x5120x140 .f32)
    (g : Fin 5120) (d : Fin 140) :
    k1_pay15 (F := Ideal) x0 x1 acc (ix3 (0 : Fin 1) g d)
      = acc (ix3 (0 : Fin 1) g d) + ∑ r : Fin 512, hot (x1 (ix2 r (0 : Fin 2))) g.val * x0 (ix2 r d) := by
  unfold k1_pay15
  refine (shapeCast_apply _ _ (ix3 (0 : Fin 1) g d) (ix2 g d) ?_).trans ?_
  · rw [Shape.rowMajor_val_two, Shape.rowMajor_val_three]
    show g.val * 140 + d.val = ((0 : Nat) * 5120 + g.val) * 140 + d.val
    omega
  refine congrArg₂ (· + ·) ?_ ?_
  · refine shapeCast_apply _ _ (ix2 g d) (ix3 (0 : Fin 1) g d) ?_
    rw [Shape.rowMajor_val_two, Shape.rowMajor_val_three]
    show ((0 : Nat) * 5120 + g.val) * 140 + d.val = g.val * 140 + d.val
    omega
  · refine (Ideal.matmul_constant_zero_apply dot_S512x5120_S512x140_S5120x140_0_0_1_1_n_n none _ _ (ix2 g d)).trans ?_
    rw [← Equiv.sum_comp (contrEquiv1 dot_S512x5120_S512x140_S5120x140_0_0_1_1_n_n 512 rfl rfl).symm]
    refine Finset.sum_congr rfl fun k _ => ?_
    have hk := contrEquiv1_symm_val dot_S512x5120_S512x140_S5120x140_0_0_1_1_n_n 512 rfl rfl k
    have el : dot_S512x5120_S512x140_S5120x140_0_0_1_1_n_n.lhsIdx (ix2 g d) ((contrEquiv1 dot_S512x5120_S512x140_S5120x140_0_0_1_1_n_n 512 rfl rfl).symm k) = ix2 k g := funext fun a => Fin.ext (by
      match a with
      | ⟨0, _⟩ => exact (issuer_lhs_0 _ _).trans hk
      | ⟨1, _⟩ => exact issuer_lhs_1 _ _)
    have er : dot_S512x5120_S512x140_S5120x140_0_0_1_1_n_n.rhsIdx (ix2 g d) ((contrEquiv1 dot_S512x5120_S512x140_S5120x140_0_0_1_1_n_n 512 rfl rfl).symm k) = ix2 k d := funext fun a => Fin.ext (by
      match a with
      | ⟨0, _⟩ => exact (issuer_rhs_0 _ _).trans hk
      | ⟨1, _⟩ => exact issuer_rhs_1 _ _)
    rw [el, er, issuerHot_apply, rows_apply]

end payload

section payloadSector

/-- The tile's sector indicator matrix: row `r`, column `g` is one exactly where row `r`'s sector word is `g`. -/
theorem sectorHot_apply (x1 : Vec Ideal S512x2 .i32) (r : Fin 512) (g : Fin 128) :
    k1_pay12 (F := Ideal) x1 (ix2 r g) = hot (x1 (ix2 r (1 : Fin 2))) g.val := by
  have e1 : broadcastTo S512x128 (extractStridedSlice S512x1 ![0, 1] (k1_pay8 (F := Ideal) x1) slices_S512x2_o0_1_S512x1)
      broadcasts_S512x1_S512x128 (ix2 r g) = x1 (ix2 r (1 : Fin 2)) := by
    refine (broadcastTo_apply _ _ (ix2 r g) (ix2 r (0 : Fin 1)) (fun a => ?_)).trans ?_
    · match a with
      | ⟨0, _⟩ => show r.val = if (512 : Nat) = 1 then 0 else r.val; rw [if_neg (by decide)]
      | ⟨1, _⟩ => show (0 : Nat) = if (1 : Nat) = 1 then 0 else g.val; rw [if_pos rfl]
    refine (extractStridedSlice_apply _ _ _ (ix2 r (0 : Fin 1)) (ix2 r (1 : Fin 2)) (fun a => ?_)).trans ?_
    · match a with
      | ⟨0, _⟩ => show r.val = 0 + r.val; omega
      | ⟨1, _⟩ => show (1 : Nat) = 1 + 0; rfl
    unfold k1_pay8
    rw [shapeCast_self]
  have e2 : iota .tc S512x128 32 [1] iota_S512x128_d1_w32 (ix2 r g) = BitVec.ofNat 32 g.val :=
    iota_single_apply .tc S512x128 32 1 iota_S512x128_d1_w32 (ix2 r g)
  unfold k1_pay12
  show ((((IntOp.cmpi .eq _ _).setWidth 32).toInt : ℝ) : EReal) = _
  rw [e1, e2]
  exact eqBit_hot _ _

/-- The sector product contracts the row axis of both operands: entry `(g, d)` pairs the indicator's `(k, g)` with the
    rows' `(k, d)`. Axis by axis: -/
theorem sector_lhs_0 (j : S128x140.Idx) (q : dot_S512x128_S512x140_S128x140_0_0_1_1_n_n.contr.Idx) :
    (dot_S512x128_S512x140_S128x140_0_0_1_1_n_n.lhsIdx j q 0).val = (q ⟨0, by decide⟩).val :=
  dot_S512x128_S512x140_S128x140_0_0_1_1_n_n.lhsIdx_val_of_single rfl j q
theorem sector_lhs_1 (j : S128x140.Idx) (q : dot_S512x128_S512x140_S128x140_0_0_1_1_n_n.contr.Idx) :
    (dot_S512x128_S512x140_S128x140_0_0_1_1_n_n.lhsIdx j q 1).val = (j 0).val := by
  unfold DotDims.lhsIdx
  rw [dif_neg (show ¬(1 : Fin S512x128.rank) ∈ dot_S512x128_S512x140_S128x140_0_0_1_1_n_n.lhsBatch by decide), dif_pos (show (1 : Fin S512x128.rank) ∈ dot_S512x128_S512x140_S128x140_0_0_1_1_n_n.lhsNonContracting by decide)]
  rfl
theorem sector_rhs_0 (j : S128x140.Idx) (q : dot_S512x128_S512x140_S128x140_0_0_1_1_n_n.contr.Idx) :
    (dot_S512x128_S512x140_S128x140_0_0_1_1_n_n.rhsIdx j q 0).val = (q ⟨0, by decide⟩).val :=
  dot_S512x128_S512x140_S128x140_0_0_1_1_n_n.rhsIdx_val_of_single rfl j q
theorem sector_rhs_1 (j : S128x140.Idx) (q : dot_S512x128_S512x140_S128x140_0_0_1_1_n_n.contr.Idx) :
    (dot_S512x128_S512x140_S128x140_0_0_1_1_n_n.rhsIdx j q 1).val = (j 1).val := by
  unfold DotDims.rhsIdx
  rw [dif_neg (show ¬(1 : Fin S512x140.rank) ∈ dot_S512x128_S512x140_S128x140_0_0_1_1_n_n.rhsBatch by decide), dif_pos (show (1 : Fin S512x140.rank) ∈ dot_S512x128_S512x140_S128x140_0_0_1_1_n_n.rhsNonContracting by decide)]
  rfl

/-- One tile's step on the sector block: entry `(g, d)` grows by the sum, over the tile's rows whose sector word is
    `g`, of their column `d`. -/
theorem sectorStep_apply (x0 : Vec Ideal S512x140 .f32) (x1 : Vec Ideal S512x2 .i32) (acc : Vec Ideal S1x128x140 .f32)
    (g : Fin 128) (d : Fin 140) :
    k1_pay2 (F := Ideal) (k1_pay13 x0 x1) acc (ix3 (0 : Fin 1) g d)
      = acc (ix3 (0 : Fin 1) g d) + ∑ r : Fin 512, hot (x1 (ix2 r (1 : Fin 2))) g.val * x0 (ix2 r d) := by
  unfold k1_pay2
  refine (shapeCast_apply _ _ (ix3 (0 : Fin 1) g d) (ix2 g d) ?_).trans ?_
  · rw [Shape.rowMajor_val_two, Shape.rowMajor_val_three]
    show g.val * 140 + d.val = ((0 : Nat) * 128 + g.val) * 140 + d.val
    omega
  refine congrArg₂ (· + ·) ?_ ?_
  · refine shapeCast_apply _ _ (ix2 g d) (ix3 (0 : Fin 1) g d) ?_
    rw [Shape.rowMajor_val_two, Shape.rowMajor_val_three]
    show ((0 : Nat) * 128 + g.val) * 140 + d.val = g.val * 140 + d.val
    omega
  · unfold k1_pay13
    refine (Ideal.matmul_constant_zero_apply dot_S512x128_S512x140_S128x140_0_0_1_1_n_n none _ _ (ix2 g d)).trans ?_
    rw [← Equiv.sum_comp (contrEquiv1 dot_S512x128_S512x140_S128x140_0_0_1_1_n_n 512 rfl rfl).symm]
    refine Finset.sum_congr rfl fun k _ => ?_
    have hk := contrEquiv1_symm_val dot_S512x128_S512x140_S128x140_0_0_1_1_n_n 512 rfl rfl k
    have el : dot_S512x128_S512x140_S128x140_0_0_1_1_n_n.lhsIdx (ix2 g d) ((contrEquiv1 dot_S512x128_S512x140_S128x140_0_0_1_1_n_n 512 rfl rfl).symm k) = ix2 k g := funext fun a => Fin.ext (by
      match a with
      | ⟨0, _⟩ => exact (sector_lhs_0 _ _).trans hk
      | ⟨1, _⟩ => exact sector_lhs_1 _ _)
    have er : dot_S512x128_S512x140_S128x140_0_0_1_1_n_n.rhsIdx (ix2 g d) ((contrEquiv1 dot_S512x128_S512x140_S128x140_0_0_1_1_n_n 512 rfl rfl).symm k) = ix2 k d := funext fun a => Fin.ext (by
      match a with
      | ⟨0, _⟩ => exact (sector_rhs_0 _ _).trans hk
      | ⟨1, _⟩ => exact sector_rhs_1 _ _)
    rw [el, er, sectorHot_apply, rows_apply]

end payloadSector

/-! ## The blocks of the two inputs, and the sum blocks point by point -/

section blocks

/-- The block index maps of region 1, decided over its 32 points: the two inputs move with the point, the two sum
    blocks with the point's half. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = t.val / 16 ∧ win1_2.index t (1 : Fin 3) = 0 ∧ win1_2.index t (2 : Fin 3) = 0
    ∧ win1_4.index t (0 : Fin 3) = t.val / 16 ∧ win1_4.index t (1 : Fin 3) = 0 ∧ win1_4.index t (2 : Fin 3) = 0 :=
  (by decide +kernel : ∀ t : Fin grid1.N, _)

/-- A point of the grid as a tile of the batch. -/
def tileOf (t : Fin cfg1.N) : Fin 32 := ⟨t.val, lt_of_lt_of_eq t.isLt (show cfg1.N = 32 from N_1)⟩

/-- The tile's rows and the tile's words, as the body loads them, and the two arrays they are blocks of. -/
abbrev rowsBlk (c : Dev nD) (t : Fin cfg1.N) : Vec Ideal S512x140 .f32 := iblk1 V c 0 t
abbrev wordsBlk (c : Dev nD) (t : Fin cfg1.N) : Vec Ideal S512x2 .i32 := iblk1 V c 1 t
abbrev rowsArr (c : Dev nD) : Mat 16384 140 := V c main_v27
abbrev wordsArr (c : Dev nD) : WMat 16384 2 := V c main_v26

/-- Row `r` of the rows' block at point `t` is row `512 t + r` of the array. -/
theorem rowsBlk_apply (c : Dev nD) (t : Fin cfg1.N) (r : Fin 512) (d : Fin 140) :
    rowsBlk V c t (ix2 r d) = rowsArr V c (ix2 (tileRow (tileOf t) r) d) := by
  obtain ⟨e0, e1, -⟩ := idx_facts1 t
  unfold rowsBlk iblk1
  rw [View.read_apply]
  show V c main_v27 (((cfg1.win 0).blk t).view.emb (ix2 r d)) = V c main_v27 (ix2 (tileRow (tileOf t) r) d)
  refine congrArg (V c main_v27) (funext fun a => Fin.ext ?_)
  match a with
  | ⟨0, _⟩ => show win1_0.index t (0 : Fin 2) * 512 + 1 * r.val = t.val * 512 + r.val; rw [e0]; omega
  | ⟨1, _⟩ => show win1_0.index t (1 : Fin 2) * 140 + 1 * d.val = d.val; rw [e1]; omega

/-- Row `r` of the words' block at point `t` is row `512 t + r` of the array. -/
theorem wordsBlk_apply (c : Dev nD) (t : Fin cfg1.N) (r : Fin 512) (k : Fin 2) :
    wordsBlk V c t (ix2 r k) = wordsArr V c (ix2 (tileRow (tileOf t) r) k) := by
  obtain ⟨-, -, e0, e1, -⟩ := idx_facts1 t
  unfold wordsBlk iblk1
  rw [View.read_apply]
  show V c main_v26 (((cfg1.win 1).blk t).view.emb (ix2 r k)) = V c main_v26 (ix2 (tileRow (tileOf t) r) k)
  refine congrArg (V c main_v26) (funext fun a => Fin.ext ?_)
  match a with
  | ⟨0, _⟩ => show win1_1.index t (0 : Fin 2) * 512 + 1 * r.val = t.val * 512 + r.val; rw [e0]; omega
  | ⟨1, _⟩ => show win1_1.index t (1 : Fin 2) * 2 + 1 * k.val = k.val; rw [e1]; omega

/-- The issuer block after a half's first tile: the tile's step on the zero block. -/
theorem issuer_first (c : Dev nD) (t : Fin cfg1.N) (h0 : t.val % 16 = 0) :
    (outsAt1 V c t.val t.isLt).1 = k1_pay15 (rowsBlk V c t) (wordsBlk V c t) (k1_pay4 (F := Ideal)) := by
  rw [outsAt1_A V c t h0]
  dsimp only
  exact piece_A_2 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t)

/-- The issuer block after a later tile: the tile's step on what the tile before left. -/
theorem issuer_next (c : Dev nD) (t : Fin cfg1.N) (h0 : ¬t.val % 16 = 0) :
    (outsAt1 V c t.val t.isLt).1 = k1_pay15 (rowsBlk V c t) (wordsBlk V c t)
      (outsAt1 V c (t.val - 1) (Nat.lt_of_le_of_lt (Nat.sub_le _ _) t.isLt)).1 := by
  rw [outsAt1_B V c t h0]
  dsimp only
  exact piece_B_2 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t)
    (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- The zero block reads zero. -/
theorem zero2_apply (g : Fin 5120) (d : Fin 140) : k1_pay4 (F := Ideal) (ix3 (0 : Fin 1) g d) = 0 := by
  unfold k1_pay4
  show Ideal.ofBits .f32 0x00000000#32 = 0
  exact Ideal.ofBits_zero_f32

end blocks

/-! ## The issuer sums: 5120 group slots -/

section issuer

/-- The sum of `f` over tile `m` of the batch (nothing past the last tile). -/
def tileSum (f : Fin 16384 → EReal) (m : ℕ) : EReal := if h : m < 32 then ∑ r : Fin 512, f (tileRow ⟨m, h⟩ r) else 0

/-- Row `b`'s share of issuer group `g`'s sum, column `d`. -/
abbrev issuerTerm (c : Dev nD) (g : ℕ) (d : Fin 140) (b : Fin 16384) : EReal :=
  hot (wordsArr V c (ix2 b (0 : Fin 2))) g * rowsArr V c (ix2 b d)

/-- One tile's step adds the tile's sum of shares. -/
theorem issuer_tile (c : Dev nD) (t : Fin cfg1.N) (acc : Vec Ideal S1x5120x140 .f32) (g : Fin 5120) (d : Fin 140) :
    k1_pay15 (rowsBlk V c t) (wordsBlk V c t) acc (ix3 (0 : Fin 1) g d)
      = acc (ix3 (0 : Fin 1) g d) + tileSum (issuerTerm V c g.val d) t.val := by
  have ht : t.val < 32 := (tileOf t).isLt
  refine (issuerStep_apply (rowsBlk V c t) (wordsBlk V c t) acc g d).trans ?_
  refine congrArg (acc (ix3 (0 : Fin 1) g d) + ·) ?_
  unfold tileSum
  rw [dif_pos ht]
  refine Finset.sum_congr rfl fun r _ => ?_
  rw [wordsBlk_apply, rowsBlk_apply]
  rfl

/-- After the first tile of a half the block holds that tile's sum. -/
theorem issuer_inv_first (c : Dev nD) (g : Fin 5120) (d : Fin 140) (n : ℕ) (h : n < cfg1.N) (h0 : n % 16 = 0) :
    (outsAt1 V c n h).1 (ix3 (0 : Fin 1) g d)
      = ∑ k ∈ Finset.range (n % 16 + 1), tileSum (issuerTerm V c g.val d) (n / 16 * 16 + k) := by
  have e0 : n % 16 + 1 = 1 := by omega
  have e : n / 16 * 16 + 0 = n := by omega
  rw [issuer_first V c ⟨n, h⟩ h0, issuer_tile, zero2_apply, zero_add, e0, Finset.sum_range_one, e]

/-- After tile `n` the block holds the sum over the tiles of `n`'s half up to `n`: by induction on the point. -/
theorem issuer_inv (c : Dev nD) (g : Fin 5120) (d : Fin 140) : ∀ (n : ℕ) (h : n < cfg1.N),
    (outsAt1 V c n h).1 (ix3 (0 : Fin 1) g d)
      = ∑ k ∈ Finset.range (n % 16 + 1), tileSum (issuerTerm V c g.val d) (n / 16 * 16 + k)
  | 0, h => issuer_inv_first V c g d 0 h rfl
  | n + 1, h => by
    by_cases h0 : (n + 1) % 16 = 0
    · exact issuer_inv_first V c g d (n + 1) h h0
    · have e1 : (n + 1) % 16 + 1 = (n % 16 + 1) + 1 := by omega
      have e2 : (n + 1) / 16 * 16 = n / 16 * 16 := by omega
      have e3 : n / 16 * 16 + (n % 16 + 1) = n + 1 := by omega
      rw [issuer_next V c ⟨n + 1, h⟩ h0, issuer_tile, e1, e2, Finset.sum_range_succ, e3]
      exact congrArg (· + tileSum (issuerTerm V c g.val d) (n + 1)) (issuer_inv c g d n (Nat.lt_of_succ_lt h))

/-- What the issuer array ends holding: at `(cc, g, d)` half `cc`'s sum of the shares of group `g`, column `d`. -/
def issuerSums (c : Dev nD) : (⟨3, ![2, 5120, 140]⟩ : Shape).Idx → EReal := fun i =>
  halfSum (issuerTerm V c (i 1).val (i 2)) (i 0)

/-- After a half's last tile the block holds the half's sum. -/
theorem issuer_block (c : Dev nD) (t : Fin cfg1.N) (h15 : t.val % 16 = 15) (y : S1x5120x140.Idx) :
    (outsAt1 V c t.val t.isLt).1 y
      = issuerSums V c (ix3 (⟨t.val / 16, by have ht : t.val < 32 := (tileOf t).isLt; show t.val / 16 < 2; omega⟩ : Fin 2) (y 1) (y 2)) := by
  have ht : t.val < 32 := (tileOf t).isLt
  obtain ⟨z, g, d, rfl⟩ : ∃ (z : Fin 1) (g : Fin 5120) (d : Fin 140), y = ix3 z g d := ⟨y 0, y 1, y 2, eq_ix3 y⟩
  obtain rfl : z = 0 := Subsingleton.elim _ _
  rw [issuer_inv V c g d t.val t.isLt]
  show _ = halfSum (issuerTerm V c g.val d) ⟨t.val / 16, _⟩
  unfold halfSum
  have e15 : t.val % 16 + 1 = 16 := by omega
  rw [e15, Finset.sum_range]
  refine Finset.sum_congr rfl fun n _ => ?_
  have hn : t.val / 16 * 16 + n.val < 32 := by have := n.isLt; omega
  unfold tileSum
  rw [dif_pos hn]
  rfl

/-- What a half's last point writes back is its block of the half sums. -/
theorem issuer_flushed (c : Dev nD) (t : Fin cfg1.N) (hf : (cfg1.win 2).flush t = true) :
    (dat1 V c).flushed 2 t = ((cfg1.win 2).blk t).view.read (Elt Ideal) (issuerSums V c) := by
  have h15 : t.val % 16 = 15 := (flush1_2 t).mp hf
  obtain ⟨-, -, -, -, e0, e1, e2, -⟩ := idx_facts1 t
  show (cfg1.win 2).cut (grid1.coords t) ((dat1 V c).after 2 t) = _
  rw [after1_2]
  funext y
  rw [View.read_apply]
  have y0 : (y 0).val < 1 := (y 0).isLt
  refine (issuer_block V c t h15 y).trans ?_
  show issuerSums V c _ = issuerSums V c (((cfg1.win 2).blk t).view.emb y)
  refine congrArg (issuerSums V c) (funext fun a => Fin.ext ?_)
  match a with
  | ⟨0, _⟩ => show t.val / 16 = win1_2.index t (0 : Fin 3) * 1 + 1 * (y 0).val; rw [e0]; omega
  | ⟨1, _⟩ => show (y 1).val = win1_2.index t (1 : Fin 3) * 5120 + 1 * (y 1).val; rw [e1]; omega
  | ⟨2, _⟩ => show (y 2).val = win1_2.index t (2 : Fin 3) * 140 + 1 * (y 2).val; rw [e2]; omega

/-- The two halves' last points cover the array, so it ends holding the half sums. -/
theorem issuer_final (c : Dev nD) : (dat1 V c).arrAt 2 cfg1.N = issuerSums V c :=
  (dat1 V c).arrAt_eq_of_cover 2 (issuerSums V c) (issuer_flushed V c) fun i => by
    have i0 : (i 0).val < 2 := (i 0).isLt
    have i1 : (i 1).val < 5120 := (i 1).isLt
    have i2 : (i 2).val < 140 := (i 2).isLt
    obtain ⟨t, ht⟩ : ∃ t : Fin cfg1.N, t.val = 16 * (i 0).val + 15 :=
      ⟨⟨16 * (i 0).val + 15, by rw [show cfg1.N = 32 from N_1]; omega⟩, rfl⟩
    obtain ⟨-, -, -, -, e0, e1, e2, -⟩ := idx_facts1 t
    refine ⟨t, (flush1_2 t).mpr (by omega), ?_⟩
    show i ∈ ((View.whole main_v28_0).slice (win1_2.rect t)).set
    rw [View.set_slice_whole, Rect.mem_set_unit]
    intro a
    match a with
    | ⟨0, _⟩ => show win1_2.index t (0 : Fin 3) * 1 ≤ (i 0).val ∧ (i 0).val < win1_2.index t (0 : Fin 3) * 1 + 1; rw [e0]; omega
    | ⟨1, _⟩ => show win1_2.index t (1 : Fin 3) * 5120 ≤ (i 1).val ∧ (i 1).val < win1_2.index t (1 : Fin 3) * 5120 + 5120; rw [e1]; omega
    | ⟨2, _⟩ => show win1_2.index t (2 : Fin 3) * 140 ≤ (i 2).val ∧ (i 2).val < win1_2.index t (2 : Fin 3) * 140 + 140; rw [e2]; omega

end issuer

/-! ## The sector sums: 128 group slots -/

section sector

/-- The sector block after a half's first tile: the tile's step on the zero block. -/
theorem sector_first (c : Dev nD) (t : Fin cfg1.N) (h0 : t.val % 16 = 0) :
    (outsAt1 V c t.val t.isLt).2.2.1
      = k1_pay2 (k1_pay13 (rowsBlk V c t) (wordsBlk V c t)) (k1_pay6 (F := Ideal)) := by
  rw [outsAt1_A V c t h0]
  dsimp only
  exact piece_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t)

/-- The sector block after a later tile: the tile's step on what the tile before left. -/
theorem sector_next (c : Dev nD) (t : Fin cfg1.N) (h0 : ¬t.val % 16 = 0) :
    (outsAt1 V c t.val t.isLt).2.2.1 = k1_pay2 (k1_pay13 (rowsBlk V c t) (wordsBlk V c t))
      (outsAt1 V c (t.val - 1) (Nat.lt_of_le_of_lt (Nat.sub_le _ _) t.isLt)).2.2.1 := by
  rw [outsAt1_B V c t h0]
  dsimp only
  exact piece_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t)
    (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- The zero block reads zero. -/
theorem zero4_apply (g : Fin 128) (d : Fin 140) : k1_pay6 (F := Ideal) (ix3 (0 : Fin 1) g d) = 0 := by
  unfold k1_pay6
  show Ideal.ofBits .f32 0x00000000#32 = 0
  exact Ideal.ofBits_zero_f32

/-- Row `b`'s share of sector group `g`'s sum, column `d`. -/
abbrev sectorTerm (c : Dev nD) (g : ℕ) (d : Fin 140) (b : Fin 16384) : EReal :=
  hot (wordsArr V c (ix2 b (1 : Fin 2))) g * rowsArr V c (ix2 b d)

/-- One tile's step adds the tile's sum of shares. -/
theorem sector_tile (c : Dev nD) (t : Fin cfg1.N) (acc : Vec Ideal S1x128x140 .f32) (g : Fin 128) (d : Fin 140) :
    k1_pay2 (k1_pay13 (rowsBlk V c t) (wordsBlk V c t)) acc (ix3 (0 : Fin 1) g d)
      = acc (ix3 (0 : Fin 1) g d) + tileSum (sectorTerm V c g.val d) t.val := by
  have ht : t.val < 32 := (tileOf t).isLt
  refine (sectorStep_apply (rowsBlk V c t) (wordsBlk V c t) acc g d).trans ?_
  refine congrArg (acc (ix3 (0 : Fin 1) g d) + ·) ?_
  unfold tileSum
  rw [dif_pos ht]
  refine Finset.sum_congr rfl fun r _ => ?_
  rw [wordsBlk_apply, rowsBlk_apply]
  rfl

/-- After the first tile of a half the block holds that tile's sum. -/
theorem sector_inv_first (c : Dev nD) (g : Fin 128) (d : Fin 140) (n : ℕ) (h : n < cfg1.N) (h0 : n % 16 = 0) :
    (outsAt1 V c n h).2.2.1 (ix3 (0 : Fin 1) g d)
      = ∑ k ∈ Finset.range (n % 16 + 1), tileSum (sectorTerm V c g.val d) (n / 16 * 16 + k) := by
  have e0 : n % 16 + 1 = 1 := by omega
  have e : n / 16 * 16 + 0 = n := by omega
  rw [sector_first V c ⟨n, h⟩ h0, sector_tile, zero4_apply, zero_add, e0, Finset.sum_range_one, e]

/-- After tile `n` the block holds the sum over the tiles of `n`'s half up to `n`: by induction on the point. -/
theorem sector_inv (c : Dev nD) (g : Fin 128) (d : Fin 140) : ∀ (n : ℕ) (h : n < cfg1.N),
    (outsAt1 V c n h).2.2.1 (ix3 (0 : Fin 1) g d)
      = ∑ k ∈ Finset.range (n % 16 + 1), tileSum (sectorTerm V c g.val d) (n / 16 * 16 + k)
  | 0, h => sector_inv_first V c g d 0 h rfl
  | n + 1, h => by
    by_cases h0 : (n + 1) % 16 = 0
    · exact sector_inv_first V c g d (n + 1) h h0
    · have e1 : (n + 1) % 16 + 1 = (n % 16 + 1) + 1 := by omega
      have e2 : (n + 1) / 16 * 16 = n / 16 * 16 := by omega
      have e3 : n / 16 * 16 + (n % 16 + 1) = n + 1 := by omega
      rw [sector_next V c ⟨n + 1, h⟩ h0, sector_tile, e1, e2, Finset.sum_range_succ, e3]
      exact congrArg (· + tileSum (sectorTerm V c g.val d) (n + 1)) (sector_inv c g d n (Nat.lt_of_succ_lt h))

/-- What the sector array ends holding: at `(cc, g, d)` half `cc`'s sum of the shares of group `g`, column `d`. -/
def sectorSums (c : Dev nD) : (⟨3, ![2, 128, 140]⟩ : Shape).Idx → EReal := fun i =>
  halfSum (sectorTerm V c (i 1).val (i 2)) (i 0)

/-- After a half's last tile the block holds the half's sum. -/
theorem sector_block (c : Dev nD) (t : Fin cfg1.N) (h15 : t.val % 16 = 15) (y : S1x128x140.Idx) :
    (outsAt1 V c t.val t.isLt).2.2.1 y
      = sectorSums V c (ix3 (⟨t.val / 16, by have ht : t.val < 32 := (tileOf t).isLt; show t.val / 16 < 2; omega⟩ : Fin 2) (y 1) (y 2)) := by
  have ht : t.val < 32 := (tileOf t).isLt
  obtain ⟨z, g, d, rfl⟩ : ∃ (z : Fin 1) (g : Fin 128) (d : Fin 140), y = ix3 z g d := ⟨y 0, y 1, y 2, eq_ix3 y⟩
  obtain rfl : z = 0 := Subsingleton.elim _ _
  rw [sector_inv V c g d t.val t.isLt]
  show _ = halfSum (sectorTerm V c g.val d) ⟨t.val / 16, _⟩
  unfold halfSum
  have e15 : t.val % 16 + 1 = 16 := by omega
  rw [e15, Finset.sum_range]
  refine Finset.sum_congr rfl fun n _ => ?_
  have hn : t.val / 16 * 16 + n.val < 32 := by have := n.isLt; omega
  unfold tileSum
  rw [dif_pos hn]
  rfl

/-- What a half's last point writes back is its block of the half sums. -/
theorem sector_flushed (c : Dev nD) (t : Fin cfg1.N) (hf : (cfg1.win 4).flush t = true) :
    (dat1 V c).flushed 4 t = ((cfg1.win 4).blk t).view.read (Elt Ideal) (sectorSums V c) := by
  have h15 : t.val % 16 = 15 := (flush1_4 t).mp hf
  obtain ⟨-, -, -, -, -, -, -, e0, e1, e2⟩ := idx_facts1 t
  show (cfg1.win 4).cut (grid1.coords t) ((dat1 V c).after 4 t) = _
  rw [after1_4]
  funext y
  rw [View.read_apply]
  have y0 : (y 0).val < 1 := (y 0).isLt
  refine (sector_block V c t h15 y).trans ?_
  show sectorSums V c _ = sectorSums V c (((cfg1.win 4).blk t).view.emb y)
  refine congrArg (sectorSums V c) (funext fun a => Fin.ext ?_)
  match a with
  | ⟨0, _⟩ => show t.val / 16 = win1_4.index t (0 : Fin 3) * 1 + 1 * (y 0).val; rw [e0]; omega
  | ⟨1, _⟩ => show (y 1).val = win1_4.index t (1 : Fin 3) * 128 + 1 * (y 1).val; rw [e1]; omega
  | ⟨2, _⟩ => show (y 2).val = win1_4.index t (2 : Fin 3) * 140 + 1 * (y 2).val; rw [e2]; omega

/-- The two halves' last points cover the array, so it ends holding the half sums. -/
theorem sector_final (c : Dev nD) : (dat1 V c).arrAt 4 cfg1.N = sectorSums V c :=
  (dat1 V c).arrAt_eq_of_cover 4 (sectorSums V c) (sector_flushed V c) fun i => by
    have i0 : (i 0).val < 2 := (i 0).isLt
    have i1 : (i 1).val < 128 := (i 1).isLt
    have i2 : (i 2).val < 140 := (i 2).isLt
    obtain ⟨t, ht⟩ : ∃ t : Fin cfg1.N, t.val = 16 * (i 0).val + 15 :=
      ⟨⟨16 * (i 0).val + 15, by rw [show cfg1.N = 32 from N_1]; omega⟩, rfl⟩
    obtain ⟨-, -, -, -, -, -, -, e0, e1, e2⟩ := idx_facts1 t
    refine ⟨t, (flush1_4 t).mpr (by omega), ?_⟩
    show i ∈ ((View.whole main_v28_2).slice (win1_4.rect t)).set
    rw [View.set_slice_whole, Rect.mem_set_unit]
    intro a
    match a with
    | ⟨0, _⟩ => show win1_4.index t (0 : Fin 3) * 1 ≤ (i 0).val ∧ (i 0).val < win1_4.index t (0 : Fin 3) * 1 + 1; rw [e0]; omega
    | ⟨1, _⟩ => show win1_4.index t (1 : Fin 3) * 128 ≤ (i 1).val ∧ (i 1).val < win1_4.index t (1 : Fin 3) * 128 + 128; rw [e1]; omega
    | ⟨2, _⟩ => show win1_4.index t (2 : Fin 3) * 140 ≤ (i 2).val ∧ (i 2).val < win1_4.index t (2 : Fin 3) * 140 + 140; rw [e2]; omega

end sector

end Region1Sums

open Region1Sums

/-- Half `cc`'s sum of the rows whose issuer word is `g`, column `d`. -/
theorem region1_issuer_sum (c : Dev nD) (cc : Fin 2) (g : Fin 5120) (d : Fin 140) :
    ((dat1 V c).arrAt 2 cfg1.N : (⟨3, ![2, 5120, 140]⟩ : Shape).Idx → EReal) (ix3 cc g d)
      = halfSum (fun b => hot ((V c main_v26 : WMat 16384 2) (ix2 b (0 : Fin 2))) g.val
          * (V c main_v27 : Mat 16384 140) (ix2 b d)) cc := by
  rw [issuer_final V c]
  rfl

/-- Half `cc`'s sum of the rows whose sector word is `g`, column `d`. -/
theorem region1_sector_sum (c : Dev nD) (cc : Fin 2) (g : Fin 128) (d : Fin 140) :
    ((dat1 V c).arrAt 4 cfg1.N : (⟨3, ![2, 128, 140]⟩ : Shape).Idx → EReal) (ix3 cc g d)
      = halfSum (fun b => hot ((V c main_v26 : WMat 16384 2) (ix2 b (1 : Fin 2))) g.val
          * (V c main_v27 : Mat 16384 140) (ix2 b d)) cc := by
  rw [sector_final V c]
  rfl

end Cert.KernelIdeal.Val

end
-- ==== Proof.Region1Counts.lean ====
/-
  The second kernel region also counts, for each half of the batch and each group, the members: at each tile it adds
  the product of a row of ones with the tile's indicator matrix, the first tile of a half starting from zero.
  This module: the issuer counts (5120 group slots) and the sector counts (128 group slots).

  The argument. The row of ones times the indicator matrix, read at group `g`, is the number of the tile's rows whose
  word is `g`. A quantity that restarts at the first tile of each half and otherwise adds the tile's count is, after
  tile `n`, the sum of the counts of the tiles of `n`'s half up to `n`; after the half's last tile that is the half's
  count, which is what that tile writes back, and the two halves' blocks cover the count array.
-/
import proofs.«412861_j3332894622337_3_alg».proof.Proof.Gen.KernelIdeal.Frame
import proofs.«412861_j3332894622337_3_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
namespace Cert.KernelIdeal.Val

open Cert.KernelIdeal Cert.KernelIdeal.Gen Cert.Spec

/-! ## Words and scalars -/

/-- The sixteen-bit word of one denotes the extended real one. -/
theorem one_bf16 : Ideal.ofBits .bf16 0x3F80#16 = 1 := IdealRules.sign_bit.ideal_onePat .bf16

/-- An equality test of two words, widened and read as a signed integer, is the indicator of their equality. -/
theorem ind_eq (w v : BitVec 32) :
    (FloatOps.sitofp (F := Ideal) .f32 ((IntOp.cmpi .eq w v).setWidth 32) : EReal) = if w = v then 1 else 0 := by
  show (((((IntOp.cmpi .eq w v).setWidth 32).toInt : ℤ) : ℝ) : EReal) = _
  by_cases h : w = v
  · have e : IntOp.cmpi .eq w v = 1#1 := by unfold IntOp.cmpi; simp [h]
    have e1 : ((1#1 : BitVec 1).setWidth 32).toInt = 1 := by decide
    rw [if_pos h, e, e1]; simp
  · have hb : (w == v) = false := beq_eq_false_iff_ne.mpr h
    have e : IntOp.cmpi .eq w v = 0#1 := by unfold IntOp.cmpi; simp [hb]
    have e1 : ((0#1 : BitVec 1).setWidth 32).toInt = 0 := by decide
    rw [if_neg h, e, e1]; simp

/-! ## The count stores read at a group -/

theorem rhsI_0 (j : S1x5120.Idx) (q : dot_S1x512_S512x5120_S1x5120_1_0_0_1_n_n.contr.Idx) :
    (dot_S1x512_S512x5120_S1x5120_1_0_0_1_n_n.rhsIdx j q 0).val = (q ⟨0, by decide⟩).val :=
  dot_S1x512_S512x5120_S1x5120_1_0_0_1_n_n.rhsIdx_val_of_single rfl j q
theorem rhsI_1 (j : S1x5120.Idx) (q : dot_S1x512_S512x5120_S1x5120_1_0_0_1_n_n.contr.Idx) :
    (dot_S1x512_S512x5120_S1x5120_1_0_0_1_n_n.rhsIdx j q 1).val = (j 1).val := by
  unfold DotDims.rhsIdx
  rw [dif_neg (show ¬(1 : Fin S512x5120.rank) ∈ dot_S1x512_S512x5120_S1x5120_1_0_0_1_n_n.rhsBatch by decide), dif_pos (show (1 : Fin S512x5120.rank) ∈ dot_S1x512_S512x5120_S1x5120_1_0_0_1_n_n.rhsNonContracting by decide)]
  rfl

/-- The row of ones times a matrix, into zero: the column sums. -/
theorem onesI_apply (M : FVec Ideal S512x5120 .bf16) (g : Fin 5120) :
    matmul dot_S1x512_S512x5120_S1x5120_1_0_0_1_n_n none (k1_pay10 (F := Ideal)) M (constant S1x5120 .f32 0x00000000#32)
        (ix2 (0 : Fin 1) g) = ∑ r : Fin 512, M (ix2 r g) := by
  simp only [matmul]
  rw [Ideal.matmul_constant_zero_apply, ← Equiv.sum_comp (contrEquiv1 dot_S1x512_S512x5120_S1x5120_1_0_0_1_n_n 512 rfl rfl).symm]
  refine Finset.sum_congr rfl fun k _ => ?_
  have hk := contrEquiv1_symm_val dot_S1x512_S512x5120_S1x5120_1_0_0_1_n_n 512 rfl rfl k
  have er : dot_S1x512_S512x5120_S1x5120_1_0_0_1_n_n.rhsIdx (ix2 (0 : Fin 1) g) ((contrEquiv1 dot_S1x512_S512x5120_S1x5120_1_0_0_1_n_n 512 rfl rfl).symm k) = ix2 k g := funext fun a => Fin.ext (by
    match a with
    | ⟨0, _⟩ => exact (rhsI_0 _ _).trans hk
    | ⟨1, _⟩ => exact rhsI_1 _ _)
  rw [er]
  show Ideal.ofBits .bf16 0x3F80#16 * _ = _
  rw [one_bf16, one_mul]

/-- The issuer indicator matrix at row `r`, column `g`: one where the row's issuer word is `g`. -/
theorem indI_apply (x1 : Vec Ideal S512x2 .i32) (r : Fin 512) (g : Fin 5120) :
    (k1_pay11 x1 : S512x5120.Idx → EReal) (ix2 r g) = hot (x1 (ix2 r (0 : Fin 2))) g.val := by
  unfold k1_pay11 k1_pay8
  show FloatOps.sitofp (F := Ideal) .f32 ((IntOp.cmpi .eq
      (broadcastTo S512x5120 (extractStridedSlice S512x1 ![0, 0] (shapeCast S512x2 x1 shapeCasts_S512x2_S512x2) slices_S512x2_o0_0_S512x1) broadcasts_S512x1_S512x5120 (ix2 r g))
      (iota .tc S512x5120 32 [1] iota_S512x5120_d1_w32 (ix2 r g))).setWidth 32) = _
  rw [iota_single_apply,
    broadcastTo_apply _ broadcasts_S512x1_S512x5120 (ix2 r g) (ix2 r (0 : Fin 1)) (fun a => match a with
      | ⟨0, _⟩ => by show r.val = if (512 : ℕ) = 1 then 0 else r.val; rw [if_neg (by decide)]
      | ⟨1, _⟩ => by show (0 : ℕ) = if (1 : ℕ) = 1 then 0 else g.val; rw [if_pos rfl]),
    extractStridedSlice_apply ![0, 0] _ slices_S512x2_o0_0_S512x1 (ix2 r (0 : Fin 1)) (ix2 r (0 : Fin 2)) (fun a => match a with
      | ⟨0, _⟩ => by show r.val = 0 + r.val; omega
      | ⟨1, _⟩ => rfl),
    shapeCast_self, ind_eq]
  rfl

/-- The issuer-count store at group `g`: what was there plus the tile's number of rows whose issuer word is `g`. -/
theorem pay3_apply (x1 : Vec Ideal S512x2 .i32) (acc : Vec Ideal S1x1x5120 .f32) (g : Fin 5120) :
    (k1_pay1 (k1_pay16 x1 acc) : S1x1x5120.Idx → EReal) (ix3 (0 : Fin 1) (0 : Fin 1) g)
      = (acc : S1x1x5120.Idx → EReal) (ix3 (0 : Fin 1) (0 : Fin 1) g) + ∑ r : Fin 512, hot (x1 (ix2 r (0 : Fin 2))) g.val := by
  unfold k1_pay1
  refine (shapeCast_apply _ shapeCasts_S1x5120_S1x1x5120 (ix3 (0 : Fin 1) (0 : Fin 1) g) (ix2 (0 : Fin 1) g) (by
    rw [Shape.rowMajor_val_two, Shape.rowMajor_val_three]; rfl)).trans ?_
  unfold k1_pay16
  refine (addf_apply _ _ (ix2 (0 : Fin 1) g)).trans ?_
  refine congrArg₂ (· + ·) ?_ ?_
  · exact shapeCast_apply _ shapeCasts_S1x1x5120_S1x5120 (ix2 (0 : Fin 1) g) (ix3 (0 : Fin 1) (0 : Fin 1) g) (by
      rw [Shape.rowMajor_val_two, Shape.rowMajor_val_three]; rfl)
  · exact (onesI_apply _ g).trans (Finset.sum_congr rfl fun r _ => indI_apply x1 r g)

theorem rhsS_0 (j : S1x128.Idx) (q : dot_S1x512_S512x128_S1x128_1_0_0_1_n_n.contr.Idx) :
    (dot_S1x512_S512x128_S1x128_1_0_0_1_n_n.rhsIdx j q 0).val = (q ⟨0, by decide⟩).val :=
  dot_S1x512_S512x128_S1x128_1_0_0_1_n_n.rhsIdx_val_of_single rfl j q
theorem rhsS_1 (j : S1x128.Idx) (q : dot_S1x512_S512x128_S1x128_1_0_0_1_n_n.contr.Idx) :
    (dot_S1x512_S512x128_S1x128_1_0_0_1_n_n.rhsIdx j q 1).val = (j 1).val := by
  unfold DotDims.rhsIdx
  rw [dif_neg (show ¬(1 : Fin S512x128.rank) ∈ dot_S1x512_S512x128_S1x128_1_0_0_1_n_n.rhsBatch by decide), dif_pos (show (1 : Fin S512x128.rank) ∈ dot_S1x512_S512x128_S1x128_1_0_0_1_n_n.rhsNonContracting by decide)]
  rfl

/-- The row of ones times a matrix of 128 columns, into zero: the column sums. -/
theorem onesS_apply (M : FVec Ideal S512x128 .bf16) (g : Fin 128) :
    matmul dot_S1x512_S512x128_S1x128_1_0_0_1_n_n none (k1_pay10 (F := Ideal)) M (constant S1x128 .f32 0x00000000#32)
        (ix2 (0 : Fin 1) g) = ∑ r : Fin 512, M (ix2 r g) := by
  simp only [matmul]
  rw [Ideal.matmul_constant_zero_apply, ← Equiv.sum_comp (contrEquiv1 dot_S1x512_S512x128_S1x128_1_0_0_1_n_n 512 rfl rfl).symm]
  refine Finset.sum_congr rfl fun k _ => ?_
  have hk := contrEquiv1_symm_val dot_S1x512_S512x128_S1x128_1_0_0_1_n_n 512 rfl rfl k
  have er : dot_S1x512_S512x128_S1x128_1_0_0_1_n_n.rhsIdx (ix2 (0 : Fin 1) g) ((contrEquiv1 dot_S1x512_S512x128_S1x128_1_0_0_1_n_n 512 rfl rfl).symm k) = ix2 k g := funext fun a => Fin.ext (by
    match a with
    | ⟨0, _⟩ => exact (rhsS_0 _ _).trans hk
    | ⟨1, _⟩ => exact rhsS_1 _ _)
  rw [er]
  show Ideal.ofBits .bf16 0x3F80#16 * _ = _
  rw [one_bf16, one_mul]

/-- The sector indicator matrix at row `r`, column `g`: one where the row's sector word is `g`. -/
theorem indS_apply (x1 : Vec Ideal S512x2 .i32) (r : Fin 512) (g : Fin 128) :
    (k1_pay12 x1 : S512x128.Idx → EReal) (ix2 r g) = hot (x1 (ix2 r (1 : Fin 2))) g.val := by
  unfold k1_pay12 k1_pay8
  show FloatOps.sitofp (F := Ideal) .f32 ((IntOp.cmpi .eq
      (broadcastTo S512x128 (extractStridedSlice S512x1 ![0, 1] (shapeCast S512x2 x1 shapeCasts_S512x2_S512x2) slices_S512x2_o0_1_S512x1) broadcasts_S512x1_S512x128 (ix2 r g))
      (iota .tc S512x128 32 [1] iota_S512x128_d1_w32 (ix2 r g))).setWidth 32) = _
  rw [iota_single_apply,
    broadcastTo_apply _ broadcasts_S512x1_S512x128 (ix2 r g) (ix2 r (0 : Fin 1)) (fun a => match a with
      | ⟨0, _⟩ => by show r.val = if (512 : ℕ) = 1 then 0 else r.val; rw [if_neg (by decide)]
      | ⟨1, _⟩ => by show (0 : ℕ) = if (1 : ℕ) = 1 then 0 else g.val; rw [if_pos rfl]),
    extractStridedSlice_apply ![0, 1] _ slices_S512x2_o0_1_S512x1 (ix2 r (0 : Fin 1)) (ix2 r (1 : Fin 2)) (fun a => match a with
      | ⟨0, _⟩ => by show r.val = 0 + r.val; omega
      | ⟨1, _⟩ => rfl),
    shapeCast_self, ind_eq]
  rfl

/-- The sector-count store at group `g`: what was there plus the tile's number of rows whose sector word is `g`. -/
theorem pay5_apply (x1 : Vec Ideal S512x2 .i32) (acc : Vec Ideal S1x1x128 .f32) (g : Fin 128) :
    (k1_pay3 (k1_pay14 x1) acc : S1x1x128.Idx → EReal) (ix3 (0 : Fin 1) (0 : Fin 1) g)
      = (acc : S1x1x128.Idx → EReal) (ix3 (0 : Fin 1) (0 : Fin 1) g) + ∑ r : Fin 512, hot (x1 (ix2 r (1 : Fin 2))) g.val := by
  unfold k1_pay3
  refine (shapeCast_apply _ shapeCasts_S1x128_S1x1x128 (ix3 (0 : Fin 1) (0 : Fin 1) g) (ix2 (0 : Fin 1) g) (by
    rw [Shape.rowMajor_val_two, Shape.rowMajor_val_three]; rfl)).trans ?_
  refine (addf_apply _ _ (ix2 (0 : Fin 1) g)).trans ?_
  refine congrArg₂ (· + ·) ?_ ?_
  · exact shapeCast_apply _ shapeCasts_S1x1x128_S1x128 (ix2 (0 : Fin 1) g) (ix3 (0 : Fin 1) (0 : Fin 1) g) (by
      rw [Shape.rowMajor_val_two, Shape.rowMajor_val_three]; rfl)
  · unfold k1_pay14
    exact (onesS_apply _ g).trans (Finset.sum_congr rfl fun r _ => indS_apply x1 r g)

/-! ## Counts by tile and by half -/

/-- Tile `T`'s number of rows whose word in column `col` is `g` (zero past the last tile). -/
def tileCnt (W : WMat 16384 2) (col : Fin 2) (g : ℕ) (T : ℕ) : EReal :=
  if h : T < 32 then ∑ r : Fin 512, hot (W (ix2 (tileRow ⟨T, h⟩ r) col)) g else 0

/-- Half `cc`'s number of rows whose word in column `col` is `g` (zero past the second half). -/
def halfCnt (W : WMat 16384 2) (col : Fin 2) (cc g : ℕ) : EReal :=
  if h : cc < 2 then halfSum (fun b => hot (W (ix2 b col)) g) ⟨cc, h⟩ else 0

/-- A half's count is the sum of its sixteen tiles' counts. -/
theorem halfCnt_eq (W : WMat 16384 2) (col : Fin 2) (cc : ℕ) (hcc : cc < 2) (g : ℕ) :
    halfCnt W col cc g = ∑ k ∈ Finset.range 16, tileCnt W col g (cc * 16 + k) := by
  unfold halfCnt
  rw [dif_pos hcc, Finset.sum_range]
  unfold halfSum
  refine Finset.sum_congr rfl fun n _ => ?_
  unfold tileCnt
  rw [dif_pos (by have := n.isLt; omega)]
  rfl

/-- A quantity that restarts at each half's first tile at that tile's count and otherwise adds the tile's count to
    what it was is, after tile `n`, the sum of the counts of the tiles of `n`'s half up to `n`. -/
theorem restart_sum (N : ℕ) (a : (n : ℕ) → n < N → EReal) (cnt : ℕ → EReal)
    (hA : ∀ (n : ℕ) (h : n < N), n % 16 = 0 → a n h = cnt n)
    (hB : ∀ (n : ℕ) (h : n < N), ¬n % 16 = 0 → a n h = a (n - 1) (Nat.lt_of_le_of_lt (Nat.sub_le _ _) h) + cnt n) :
    ∀ (n : ℕ) (h : n < N), a n h = ∑ k ∈ Finset.range (n % 16 + 1), cnt (n / 16 * 16 + k)
  | 0, h => by
    rw [hA 0 h rfl]
    simp
  | n + 1, h => by
    by_cases h0 : (n + 1) % 16 = 0
    · rw [hA (n + 1) h h0, h0, Finset.sum_range_one]
      congr 1
      omega
    · have e1 : (n + 1) % 16 = n % 16 + 1 := by omega
      have e2 : (n + 1) / 16 = n / 16 := by omega
      have e3 : n / 16 * 16 + (n % 16 + 1) = n + 1 := by omega
      rw [hB (n + 1) h h0, e1, e2, Finset.sum_range_succ _ (n % 16 + 1), e3]
      show a n _ + cnt (n + 1) = _
      rw [restart_sum N a cnt hA hB n (Nat.lt_of_succ_lt h)]

/-- Two blocks of shape `[1, 1, n]` agree when they agree along the last axis. -/
theorem ext_1x1 {n : ℕ} (X Y : (⟨3, ![1, 1, n]⟩ : Shape).Idx → EReal)
    (h : ∀ g : Fin n, X (ix3 (0 : Fin 1) (0 : Fin 1) g) = Y (ix3 (0 : Fin 1) (0 : Fin 1) g)) : X = Y := by
  funext j
  have e : j = ix3 (0 : Fin 1) (0 : Fin 1) (j 2) := by
    funext a
    match a with
    | ⟨0, _⟩ => exact Fin.ext (by have h0 : (j 0).val < 1 := (j 0).isLt; show (j 0).val = 0; omega)
    | ⟨1, _⟩ => exact Fin.ext (by have h1 : (j 1).val < 1 := (j 1).isLt; show (j 1).val = 0; omega)
    | ⟨2, _⟩ => rfl
  calc X j = X (ix3 (0 : Fin 1) (0 : Fin 1) (j 2)) := congrArg X e
    _ = Y (ix3 (0 : Fin 1) (0 : Fin 1) (j 2)) := h (j 2)
    _ = Y j := (congrArg Y e).symm

/-! ## What each case leaves in the count buffers -/

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-- Past the first tile of a half the issuer-count buffer is left at the count store's payload over what it held. -/
theorem piece_B_3 (c : Dev nD) (i : grid1.Coords) (a2 : Memref sig .tc .vmem S512x140 .f32) (h2 : a2.IsWhole)
    (a3 : Memref sig .tc .vmem S512x2 .i32) (h3 : a3.IsWhole) (a4 : Memref sig .tc .vmem S1x5120x140 .f32) (h4 : a4.IsWhole)
    (a5 : Memref sig .tc .vmem S1x1x5120 .f32) (h5 : a5.IsWhole) (a6 : Memref sig .tc .vmem S1x128x140 .f32) (h6 : a6.IsWhole)
    (a7 : Memref sig .tc .vmem S1x1x128 .f32) (h7 : a7.IsWhole) (hc : ¬cond1_0 i)
    (x0 : Vec F S512x140 .f32) (x1 : Vec F S512x2 .i32) (o2 : Vec F S1x5120x140 .f32) (o3 : Vec F S1x1x5120 .f32)
    (o4 : Vec F S1x128x140 .f32) (o5 : Vec F S1x1x128 .f32) :
    out1_B_3 c i a2 h2 a3 h3 a4 h4 a5 h5 a6 h6 a7 h7 hc x0 x1 o2 o3 o4 o5 = k1_pay1 (k1_pay16 x1 o3) := by
  unfold out1_B_3
  rw [View.read_writes_eq_canon _ _ _ (cover1_B_3 c i a2 h2 a3 h3 a4 h4 a5 h5 a6 h6 a7 h7 hc x0 x1 o2 o3 o4 o5)]
  unfold kernelRun1_B
  dsimp only
  sl_unfold_words
  rw [View.canon_unit_zero hz3]
  simp only [View.readAt_eq_ld, h3.read_unread, h5.read_unread, View.ld_unit_zero (S := S512x2) hz2,
    View.ld_unit_zero (S := S1x1x5120) hz3]

/-- At the first tile of a half it is left at the count store's payload over the zero block stored just before. -/
theorem piece_A_3 (c : Dev nD) (i : grid1.Coords) (a2 : Memref sig .tc .vmem S512x140 .f32) (h2 : a2.IsWhole)
    (a3 : Memref sig .tc .vmem S512x2 .i32) (h3 : a3.IsWhole) (a4 : Memref sig .tc .vmem S1x5120x140 .f32) (h4 : a4.IsWhole)
    (a5 : Memref sig .tc .vmem S1x1x5120 .f32) (h5 : a5.IsWhole) (a6 : Memref sig .tc .vmem S1x128x140 .f32) (h6 : a6.IsWhole)
    (a7 : Memref sig .tc .vmem S1x1x128 .f32) (h7 : a7.IsWhole) (hc : cond1_0 i)
    (x0 : Vec F S512x140 .f32) (x1 : Vec F S512x2 .i32) :
    out1_A_3 c i a2 h2 a3 h3 a4 h4 a5 h5 a6 h6 a7 h7 hc x0 x1 = k1_pay1 (k1_pay16 x1 (k1_pay5 (F := F))) := by
  unfold out1_A_3
  rw [View.read_writes_eq_canon _ _ _ (cover1_A_3 c i a2 h2 a3 h3 a4 h4 a5 h5 a6 h6 a7 h7 hc x0 x1)]
  unfold kernelRun1_A
  dsimp only
  sl_unfold_words
  rw [View.canon_cons_unit_zero (S := S1x1x5120) hz3]
  simp only [View.readAt_eq_ld, h3.read_unread, View.ld_unit_zero (S := S512x2) hz2,
    View.readCov_unit_zero (S := S1x1x5120) _ hz3]

/-- Past the first tile of a half the sector-count buffer is left at the count store's payload over what it held. -/
theorem piece_B_5 (c : Dev nD) (i : grid1.Coords) (a2 : Memref sig .tc .vmem S512x140 .f32) (h2 : a2.IsWhole)
    (a3 : Memref sig .tc .vmem S512x2 .i32) (h3 : a3.IsWhole) (a4 : Memref sig .tc .vmem S1x5120x140 .f32) (h4 : a4.IsWhole)
    (a5 : Memref sig .tc .vmem S1x1x5120 .f32) (h5 : a5.IsWhole) (a6 : Memref sig .tc .vmem S1x128x140 .f32) (h6 : a6.IsWhole)
    (a7 : Memref sig .tc .vmem S1x1x128 .f32) (h7 : a7.IsWhole) (hc : ¬cond1_0 i)
    (x0 : Vec F S512x140 .f32) (x1 : Vec F S512x2 .i32) (o2 : Vec F S1x5120x140 .f32) (o3 : Vec F S1x1x5120 .f32)
    (o4 : Vec F S1x128x140 .f32) (o5 : Vec F S1x1x128 .f32) :
    out1_B_5 c i a2 h2 a3 h3 a4 h4 a5 h5 a6 h6 a7 h7 hc x0 x1 o2 o3 o4 o5 = k1_pay3 (k1_pay14 x1) o5 := by
  unfold out1_B_5
  rw [View.read_writes_eq_canon _ _ _ (cover1_B_5 c i a2 h2 a3 h3 a4 h4 a5 h5 a6 h6 a7 h7 hc x0 x1 o2 o3 o4 o5)]
  unfold kernelRun1_B
  dsimp only
  sl_unfold_words
  rw [View.canon_unit_zero hz3]
  simp only [View.readAt_eq_ld, h3.read_unread, h7.read_unread, View.ld_unit_zero (S := S512x2) hz2,
    View.ld_unit_zero (S := S1x1x128) hz3]

/-- At the first tile of a half it is left at the count store's payload over the zero block stored just before. -/
theorem piece_A_5 (c : Dev nD) (i : grid1.Coords) (a2 : Memref sig .tc .vmem S512x140 .f32) (h2 : a2.IsWhole)
    (a3 : Memref sig .tc .vmem S512x2 .i32) (h3 : a3.IsWhole) (a4 : Memref sig .tc .vmem S1x5120x140 .f32) (h4 : a4.IsWhole)
    (a5 : Memref sig .tc .vmem S1x1x5120 .f32) (h5 : a5.IsWhole) (a6 : Memref sig .tc .vmem S1x128x140 .f32) (h6 : a6.IsWhole)
    (a7 : Memref sig .tc .vmem S1x1x128 .f32) (h7 : a7.IsWhole) (hc : cond1_0 i)
    (x0 : Vec F S512x140 .f32) (x1 : Vec F S512x2 .i32) :
    out1_A_5 c i a2 h2 a3 h3 a4 h4 a5 h5 a6 h6 a7 h7 hc x0 x1 = k1_pay3 (k1_pay14 x1) (k1_pay7 (F := F)) := by
  unfold out1_A_5
  rw [View.read_writes_eq_canon _ _ _ (cover1_A_5 c i a2 h2 a3 h3 a4 h4 a5 h5 a6 h6 a7 h7 hc x0 x1)]
  unfold kernelRun1_A
  dsimp only
  sl_unfold_words
  rw [View.canon_cons_unit_zero (S := S1x1x128) hz3]
  simp only [View.readAt_eq_ld, h3.read_unread, View.ld_unit_zero (S := S512x2) hz2,
    View.readCov_unit_zero (S := S1x1x128) _ hz3]

end Pieces

variable (V : (c : Dev nD) → (b : Ref sig .tc) → Buf (Elt Ideal) ((c : Thread nD τ).loc b))

/-! ## The word window's blocks -/

/-- The samples' two group words as the second region finds them, and a tile's block of them. -/
abbrev words (c : Dev nD) : WMat 16384 2 := V c main_v26
abbrev wblk (c : Dev nD) (t : Fin cfg1.N) : Vec Ideal S512x2 .i32 := iblk1 V c 1 t

/-- The word window's block index at point `t` is `(t, 0)`. -/
theorem idx_words : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- Row `r` of tile `t`'s block of words is row `tileRow t r` of the word matrix. -/
theorem wblk_apply (c : Dev nD) (t : Fin cfg1.N) (ht : t.val < 32) (r : Fin 512) (col : Fin 2) :
    wblk V c t (ix2 r col) = words V c (ix2 (tileRow ⟨t.val, ht⟩ r) col) := by
  obtain ⟨e0, e1⟩ := idx_words t
  show V c main_v26 (((cfg1.win 1).blk t).view.emb (ix2 r col)) = V c main_v26 (ix2 (tileRow ⟨t.val, ht⟩ r) col)
  congr 1
  funext a
  apply Fin.ext
  match a with
  | ⟨0, _⟩ => show win1_1.index t (0 : Fin 2) * 512 + 1 * r.val = t.val * 512 + r.val; rw [e0]; omega
  | ⟨1, _⟩ => show win1_1.index t (1 : Fin 2) * 2 + 1 * col.val = col.val; rw [e1]; omega

/-- The count over a tile's block of words is the tile's count over the word matrix. -/
theorem tileCnt_blk (c : Dev nD) (t : Fin cfg1.N) (col : Fin 2) (g : ℕ) :
    ∑ r : Fin 512, hot (wblk V c t (ix2 r col)) g = tileCnt (words V c) col g t.val := by
  have ht : t.val < 32 := lt_of_lt_of_eq t.isLt N_1
  unfold tileCnt
  rw [dif_pos ht]
  exact Finset.sum_congr rfl fun r _ => by rw [wblk_apply V c t ht r col]

/-! ## The issuer counts -/

/-- The zero block of the issuer counts reads zero. -/
theorem zero3_apply (j : S1x1x5120.Idx) : (k1_pay5 (F := Ideal) : S1x1x5120.Idx → EReal) j = 0 := by
  unfold k1_pay5
  show Ideal.ofBits .f32 0x00000000#32 = 0
  exact Ideal.ofBits_zero_f32

/-- At the first tile of a half the issuer counts are that tile's. -/
theorem step_A_3 (c : Dev nD) (t : Fin cfg1.N) (h0 : t.val % 16 = 0) (g : Fin 5120) :
    ((outsAt1 V c t.val t.isLt).2.1 : S1x1x5120.Idx → EReal) (ix3 (0 : Fin 1) (0 : Fin 1) g)
      = tileCnt (words V c) 0 g.val t.val := by
  rw [outsAt1_A V c t h0]
  dsimp only
  refine (congrFun (piece_A_3 (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) ((hcond1_0 t).mpr h0) (iblk1 V c 0 t) (iblk1 V c 1 t))
    (ix3 (0 : Fin 1) (0 : Fin 1) g)).trans ?_
  refine (pay3_apply (wblk V c t) (k1_pay5 (F := Ideal)) g).trans ?_
  rw [zero3_apply, zero_add]
  exact tileCnt_blk V c t 0 g.val

/-- Past it they are the counts so far plus that tile's. -/
theorem step_B_3 (c : Dev nD) (t : Fin cfg1.N) (h0 : ¬t.val % 16 = 0) (g : Fin 5120) :
    ((outsAt1 V c t.val t.isLt).2.1 : S1x1x5120.Idx → EReal) (ix3 (0 : Fin 1) (0 : Fin 1) g)
      = ((outsAt1 V c (t.val - 1) (Nat.lt_of_le_of_lt (Nat.sub_le _ _) t.isLt)).2.1 : S1x1x5120.Idx → EReal) (ix3 (0 : Fin 1) (0 : Fin 1) g)
        + tileCnt (words V c) 0 g.val t.val := by
  rw [outsAt1_B V c t h0]
  dsimp only
  refine (congrFun (piece_B_3 (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) (fun h => h0 ((hcond1_0 t).mp h)) (iblk1 V c 0 t) (iblk1 V c 1 t)
    (outsAt1 V c (t.val - 1) (Nat.lt_of_le_of_lt (Nat.sub_le _ _) t.isLt)).1
    (outsAt1 V c (t.val - 1) (Nat.lt_of_le_of_lt (Nat.sub_le _ _) t.isLt)).2.1
    (outsAt1 V c (t.val - 1) (Nat.lt_of_le_of_lt (Nat.sub_le _ _) t.isLt)).2.2.1
    (outsAt1 V c (t.val - 1) (Nat.lt_of_le_of_lt (Nat.sub_le _ _) t.isLt)).2.2.2)
    (ix3 (0 : Fin 1) (0 : Fin 1) g)).trans ?_
  refine (pay3_apply (wblk V c t) (outsAt1 V c (t.val - 1) (Nat.lt_of_le_of_lt (Nat.sub_le _ _) t.isLt)).2.1 g).trans ?_
  rw [tileCnt_blk V c t 0 g.val]

/-- After point `n` the issuer-count buffer holds, at group `g`, the counts of the tiles of `n`'s half up to `n`. -/
theorem inv3 (c : Dev nD) (g : Fin 5120) (n : ℕ) (h : n < cfg1.N) :
    ((outsAt1 V c n h).2.1 : S1x1x5120.Idx → EReal) (ix3 (0 : Fin 1) (0 : Fin 1) g)
      = ∑ k ∈ Finset.range (n % 16 + 1), tileCnt (words V c) 0 g.val (n / 16 * 16 + k) :=
  restart_sum cfg1.N
    (fun n h => ((outsAt1 V c n h).2.1 : S1x1x5120.Idx → EReal) (ix3 (0 : Fin 1) (0 : Fin 1) g))
    (tileCnt (words V c) 0 g.val)
    (fun n h h0 => step_A_3 V c ⟨n, h⟩ h0 g) (fun n h h0 => step_B_3 V c ⟨n, h⟩ h0 g) n h

/-- The issuer counts of both halves as one array: entry `(cc, 0, g)` is half `cc`'s count of group `g`. -/
def cntArr3 (c : Dev nD) : Buf (Elt Ideal) ((c : Thread nD τ).loc main_v28_1) :=
  (fun i => halfCnt (words V c) 0 (i 0).val (i 2).val : (⟨3, ![2, 1, 5120]⟩ : Shape).Idx → EReal)

/-- The issuer-count window's block index at point `t` is `(t / 16, 0, 0)`. -/
theorem idx_cnt3 : ∀ t : Fin cfg1.N, win1_3.index t (0 : Fin 3) = t.val / 16 ∧ win1_3.index t (1 : Fin 3) = 0 ∧ win1_3.index t (2 : Fin 3) = 0 :=
  (by decide +kernel : ∀ t : Fin grid1.N, win1_3.index t (0 : Fin 3) = t.val / 16 ∧ win1_3.index t (1 : Fin 3) = 0 ∧ win1_3.index t (2 : Fin 3) = 0)

/-- What a half's last tile writes back is that half's block of the issuer-count array. -/
theorem flushed3_eq (c : Dev nD) (t : Fin cfg1.N) (hf : (cfg1.win 3).flush t = true) :
    (dat1 V c).flushed 3 t = ((cfg1.win 3).blk t).view.read (Elt Ideal) (cntArr3 V c) := by
  have h15 : t.val % 16 = 15 := (flush1_3 t).mp hf
  have ht : t.val < 32 := lt_of_lt_of_eq t.isLt N_1
  obtain ⟨e0, e1, e2⟩ := idx_cnt3 t
  show (cfg1.win 3).cut (grid1.coords t) ((dat1 V c).after 3 t) = _
  rw [after1_3]
  refine ext_1x1 (n := 5120) _ _ fun g => ?_
  have ee : ((cfg1.win 3).blk t).view.emb (ix3 (0 : Fin 1) (0 : Fin 1) g)
      = (ix3 (⟨t.val / 16, by omega⟩ : Fin 2) (0 : Fin 1) g : (⟨3, ![2, 1, 5120]⟩ : Shape).Idx) := by
    funext a
    apply Fin.ext
    match a with
    | ⟨0, _⟩ => show win1_3.index t (0 : Fin 3) * 1 + 1 * 0 = t.val / 16; rw [e0]; omega
    | ⟨1, _⟩ => show win1_3.index t (1 : Fin 3) * 1 + 1 * 0 = 0; rw [e1]
    | ⟨2, _⟩ => show win1_3.index t (2 : Fin 3) * 5120 + 1 * g.val = g.val; rw [e2]; omega
  show ((outsAt1 V c t.val t.isLt).2.1 : S1x1x5120.Idx → EReal) (ix3 (0 : Fin 1) (0 : Fin 1) g)
    = cntArr3 V c (((cfg1.win 3).blk t).view.emb (ix3 (0 : Fin 1) (0 : Fin 1) g))
  rw [ee]
  show _ = halfCnt (words V c) 0 (t.val / 16) g.val
  rw [inv3 V c g t.val t.isLt, h15, halfCnt_eq _ _ _ (by omega)]

/-- Every entry of the issuer-count array lies in the block its half's last tile writes back. -/
theorem cover3 (i : (⟨3, ![2, 1, 5120]⟩ : Shape).Idx) :
    ∃ t : Fin cfg1.N, (cfg1.win 3).flush t = true ∧ i ∈ ((cfg1.win 3).blk t).view.set := by
  have h0 : (i 0).val < 2 := (i 0).isLt
  have h1 : (i 1).val < 1 := (i 1).isLt
  have h2 : (i 2).val < 5120 := (i 2).isLt
  obtain ⟨t, ht⟩ : ∃ t : Fin cfg1.N, t.val = 16 * (i 0).val + 15 :=
    ⟨⟨16 * (i 0).val + 15, by rw [show cfg1.N = 32 from N_1]; omega⟩, rfl⟩
  obtain ⟨e0, e1, e2⟩ := idx_cnt3 t
  refine ⟨t, (flush1_3 t).mpr (by omega), ?_⟩
  show i ∈ ((View.whole main_v28_1).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; rw [e0]; omega
  | ⟨1, _⟩ => show win1_3.index t (1 : Fin 3) * 1 ≤ (i 1).val ∧ (i 1).val < win1_3.index t (1 : Fin 3) * 1 + 1; rw [e1]; omega
  | ⟨2, _⟩ => show win1_3.index t (2 : Fin 3) * 5120 ≤ (i 2).val ∧ (i 2).val < win1_3.index t (2 : Fin 3) * 5120 + 5120; rw [e2]; omega

/-- Half `cc`'s number of rows whose issuer word is `g`. -/
theorem region1_issuer_cnt (c : Dev nD) (cc : Fin 2) (g : Fin 5120) :
    ((dat1 V c).arrAt 3 cfg1.N : (⟨3, ![2, 1, 5120]⟩ : Shape).Idx → EReal) (ix3 cc (0 : Fin 1) g)
      = halfSum (fun b => hot ((V c main_v26 : WMat 16384 2) (ix2 b (0 : Fin 2))) g.val) cc := by
  have hfin := (dat1 V c).arrAt_eq_of_cover 3 (cntArr3 V c) (fun t hf => flushed3_eq V c t hf) (fun i => cover3 i)
  refine (congrFun hfin (ix3 cc (0 : Fin 1) g)).trans ?_
  show halfCnt (words V c) 0 cc.val g.val = _
  unfold halfCnt
  rw [dif_pos cc.isLt]

/-! ## The sector counts -/

/-- The zero block of the sector counts reads zero. -/
theorem zero5_apply (j : S1x1x128.Idx) : (k1_pay7 (F := Ideal) : S1x1x128.Idx → EReal) j = 0 := by
  unfold k1_pay7
  show Ideal.ofBits .f32 0x00000000#32 = 0
  exact Ideal.ofBits_zero_f32

/-- At the first tile of a half the sector counts are that tile's. -/
theorem step_A_5 (c : Dev nD) (t : Fin cfg1.N) (h0 : t.val % 16 = 0) (g : Fin 128) :
    ((outsAt1 V c t.val t.isLt).2.2.2 : S1x1x128.Idx → EReal) (ix3 (0 : Fin 1) (0 : Fin 1) g)
      = tileCnt (words V c) 1 g.val t.val := by
  rw [outsAt1_A V c t h0]
  dsimp only
  refine (congrFun (piece_A_5 (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) ((hcond1_0 t).mpr h0) (iblk1 V c 0 t) (iblk1 V c 1 t))
    (ix3 (0 : Fin 1) (0 : Fin 1) g)).trans ?_
  refine (pay5_apply (wblk V c t) (k1_pay7 (F := Ideal)) g).trans ?_
  rw [zero5_apply, zero_add]
  exact tileCnt_blk V c t 1 g.val

/-- Past it they are the counts so far plus that tile's. -/
theorem step_B_5 (c : Dev nD) (t : Fin cfg1.N) (h0 : ¬t.val % 16 = 0) (g : Fin 128) :
    ((outsAt1 V c t.val t.isLt).2.2.2 : S1x1x128.Idx → EReal) (ix3 (0 : Fin 1) (0 : Fin 1) g)
      = ((outsAt1 V c (t.val - 1) (Nat.lt_of_le_of_lt (Nat.sub_le _ _) t.isLt)).2.2.2 : S1x1x128.Idx → EReal) (ix3 (0 : Fin 1) (0 : Fin 1) g)
        + tileCnt (words V c) 1 g.val t.val := by
  rw [outsAt1_B V c t h0]
  dsimp only
  refine (congrFun (piece_B_5 (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) (fun h => h0 ((hcond1_0 t).mp h)) (iblk1 V c 0 t) (iblk1 V c 1 t)
    (outsAt1 V c (t.val - 1) (Nat.lt_of_le_of_lt (Nat.sub_le _ _) t.isLt)).1
    (outsAt1 V c (t.val - 1) (Nat.lt_of_le_of_lt (Nat.sub_le _ _) t.isLt)).2.1
    (outsAt1 V c (t.val - 1) (Nat.lt_of_le_of_lt (Nat.sub_le _ _) t.isLt)).2.2.1
    (outsAt1 V c (t.val - 1) (Nat.lt_of_le_of_lt (Nat.sub_le _ _) t.isLt)).2.2.2)
    (ix3 (0 : Fin 1) (0 : Fin 1) g)).trans ?_
  refine (pay5_apply (wblk V c t) (outsAt1 V c (t.val - 1) (Nat.lt_of_le_of_lt (Nat.sub_le _ _) t.isLt)).2.2.2 g).trans ?_
  rw [tileCnt_blk V c t 1 g.val]

/-- After point `n` the sector-count buffer holds, at group `g`, the counts of the tiles of `n`'s half up to `n`. -/
theorem inv5 (c : Dev nD) (g : Fin 128) (n : ℕ) (h : n < cfg1.N) :
    ((outsAt1 V c n h).2.2.2 : S1x1x128.Idx → EReal) (ix3 (0 : Fin 1) (0 : Fin 1) g)
      = ∑ k ∈ Finset.range (n % 16 + 1), tileCnt (words V c) 1 g.val (n / 16 * 16 + k) :=
  restart_sum cfg1.N
    (fun n h => ((outsAt1 V c n h).2.2.2 : S1x1x128.Idx → EReal) (ix3 (0 : Fin 1) (0 : Fin 1) g))
    (tileCnt (words V c) 1 g.val)
    (fun n h h0 => step_A_5 V c ⟨n, h⟩ h0 g) (fun n h h0 => step_B_5 V c ⟨n, h⟩ h0 g) n h

/-- The sector counts of both halves as one array: entry `(cc, 0, g)` is half `cc`'s count of group `g`. -/
def cntArr5 (c : Dev nD) : Buf (Elt Ideal) ((c : Thread nD τ).loc main_v28_3) :=
  (fun i => halfCnt (words V c) 1 (i 0).val (i 2).val : (⟨3, ![2, 1, 128]⟩ : Shape).Idx → EReal)

/-- The sector-count window's block index at point `t` is `(t / 16, 0, 0)`. -/
theorem idx_cnt5 : ∀ t : Fin cfg1.N, win1_5.index t (0 : Fin 3) = t.val / 16 ∧ win1_5.index t (1 : Fin 3) = 0 ∧ win1_5.index t (2 : Fin 3) = 0 :=
  (by decide +kernel : ∀ t : Fin grid1.N, win1_5.index t (0 : Fin 3) = t.val / 16 ∧ win1_5.index t (1 : Fin 3) = 0 ∧ win1_5.index t (2 : Fin 3) = 0)

/-- What a half's last tile writes back is that half's block of the sector-count array. -/
theorem flushed5_eq (c : Dev nD) (t : Fin cfg1.N) (hf : (cfg1.win 5).flush t = true) :
    (dat1 V c).flushed 5 t = ((cfg1.win 5).blk t).view.read (Elt Ideal) (cntArr5 V c) := by
  have h15 : t.val % 16 = 15 := (flush1_5 t).mp hf
  have ht : t.val < 32 := lt_of_lt_of_eq t.isLt N_1
  obtain ⟨e0, e1, e2⟩ := idx_cnt5 t
  show (cfg1.win 5).cut (grid1.coords t) ((dat1 V c).after 5 t) = _
  rw [after1_5]
  refine ext_1x1 (n := 128) _ _ fun g => ?_
  have ee : ((cfg1.win 5).blk t).view.emb (ix3 (0 : Fin 1) (0 : Fin 1) g)
      = (ix3 (⟨t.val / 16, by omega⟩ : Fin 2) (0 : Fin 1) g : (⟨3, ![2, 1, 128]⟩ : Shape).Idx) := by
    funext a
    apply Fin.ext
    match a with
    | ⟨0, _⟩ => show win1_5.index t (0 : Fin 3) * 1 + 1 * 0 = t.val / 16; rw [e0]; omega
    | ⟨1, _⟩ => show win1_5.index t (1 : Fin 3) * 1 + 1 * 0 = 0; rw [e1]
    | ⟨2, _⟩ => show win1_5.index t (2 : Fin 3) * 128 + 1 * g.val = g.val; rw [e2]; omega
  show ((outsAt1 V c t.val t.isLt).2.2.2 : S1x1x128.Idx → EReal) (ix3 (0 : Fin 1) (0 : Fin 1) g)
    = cntArr5 V c (((cfg1.win 5).blk t).view.emb (ix3 (0 : Fin 1) (0 : Fin 1) g))
  rw [ee]
  show _ = halfCnt (words V c) 1 (t.val / 16) g.val
  rw [inv5 V c g t.val t.isLt, h15, halfCnt_eq _ _ _ (by omega)]

/-- Every entry of the sector-count array lies in the block its half's last tile writes back. -/
theorem cover5 (i : (⟨3, ![2, 1, 128]⟩ : Shape).Idx) :
    ∃ t : Fin cfg1.N, (cfg1.win 5).flush t = true ∧ i ∈ ((cfg1.win 5).blk t).view.set := by
  have h0 : (i 0).val < 2 := (i 0).isLt
  have h1 : (i 1).val < 1 := (i 1).isLt
  have h2 : (i 2).val < 128 := (i 2).isLt
  obtain ⟨t, ht⟩ : ∃ t : Fin cfg1.N, t.val = 16 * (i 0).val + 15 :=
    ⟨⟨16 * (i 0).val + 15, by rw [show cfg1.N = 32 from N_1]; omega⟩, rfl⟩
  obtain ⟨e0, e1, e2⟩ := idx_cnt5 t
  refine ⟨t, (flush1_5 t).mpr (by omega), ?_⟩
  show i ∈ ((View.whole main_v28_3).slice (win1_5.rect t)).set
  rw [View.set_slice_whole, Rect.mem_set_unit]
  intro a
  match a with
  | ⟨0, _⟩ => show win1_5.index t (0 : Fin 3) * 1 ≤ (i 0).val ∧ (i 0).val < win1_5.index t (0 : Fin 3) * 1 + 1; rw [e0]; omega
  | ⟨1, _⟩ => show win1_5.index t (1 : Fin 3) * 1 ≤ (i 1).val ∧ (i 1).val < win1_5.index t (1 : Fin 3) * 1 + 1; rw [e1]; omega
  | ⟨2, _⟩ => show win1_5.index t (2 : Fin 3) * 128 ≤ (i 2).val ∧ (i 2).val < win1_5.index t (2 : Fin 3) * 128 + 128; rw [e2]; omega

/-- Half `cc`'s number of rows whose sector word is `g`. -/
theorem region1_sector_cnt (c : Dev nD) (cc : Fin 2) (g : Fin 128) :
    ((dat1 V c).arrAt 5 cfg1.N : (⟨3, ![2, 1, 128]⟩ : Shape).Idx → EReal) (ix3 cc (0 : Fin 1) g)
      = halfSum (fun b => hot ((V c main_v26 : WMat 16384 2) (ix2 b (1 : Fin 2))) g.val) cc := by
  have hfin := (dat1 V c).arrAt_eq_of_cover 5 (cntArr5 V c) (fun t hf => flushed5_eq V c t hf) (fun i => cover5 i)
  refine (congrFun hfin (ix3 cc (0 : Fin 1) g)).trans ?_
  show halfCnt (words V c) 1 cc.val g.val = _
  unfold halfCnt
  rw [dif_pos cc.isLt]

end Cert.KernelIdeal.Val

end
-- ==== Proof.Region2.lean ====
/-
  The third kernel region's result array, index by index: row `b` is the second perceptron of sample `b`'s own row
  joined with the row of the issuer-mean table its issuer word picks and the row of the sector-mean table its sector
  word picks (an indicator product: a word below the table's height picks exactly its own row).
-/
import proofs.«412861_j3332894622337_3_alg».proof.Proof.Gen.KernelIdeal.Frame
import proofs.«412861_j3332894622337_3_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
namespace Cert.KernelIdeal.Val

open Cert.KernelIdeal Cert.KernelIdeal.Gen Cert.Spec

variable (V : (c : Dev nD) → (b : Ref sig .tc) → Buf (Elt Ideal) ((c : Thread nD τ).loc b))

section Plain
variable {M K N : ℕ} (D : DotDims ⟨2, ![M, K]⟩ ⟨2, ![K, N]⟩ ⟨2, ![M, N]⟩)

/-- Two spellings of one axis number read the same coordinate of an index. -/
private theorem coord_congr {n : ℕ} {d : Fin n → ℕ} (i : (⟨n, d⟩ : Shape).Idx) (p q : ℕ) (hp : p < n) (hq : q < n) (h : p = q) :
    (i ⟨p, hp⟩).val = (i ⟨q, hq⟩).val := by subst h; rfl

/-- In a rows-by-columns product the left operand's row is the result's row. -/
private theorem lhs_row (hb : D.lhsBatch = []) (hn : D.lhsNonContracting = [0]) (i : (⟨2, ![M, N]⟩ : Shape).Idx) (q : D.contr.Idx) :
    (D.lhsIdx i q (0 : Fin 2)).val = (i (0 : Fin 2)).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- In a rows-by-columns product the right operand's column is the result's column. -/
private theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q (1 : Fin 2)).val = (i (1 : Fin 2)).val := by
  unfold DotDims.rhsIdx
  rw [dif_neg (by rw [hb]; exact List.not_mem_nil), dif_pos (by rw [hn]; exact List.mem_singleton.mpr rfl)]
  simp only [Fin.val_cast]
  exact coord_congr i _ _ _ _ (by simp [hlb, hln, hn])

/-- One inner axis, of the left operand's column count. -/
private theorem contr_rank (hc : D.lhsContracting = [1]) : D.contr.rank = 1 := by rw [D.rank_contr, hc]; rfl

private theorem contr_size (hc : D.lhsContracting = [1]) : D.contr.size ⟨0, by rw [contr_rank D hc]; exact Nat.one_pos⟩ = K := by
  rw [D.size_contr 0 (by rw [hc]; exact Nat.one_pos)]
  simp [hc]

/-- A plain rows-by-columns product into the zero accumulator, read at (r, e): the sum over the inner index. -/
private theorem matmul_plain_apply {φ₁ φ₂ : FTy}
    (hlc : D.lhsContracting = [1]) (hrc : D.rhsContracting = [0]) (hln : D.lhsNonContracting = [0]) (hrn : D.rhsNonContracting = [1])
    (hlb : D.lhsBatch = []) (hrb : D.rhsBatch = [])
    (lhs : FVec Ideal ⟨2, ![M, K]⟩ φ₁) (rhs : FVec Ideal ⟨2, ![K, N]⟩ φ₂) (r : Fin M) (e : Fin N) :
    matmul D none lhs rhs (constant ⟨2, ![M, N]⟩ .f32 0x00000000#32) (ix2 r e) = ∑ k : Fin K, lhs (ix2 r k) * rhs (ix2 k e) := by
  simp only [matmul]
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 r e) ((contrEquiv1 D K (contr_rank D hlc) (contr_size D hlc)).symm k) = ix2 r k :=
    funext fun a => Fin.ext (by
      match a with
      | ⟨0, _⟩ => exact lhs_row D hlb hln _ _
      | ⟨1, _⟩ => exact (D.lhsIdx_val_of_single hlc _ _).trans hk)
  have er : D.rhsIdx (ix2 r e) ((contrEquiv1 D K (contr_rank D hlc) (contr_size D hlc)).symm k) = ix2 k e :=
    funext fun a => Fin.ext (by
      match a with
      | ⟨0, _⟩ => exact (D.rhsIdx_val_of_single hrc _ _).trans hk
      | ⟨1, _⟩ => exact rhs_col D hrb hlb hln hrn _ _)
  rw [el, er]

end Plain

/-- The conversion of a widened one-bit comparison of two words: one where they agree, zero elsewhere. -/
private theorem sitofp_eq_bit (a b : BitVec 32) :
    FloatOps.sitofp (F := Ideal) .f32 ((IntOp.cmpi .eq a b).setWidth 32) = if a = b then 1 else 0 := by
  show (((((IntOp.cmpi .eq a b).setWidth 32).toInt : ℤ) : ℝ) : EReal) = _
  unfold IntOp.cmpi
  by_cases h : a = b
  · subst h
    simp
  · rw [if_neg h]
    have : (a == b) = false := by simpa using h
    simp [this]

/-- The indicator matrix of a column of words against the column numbers. -/
private theorem indicator_apply {C : ℕ} (ids : IVec ⟨2, ![512, 1]⟩ 32)
    (hb : (⟨2, ![512, 1]⟩ : Shape).Broadcasts ⟨2, ![512, C]⟩) (hio : (⟨2, ![512, C]⟩ : Shape).Iotas .tc 32 [1])
    (h1 : 1 < 32) (r : Fin 512) (g : Fin C) :
    (sitofp (F := Ideal) .f32 (extui 32 (cmpi .eq (broadcastTo ⟨2, ![512, C]⟩ ids hb) (iota .tc ⟨2, ![512, C]⟩ 32 [1] hio)) h1)
        : FVec Ideal ⟨2, ![512, C]⟩ .f32) (ix2 r g)
      = hot (ids (ix2 r 0)) g.val := by
  rw [sitofp_apply, extui_apply]
  show FloatOps.sitofp (F := Ideal) .f32 ((IntOp.cmpi .eq (broadcastTo ⟨2, ![512, C]⟩ ids hb (ix2 r g)) (iota .tc ⟨2, ![512, C]⟩ 32 [1] hio (ix2 r g))).setWidth 32) = _
  rw [broadcastTo_apply ids hb (ix2 r g) (ix2 r 0) (fun a => by
      match a with
      | ⟨0, _⟩ => show r.val = if (512 : ℕ) = 1 then 0 else r.val; rw [if_neg (by decide)]
      | ⟨1, _⟩ => show (0 : ℕ) = if (1 : ℕ) = 1 then 0 else _; rw [if_pos rfl]),
    iota_single_apply, sitofp_eq_bit]
  rfl

/-- Three blocks of 140 columns laid side by side, read at a column. -/
private theorem concat3_apply (A B Cc : FVec Ideal ⟨2, ![512, 140]⟩ .f32)
    (h : Shape.Concatenates (([⟨⟨2, ![512, 140]⟩, A⟩, ⟨⟨2, ![512, 140]⟩, B⟩, ⟨⟨2, ![512, 140]⟩, Cc⟩] :
      List ((s : Shape) × (s.Idx → Ideal .f32))).map (·.1)) ⟨2, ![512, 420]⟩ 1)
    (r : Fin 512) (d : Fin 420) :
    concatenate ⟨2, ![512, 420]⟩ 1 [⟨⟨2, ![512, 140]⟩, A⟩, ⟨⟨2, ![512, 140]⟩, B⟩, ⟨⟨2, ![512, 140]⟩, Cc⟩] h (ix2 r d)
      = if h : d.val < 140 then A (ix2 r ⟨d.val, h⟩)
        else if h2 : d.val < 280 then B (ix2 r ⟨d.val - 140, by omega⟩)
        else Cc (ix2 r ⟨d.val - 280, by have := d.isLt; omega⟩) := by
  have hd := d.isLt
  split
  · rename_i h0
    exact concatenate_apply_piece 1 _ h (ix2 r d) 0 (by show (0 : ℕ) < 3; omega) _ A rfl rfl 0 rfl (ix2 r ⟨d.val, h0⟩)
      (fun b hb => by
        match b with
        | ⟨0, _⟩ => rfl
        | ⟨1, _⟩ => exact absurd rfl hb)
      (by show 0 + d.val = d.val; omega)
  · rename_i h0
    split
    · rename_i h1
      exact concatenate_apply_piece 1 _ h (ix2 r d) 1 (by show (1 : ℕ) < 3; omega) _ B rfl rfl 140 rfl (ix2 r ⟨d.val - 140, by omega⟩)
        (fun b hb => by
          match b with
          | ⟨0, _⟩ => rfl
          | ⟨1, _⟩ => exact absurd rfl hb)
        (by show 140 + (d.val - 140) = d.val; omega)
    · rename_i h1
      exact concatenate_apply_piece 1 _ h (ix2 r d) 2 (by show (2 : ℕ) < 3; omega) _ Cc rfl rfl 280 rfl (ix2 r ⟨d.val - 280, by omega⟩)
        (fun b hb => by
          match b with
          | ⟨0, _⟩ => rfl
          | ⟨1, _⟩ => exact absurd rfl hb)
        (by show 280 + (d.val - 280) = d.val; omega)

/-- A row of 128 numbers cast to one row of a matrix and repeated down 512 rows, read at (r, k). -/
private theorem bias_apply (v : FVec Ideal ⟨1, ![128]⟩ .f32) (h1 : (⟨1, ![128]⟩ : Shape).ShapeCasts ⟨2, ![1, 128]⟩)
    (h2 : (⟨2, ![1, 128]⟩ : Shape).Broadcasts ⟨2, ![512, 128]⟩) (r : Fin 512) (k : Fin 128) :
    broadcastTo ⟨2, ![512, 128]⟩ (shapeCast ⟨2, ![1, 128]⟩ v h1) h2 (ix2 r k) = v (ix1 k) := by
  rw [broadcastTo_apply _ h2 (ix2 r k) (ix2 (0 : Fin 1) k) (fun a => by
      match a with
      | ⟨0, _⟩ => show (0 : ℕ) = if (1 : ℕ) = 1 then 0 else _; rw [if_pos rfl]
      | ⟨1, _⟩ => show k.val = if (128 : ℕ) = 1 then 0 else k.val; rw [if_neg (by decide)])]
  rw [shapeCast_addUnit_apply ![128] v h1]
  exact congrArg v (funext fun a => by match a with | ⟨0, _⟩ => rfl)

/-- An indicator matrix times a table picks, in each row, the table's row the word names. -/
private theorem pick_apply {C : ℕ} (hC : C ≤ 2 ^ 32) (D : DotDims ⟨2, ![512, C]⟩ ⟨2, ![C, 140]⟩ ⟨2, ![512, 140]⟩)
    (hlc : D.lhsContracting = [1]) (hrc : D.rhsContracting = [0]) (hln : D.lhsNonContracting = [0]) (hrn : D.rhsNonContracting = [1])
    (hlb : D.lhsBatch = []) (hrb : D.rhsBatch = [])
    (ids : IVec ⟨2, ![512, 1]⟩ 32) (T : FVec Ideal ⟨2, ![C, 140]⟩ .f32)
    (hb : (⟨2, ![512, 1]⟩ : Shape).Broadcasts ⟨2, ![512, C]⟩) (hio : (⟨2, ![512, C]⟩ : Shape).Iotas .tc 32 [1])
    (h1 : 1 < 32) (hbits : FTy.bits .bf16 < FTy.bits .f32)
    (r : Fin 512) (e : Fin 140) (w : BitVec 32) (hw_eq : ids (ix2 r 0) = w) (hw : w.toNat < C) :
    matmul D none
        (truncf .bf16 (sitofp (F := Ideal) .f32 (extui 32 (cmpi .eq (broadcastTo ⟨2, ![512, C]⟩ ids hb) (iota .tc ⟨2, ![512, C]⟩ 32 [1] hio)) h1)) hbits)
        (truncf .bf16 T hbits) (constant ⟨2, ![512, 140]⟩ .f32 0x00000000#32) (ix2 r e)
      = T (ix2 ⟨w.toNat, hw⟩ e) := by
  rw [matmul_plain_apply D hlc hrc hln hrn hlb hrb]
  refine (Finset.sum_congr rfl fun g _ => ?_).trans (sum_hot_mul hC hw fun g => T (ix2 g e))
  rw [truncf_apply, truncf_apply, indicator_apply, hw_eq]

/-- One row of the joined block: own row | the issuer table's row the word picks | the sector table's row. -/
private def joinedRow (x0 : Vec Ideal S512x140 .f32) (x1 : Vec Ideal S512x2 .i32) (x2 : Vec Ideal S5120x140 .f32) (x3 : Vec Ideal S128x140 .f32)
    (r : Fin 512) (hi : (x1 (ix2 r (0 : Fin 2))).toNat < 5120) (hs : (x1 (ix2 r (1 : Fin 2))).toNat < 128) (d : Fin 420) : EReal :=
  if h : d.val < 140 then x0 (ix2 r ⟨d.val, h⟩)
  else if h2 : d.val < 280 then x2 (ix2 ⟨_, hi⟩ ⟨d.val - 140, by omega⟩)
  else x3 (ix2 ⟨_, hs⟩ ⟨d.val - 280, by have := d.isLt; omega⟩)

/-- The block before the last bias at (r, j): the second weight matrix applied to the clipped first layer of the joined row. -/
private theorem hidden_apply (x0 : Vec Ideal S512x140 .f32) (x1 : Vec Ideal S512x2 .i32) (x2 : Vec Ideal S5120x140 .f32) (x3 : Vec Ideal S128x140 .f32)
    (x4 : Vec Ideal S420x128 .f32) (x5 : Vec Ideal S128 .f32) (x6 : Vec Ideal S128x128 .f32)
    (r : Fin 512) (j : Fin 128) (hi : (x1 (ix2 r (0 : Fin 2))).toNat < 5120) (hs : (x1 (ix2 r (1 : Fin 2))).toNat < 128) :
    k2_pay2 (F := Ideal) x0 x1 x2 x3 x4 x5 x6 (ix2 r j)
      = ∑ k : Fin 128, relu ((∑ d : Fin 420, joinedRow x0 x1 x2 x3 r hi hs d * x4 (ix2 d k)) + x5 (ix1 k)) * x6 (ix2 k j) := by
  unfold k2_pay2
  dsimp only
  rw [matmul_plain_apply _ rfl rfl rfl rfl rfl rfl]
  refine Finset.sum_congr rfl fun k _ => ?_
  rw [truncf_apply, truncf_apply, maximumf_apply, addf_apply, broadcast_apply, bias_apply,
    matmul_plain_apply _ rfl rfl rfl rfl rfl rfl, Ideal.ofBits_def, Ideal.ofBits_zero_f32]
  unfold relu
  congr 3
  refine Finset.sum_congr rfl fun d _ => ?_
  rw [truncf_apply, truncf_apply, concat3_apply]
  unfold joinedRow
  congr 1
  split
  · rw [shapeCast_self]
  · split
    · rw [shapeCast_self, shapeCast_self]
      exact pick_apply (by decide) _ rfl rfl rfl rfl rfl rfl _ x2 _ _ _ _ r _ (x1 (ix2 r 0))
        (extractStridedSlice_apply _ _ _ _ _ fun a => by
          match a with
          | ⟨0, _⟩ => show r.val = 0 + r.val; omega
          | ⟨1, _⟩ => show (0 : ℕ) = 0 + 0; rfl) hi
    · rw [shapeCast_self, shapeCast_self]
      exact pick_apply (by decide) _ rfl rfl rfl rfl rfl rfl _ x3 _ _ _ _ r _ (x1 (ix2 r 1))
        (extractStridedSlice_apply _ _ _ _ _ fun a => by
          match a with
          | ⟨0, _⟩ => show r.val = 0 + r.val; omega
          | ⟨1, _⟩ => show (1 : ℕ) = 1 + 0; rfl) hs

/-- The last affine layer's bias row added under every row. -/
private theorem addBias_apply (v40 : FVec Ideal S512x128 .f32) (v41 : Vec Ideal S128 .f32) (r : Fin 512) (j : Fin 128) :
    k2_pay1 (F := Ideal) v40 v41 (ix2 r j) = v40 (ix2 r j) + v41 (ix1 j) := by
  unfold k2_pay1
  rw [addf_apply, bias_apply]

/-- The stored block at (r, j): the second affine layer over the clipped first layer of the joined row. -/
private theorem storedBlock_apply (x0 : Vec Ideal S512x140 .f32) (x1 : Vec Ideal S512x2 .i32) (x2 : Vec Ideal S5120x140 .f32) (x3 : Vec Ideal S128x140 .f32)
    (x4 : Vec Ideal S420x128 .f32) (x5 : Vec Ideal S128 .f32) (x6 : Vec Ideal S128x128 .f32) (x7 : Vec Ideal S128 .f32)
    (r : Fin 512) (j : Fin 128) (hi : (x1 (ix2 r (0 : Fin 2))).toNat < 5120) (hs : (x1 (ix2 r (1 : Fin 2))).toNat < 128) :
    k2_pay1 (F := Ideal) (k2_pay2 (F := Ideal) x0 x1 x2 x3 x4 x5 x6) x7 (ix2 r j)
      = (∑ k : Fin 128, relu ((∑ d : Fin 420, joinedRow x0 x1 x2 x3 r hi hs d * x4 (ix2 d k)) + x5 (ix1 k)) * x6 (ix2 k j)) + x7 (ix1 j) := by
  rw [addBias_apply, hidden_apply x0 x1 x2 x3 x4 x5 x6 r j hi hs]

/-- Where each window's block sits at grid point t: the batch windows at tile t, the tables whole. -/
private theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- Row r of the own-row block at point t is row 512 t + r of the array. -/
private theorem ownBlock_apply (c : Dev nD) (t : Fin cfg2.N) (r : Fin 512) (d : Fin 140) (b : Fin 16384) (hb : b.val = t.val * 512 + r.val) :
    (iblk2 V c 0 t : Vec Ideal S512x140 .f32) (ix2 r d) = (V c main_v27 : Mat 16384 140) (ix2 b d) := by
  obtain ⟨e0, e1, -⟩ := index_facts t
  unfold iblk2
  rw [View.read_apply]
  show V c main_v27 _ = V c main_v27 _
  congr 1
  funext a
  apply Fin.ext
  match a with
  | ⟨0, _⟩ => show win2_0.index t (0 : Fin 2) * 512 + 1 * r.val = b.val; rw [e0, hb]; omega
  | ⟨1, _⟩ => show win2_0.index t (1 : Fin 2) * 140 + 1 * d.val = d.val; rw [e1]; omega

/-- Row r of the word block at point t is row 512 t + r of the word array. -/
private theorem wordBlock_apply (c : Dev nD) (t : Fin cfg2.N) (r : Fin 512) (o : Fin 2) (b : Fin 16384) (hb : b.val = t.val * 512 + r.val) :
    (iblk2 V c 1 t : Vec Ideal S512x2 .i32) (ix2 r o) = (V c main_v26 : WMat 16384 2) (ix2 b o) := by
  obtain ⟨-, -, e0, e1, -⟩ := index_facts t
  unfold iblk2
  rw [View.read_apply]
  show V c main_v26 _ = V c main_v26 _
  congr 1
  funext a
  apply Fin.ext
  match a with
  | ⟨0, _⟩ => show win2_1.index t (0 : Fin 2) * 512 + 1 * r.val = b.val; rw [e0, hb]; omega
  | ⟨1, _⟩ => show win2_1.index t (1 : Fin 2) * 2 + 1 * o.val = o.val; rw [e1]; omega

/-- The table windows stage their whole arrays at every point. -/
private theorem issuerTable_eq (c : Dev nD) (t : Fin cfg2.N) : (iblk2 V c 2 t : Vec Ideal S5120x140 .f32) = (V c main_v37 : Mat 5120 140) := by
  obtain ⟨-, -, -, -, e0, e1, -⟩ := index_facts t
  funext y
  unfold iblk2
  rw [View.read_apply]
  show V c main_v37 _ = V c main_v37 y
  congr 1
  funext a
  apply Fin.ext
  match a with
  | ⟨0, _⟩ => show win2_2.index t (0 : Fin 2) * 5120 + 1 * (y 0).val = (y 0).val; rw [e0]; omega
  | ⟨1, _⟩ => show win2_2.index t (1 : Fin 2) * 140 + 1 * (y 1).val = (y 1).val; rw [e1]; omega

private theorem sectorTable_eq (c : Dev nD) (t : Fin cfg2.N) : (iblk2 V c 3 t : Vec Ideal S128x140 .f32) = (V c main_v42 : Mat 128 140) := by
  obtain ⟨-, -, -, -, -, -, e0, e1, -⟩ := index_facts t
  funext y
  unfold iblk2
  rw [View.read_apply]
  show V c main_v42 _ = V c main_v42 y
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 140 + 1 * (y 1).val = (y 1).val; rw [e1]; omega

private theorem weight1_eq (c : Dev nD) (t : Fin cfg2.N) : (iblk2 V c 4 t : Vec Ideal S420x128 .f32) = (V c main_arg13 : Mat 420 128) := by
  obtain ⟨-, -, -, -, -, -, -, -, e0, e1, -⟩ := index_facts t
  funext y
  unfold iblk2
  rw [View.read_apply]
  show V c main_arg13 _ = V c main_arg13 y
  congr 1
  funext a
  apply Fin.ext
  match a with
  | ⟨0, _⟩ => show win2_4.index t (0 : Fin 2) * 420 + 1 * (y 0).val = (y 0).val; rw [e0]; omega
  | ⟨1, _⟩ => show win2_4.index t (1 : Fin 2) * 128 + 1 * (y 1).val = (y 1).val; rw [e1]; omega

private theorem bias1_eq (c : Dev nD) (t : Fin cfg2.N) : (iblk2 V c 5 t : Vec Ideal S128 .f32) = (V c main_arg14 : Row 128) := by
  obtain ⟨-, -, -, -, -, -, -, -, -, -, e0, -⟩ := index_facts t
  funext y
  unfold iblk2
  rw [View.read_apply]
  show V c main_arg14 _ = V c main_arg14 y
  congr 1
  funext a
  apply Fin.ext
  match a with
  | ⟨0, _⟩ => show win2_5.index t (0 : Fin 1) * 128 + 1 * (y 0).val = (y 0).val; rw [e0]; omega

private theorem weight2_eq (c : Dev nD) (t : Fin cfg2.N) : (iblk2 V c 6 t : Vec Ideal S128x128 .f32) = (V c main_arg15 : Mat 128 128) := by
  obtain ⟨-, -, -, -, -, -, -, -, -, -, -, e0, e1, -⟩ := index_facts t
  funext y
  unfold iblk2
  rw [View.read_apply]
  show V c main_arg15 _ = V c main_arg15 y
  congr 1
  funext a
  apply Fin.ext
  match a with
  | ⟨0, _⟩ => show win2_6.index t (0 : Fin 2) * 128 + 1 * (y 0).val = (y 0).val; rw [e0]; omega
  | ⟨1, _⟩ => show win2_6.index t (1 : Fin 2) * 128 + 1 * (y 1).val = (y 1).val; rw [e1]; omega

private theorem bias2_eq (c : Dev nD) (t : Fin cfg2.N) : (iblk2 V c 7 t : Vec Ideal S128 .f32) = (V c main_arg16 : Row 128) := by
  obtain ⟨-, -, -, -, -, -, -, -, -, -, -, -, -, e0, -⟩ := index_facts t
  funext y
  unfold iblk2
  rw [View.read_apply]
  show V c main_arg16 _ = V c main_arg16 y
  congr 1
  funext a
  apply Fin.ext
  match a with
  | ⟨0, _⟩ => show win2_7.index t (0 : Fin 1) * 128 + 1 * (y 0).val = (y 0).val; rw [e0]; omega

/-- Where the output block's index (r, q) at point t sits in the result array: row 512 t + r. -/
private theorem outBlock_emb (t : Fin cfg2.N) (r : Fin 512) (q : Fin 128) (b : Fin 16384) (hb : b.val = t.val * 512 + r.val) :
    ((cfg2.win 8).blk t).view.emb (ix2 r q : S512x128.Idx) = (ix2 b q : S16384x128.Idx) := by
  obtain ⟨-, -, -, -, -, -, -, -, -, -, -, -, -, -, e0, e1⟩ := index_facts t
  funext a
  apply Fin.ext
  match a with
  | ⟨0, _⟩ => show win2_8.index t (0 : Fin 2) * 512 + 1 * r.val = b.val; rw [e0, hb]; omega
  | ⟨1, _⟩ => show win2_8.index t (1 : Fin 2) * 128 + 1 * q.val = q.val; rw [e1]; omega

/-- The whole result array as one function of the arrays the region finds. -/
private def resultArr (c : Dev nD)
    (hiss : ∀ b : Fin 16384, ((V c main_v26 : WMat 16384 2) (ix2 b (0 : Fin 2))).toNat < 5120)
    (hsec : ∀ b : Fin 16384, ((V c main_v26 : WMat 16384 2) (ix2 b (1 : Fin 2))).toNat < 128) : Mat 16384 128 := fun i =>
  out (hcat (fun b d => (V c main_v27 : Mat 16384 140) (ix2 b d))
        (fun b d => (V c main_v37 : Mat 5120 140) (ix2 ⟨_, hiss b⟩ d))
        (fun b d => (V c main_v42 : Mat 128 140) (ix2 ⟨_, hsec b⟩ d)))
      (V c main_arg13) (V c main_arg14) (V c main_arg15) (V c main_arg16) ⟨(i 0).val, idx2_lt0 i⟩ ⟨(i 1).val, idx2_lt1 i⟩

/-- The joined row of the block at point t, row r, is the joined row 512 t + r of the arrays. -/
private theorem joinedRow_eq (c : Dev nD)
    (hiss : ∀ b : Fin 16384, ((V c main_v26 : WMat 16384 2) (ix2 b (0 : Fin 2))).toNat < 5120)
    (hsec : ∀ b : Fin 16384, ((V c main_v26 : WMat 16384 2) (ix2 b (1 : Fin 2))).toNat < 128)
    (t : Fin cfg2.N) (r : Fin 512) (b : Fin 16384) (hb : b.val = t.val * 512 + r.val)
    (hi : ((iblk2 V c 1 t : Vec Ideal S512x2 .i32) (ix2 r (0 : Fin 2))).toNat < 5120)
    (hs : ((iblk2 V c 1 t : Vec Ideal S512x2 .i32) (ix2 r (1 : Fin 2))).toNat < 128) (d : Fin 420) :
    joinedRow (iblk2 V c 0 t) (iblk2 V c 1 t) (V c main_v37) (V c main_v42) r hi hs d
      = hcat (fun b d => (V c main_v27 : Mat 16384 140) (ix2 b d))
          (fun b d => (V c main_v37 : Mat 5120 140) (ix2 ⟨_, hiss b⟩ d))
          (fun b d => (V c main_v42 : Mat 128 140) (ix2 ⟨_, hsec b⟩ d)) b d := by
  unfold joinedRow hcat
  split
  · exact ownBlock_apply V c t r _ b hb
  · split
    · exact congrArg (fun n : Fin 5120 => (V c main_v37 : Mat 5120 140) (ix2 n _))
        (Fin.ext (congrArg BitVec.toNat (wordBlock_apply V c t r 0 b hb)))
    · exact congrArg (fun n : Fin 128 => (V c main_v42 : Mat 128 140) (ix2 n _))
        (Fin.ext (congrArg BitVec.toNat (wordBlock_apply V c t r 1 b hb)))

/-- The zero offsets of a whole-block rectangle, rank two and rank one. -/
private theorem zeros2 : (![0, 0] : Fin 2 → Nat) = fun _ => 0 := funext fun a => by fin_cases a <;> rfl
private theorem zeros1 : (![0] : Fin 1 → Nat) = fun _ => 0 := funext fun a => by fin_cases a; rfl

/-- What point t writes back is block t of the whole result array. -/
private theorem writtenBlock_eq (c : Dev nD)
    (hiss : ∀ b : Fin 16384, ((V c main_v26 : WMat 16384 2) (ix2 b (0 : Fin 2))).toNat < 5120)
    (hsec : ∀ b : Fin 16384, ((V c main_v26 : WMat 16384 2) (ix2 b (1 : Fin 2))).toNat < 128) (t : Fin cfg2.N) :
    (dat2 V c).flushed 8 t = ((cfg2.win 8).blk t).view.read (Elt Ideal) (resultArr V c hiss hsec) := by
  show (cfg2.win 8).cut (grid2.coords t) ((dat2 V c).after 8 t) = _
  rw [after2_8]
  unfold out2_8
  rw [View.canon_unit_zero zeros2]
  simp only [View.ld_unit_zero (S := S512x140) zeros2, View.ld_unit_zero (S := S512x2) zeros2, View.ld_unit_zero (S := S5120x140) zeros2,
    View.ld_unit_zero (S := S128x140) zeros2, View.ld_unit_zero (S := S420x128) zeros2, View.ld_unit_zero (S := S128) zeros1,
    View.ld_unit_zero (S := S128x128) zeros2]
  rw [issuerTable_eq V c t, sectorTable_eq V c t, weight1_eq V c t, bias1_eq V c t, weight2_eq V c t, bias2_eq V c t]
  funext y
  obtain ⟨r, q, rfl⟩ : ∃ (r : Fin 512) (q : Fin 128), y = (ix2 r q : S512x128.Idx) := ⟨y 0, y 1, eq_ix2 (n0 := 512) (n1 := 128) y⟩
  have ht : t.val < 32 := lt_of_lt_of_eq t.isLt N_2
  have hb : (⟨t.val * 512 + r.val, by omega⟩ : Fin 16384).val = t.val * 512 + r.val := rfl
  have hi : ((iblk2 V c 1 t : Vec Ideal S512x2 .i32) (ix2 r (0 : Fin 2))).toNat < 5120 := by
    rw [wordBlock_apply V c t r 0 _ hb]; exact hiss _
  have hs : ((iblk2 V c 1 t : Vec Ideal S512x2 .i32) (ix2 r (1 : Fin 2))).toNat < 128 := by
    rw [wordBlock_apply V c t r 1 _ hb]; exact hsec _
  refine (storedBlock_apply (iblk2 V c 0 t) (iblk2 V c 1 t) (V c main_v37) (V c main_v42) (V c main_arg13) (V c main_arg14) (V c main_arg15)
    (V c main_arg16) r q hi hs).trans ?_
  rw [View.read_apply, outBlock_emb t r q _ hb]
  show _ = out _ (V c main_arg13) (V c main_arg14) (V c main_arg15) (V c main_arg16) ⟨t.val * 512 + r.val, _⟩ q
  unfold out lin
  refine congrArg (· + _) (Finset.sum_congr rfl fun k _ => ?_)
  refine congrArg (fun z => relu (z + _) * _) (Finset.sum_congr rfl fun d _ => ?_)
  exact congrArg (· * _) (joinedRow_eq V c hiss hsec t r _ hb hi hs d)

/-- An index of the result array is in point t's block iff each coordinate is in the block's range on its axis. -/
private theorem mem_outBlock (t : Fin cfg2.N) (i : S16384x128.Idx) :
    i ∈ ((cfg2.win 8).blk t).view.set ↔ ∀ a : Fin 2, win2_8.index t a * S512x128.size a ≤ (i a).val ∧ (i a).val < win2_8.index t a * S512x128.size a + S512x128.size a := by
  show i ∈ ((View.whole main_v43).slice (win2_8.rect t)).set ↔ _
  rw [View.set_slice_whole, Rect.mem_set_unit]
  exact Iff.rfl

/-- Every row of the result array lies in the block of the tile that holds it. -/
private theorem outBlocks_cover (i : S16384x128.Idx) :
    ∃ t : Fin cfg2.N, (cfg2.win 8).flush t = true ∧ i ∈ ((cfg2.win 8).blk t).view.set := by
  have h0 : (i 0).val < 16384 := idx2_lt0 i
  have h1 : (i 1).val < 128 := idx2_lt1 i
  obtain ⟨t, ht⟩ : ∃ t : Fin cfg2.N, t.val = (i 0).val / 512 := ⟨Fin.cast N_2.symm ⟨(i 0).val / 512, by omega⟩, rfl⟩
  obtain ⟨-, -, -, -, -, -, -, -, -, -, -, -, -, -, e0, e1⟩ := index_facts t
  refine ⟨t, flush2_8 t, ?_⟩
  rw [mem_outBlock]
  intro a
  match a with
  | ⟨0, _⟩ =>
    show win2_8.index t (0 : Fin 2) * 512 ≤ (i 0).val ∧ (i 0).val < win2_8.index t (0 : Fin 2) * 512 + 512
    rw [e0, ht]
    omega
  | ⟨1, _⟩ =>
    show win2_8.index t (1 : Fin 2) * 128 ≤ (i 1).val ∧ (i 1).val < win2_8.index t (1 : Fin 2) * 128 + 128
    rw [e1]
    omega

/-- The result array after the last point is the whole-array function. -/
private theorem resultArr_eq (c : Dev nD)
    (hiss : ∀ b : Fin 16384, ((V c main_v26 : WMat 16384 2) (ix2 b (0 : Fin 2))).toNat < 5120)
    (hsec : ∀ b : Fin 16384, ((V c main_v26 : WMat 16384 2) (ix2 b (1 : Fin 2))).toNat < 128) :
    (dat2 V c).arrAt 8 cfg2.N = resultArr V c hiss hsec :=
  (dat2 V c).arrAt_eq_of_cover 8 (resultArr V c hiss hsec) (fun t _ => writtenBlock_eq V c hiss hsec t) outBlocks_cover

/-- Region 2's output array after its last point, at row `b`, column `j`. -/
theorem region2_value (c : Dev nD)
    (hiss : ∀ b : Fin 16384, ((V c main_v26 : WMat 16384 2) (ix2 b (0 : Fin 2))).toNat < 5120)
    (hsec : ∀ b : Fin 16384, ((V c main_v26 : WMat 16384 2) (ix2 b (1 : Fin 2))).toNat < 128)
    (b : Fin 16384) (j : Fin 128) :
    ((dat2 V c).arrAt 8 cfg2.N : Mat 16384 128) (ix2 b j)
      = out (hcat (fun b d => (V c main_v27 : Mat 16384 140) (ix2 b d))
            (fun b d => (V c main_v37 : Mat 5120 140) (ix2 ⟨_, hiss b⟩ d))
            (fun b d => (V c main_v42 : Mat 128 140) (ix2 ⟨_, hsec b⟩ d)))
          (V c main_arg13) (V c main_arg14) (V c main_arg15) (V c main_arg16) b j :=
  congrFun (resultArr_eq V c hiss hsec) (ix2 b j)

end Cert.KernelIdeal.Val

end
-- ==== Proof.KernelValue.lean ====
/-
  The kernel program's result buffer, index by index, is the specification.
  The third region's row `b` is the second perceptron of the samples' own rows (the first region's array) joined with
  the rows of the two mean tables the sample's group words pick. A mean table's row `g` is the two halves' sums of
  the second region added, over the two halves' counts added and one; a half's sum is the indicator-weighted sum of
  the samples' rows over that half, so the two halves together are the sum over the whole batch: the group's members'
  rows added, and likewise their count.
-/
import proofs.«412861_j3332894622337_3_alg».proof.Proof.Chain
import proofs.«412861_j3332894622337_3_alg».proof.Proof.Region0
import proofs.«412861_j3332894622337_3_alg».proof.Proof.Region1Sums
import proofs.«412861_j3332894622337_3_alg».proof.Proof.Region1Counts
import proofs.«412861_j3332894622337_3_alg».proof.Proof.Region2

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.Spec

variable (m : (ℓ : Loc nD τ sig) → Buf (Elt Ideal) ℓ) (ρ : Dev nD → PrngReg)

/-- The samples' own rows, as the specification states them over the launch arrays. -/
abbrev ownRows (c : Dev nD) : Fin 16384 → Fin 140 → EReal :=
  hself (nodeRows (m ((c : Thread nD τ).loc main_arg6)) (m ((c : Thread nD τ).loc main_arg0)))
    (m ((c : Thread nD τ).loc main_arg7)) (m ((c : Thread nD τ).loc main_arg8))
    (fun b => rowIx 25 (by decide) ((m ((c : Thread nD τ).loc main_arg1) : IVec S16384 32) (ix1 b)))
    (fun b => rowIx 12 (by decide) ((m ((c : Thread nD τ).loc main_arg2) : IVec S16384 32) (ix1 b)))
    (hnum (m ((c : Thread nD τ).loc main_arg3)) (m ((c : Thread nD τ).loc main_arg9))
      (m ((c : Thread nD τ).loc main_arg10)) (m ((c : Thread nD τ).loc main_arg11))
      (m ((c : Thread nD τ).loc main_arg12)))

/-- The samples' issuer words and sector words. -/
abbrev issW (c : Dev nD) (b : Fin 16384) : BitVec 32 :=
  groupWords (m ((c : Thread nD τ).loc main_arg4)) (m ((c : Thread nD τ).loc main_arg0)) (ix1 b)
abbrev secW (c : Dev nD) (b : Fin 16384) : BitVec 32 :=
  groupWords (m ((c : Thread nD τ).loc main_arg5)) (m ((c : Thread nD τ).loc main_arg0)) (ix1 b)

/-- The first region's result array is the samples' own rows. -/
theorem hself_value (c : Dev nD)
    (hrat : ∀ b : Fin 16384, InRange 25 ((m ((c : Thread nD τ).loc main_arg1) : IVec S16384 32) (ix1 b)))
    (hcur : ∀ b : Fin 16384, InRange 12 ((m ((c : Thread nD τ).loc main_arg2) : IVec S16384 32) (ix1 b)))
    (b : Fin 16384) (d : Fin 140) :
    ((dat0 (V1 m ρ) c).arrAt 9 cfg0.N : Mat 16384 140) (ix2 b d) = ownRows m c b d := by
  have h0 : ∀ b : Fin 16384, (V1 m ρ c main_v2 : WMat 16384 2) (ix2 b (0 : Fin 2))
      = (m ((c : Thread nD τ).loc main_arg1) : IVec S16384 32) (ix1 b) := fun b => (V1_meta m ρ c b).1
  have h1 : ∀ b : Fin 16384, (V1 m ρ c main_v2 : WMat 16384 2) (ix2 b (1 : Fin 2))
      = (m ((c : Thread nD τ).loc main_arg2) : IVec S16384 32) (ix1 b) := fun b => (V1_meta m ρ c b).2
  rw [region0_value (V1 m ρ) c (fun b => by rw [h0 b]; exact hrat b) (fun b => by rw [h1 b]; exact hcur b) b d]
  simp only [h0, h1]
  rw [V1_idrows m ρ c, V1_arg3 m ρ c, V1_arg7 m ρ c, V1_arg8 m ρ c, V1_arg9 m ρ c, V1_arg10 m ρ c,
    V1_arg11 m ρ c, V1_arg12 m ρ c]

/-- A word in range of a table of `N` rows, read as a number, is below any height `C ≥ N`. -/
private theorem toNat_lt_of_inRange {N C : ℕ} (hNC : N ≤ C) {w : BitVec 32} (h : InRange N w) : w.toNat < C :=
  Nat.lt_of_lt_of_le h.toNat_lt hNC

/-- The second region's entry holds the samples' own rows and their group words. -/
theorem V2_rows (c : Dev nD)
    (hrat : ∀ b : Fin 16384, InRange 25 ((m ((c : Thread nD τ).loc main_arg1) : IVec S16384 32) (ix1 b)))
    (hcur : ∀ b : Fin 16384, InRange 12 ((m ((c : Thread nD τ).loc main_arg2) : IVec S16384 32) (ix1 b)))
    (b : Fin 16384) (d : Fin 140) : (V2 m ρ c main_v27 : Mat 16384 140) (ix2 b d) = ownRows m c b d := by
  rw [V2_hself m ρ c]; exact hself_value m ρ c hrat hcur b d

theorem V2_iss (c : Dev nD) (b : Fin 16384) : (V2 m ρ c main_v26 : WMat 16384 2) (ix2 b (0 : Fin 2)) = issW m c b := by
  rw [V2_groups m ρ c]; exact (V1_groups m ρ c b).1

theorem V2_sec (c : Dev nD) (b : Fin 16384) : (V2 m ρ c main_v26 : WMat 16384 2) (ix2 b (1 : Fin 2)) = secW m c b := by
  rw [V2_groups m ρ c]; exact (V1_groups m ρ c b).2

/-- Row `g` of the issuer-mean table is group `g`'s mean of the samples' own rows. -/
theorem issuer_mean_value (c : Dev nD)
    (hrat : ∀ b : Fin 16384, InRange 25 ((m ((c : Thread nD τ).loc main_arg1) : IVec S16384 32) (ix1 b)))
    (hcur : ∀ b : Fin 16384, InRange 12 ((m ((c : Thread nD τ).loc main_arg2) : IVec S16384 32) (ix1 b)))
    (g : Fin 5120) (d : Fin 140) :
    (V4 m ρ c main_v37 : Mat 5120 140) (ix2 g d) = segmean (ownRows m c) (issW m c) g.val d := by
  rw [V4_issuer_mean m ρ c g d]
  simp only [region1_issuer_sum (V2 m ρ) c, region1_issuer_cnt (V2 m ρ) c, V2_iss m ρ c, V2_rows m ρ c hrat hcur,
    sum_halfSum]
  rfl

/-- Row `g` of the sector-mean table is group `g`'s mean of the samples' own rows. -/
theorem sector_mean_value (c : Dev nD)
    (hrat : ∀ b : Fin 16384, InRange 25 ((m ((c : Thread nD τ).loc main_arg1) : IVec S16384 32) (ix1 b)))
    (hcur : ∀ b : Fin 16384, InRange 12 ((m ((c : Thread nD τ).loc main_arg2) : IVec S16384 32) (ix1 b)))
    (g : Fin 128) (d : Fin 140) :
    (V4 m ρ c main_v42 : Mat 128 140) (ix2 g d) = segmean (ownRows m c) (secW m c) g.val d := by
  rw [V4_sector_mean m ρ c g d]
  simp only [region1_sector_sum (V2 m ρ) c, region1_sector_cnt (V2 m ρ) c, V2_sec m ρ c, V2_rows m ρ c hrat hcur,
    sum_halfSum]
  rfl

/-- THE KERNEL'S RESULT: the result buffer at row `b`, column `j`, under the four index ranges. -/
theorem kernel_value (c : Dev nD)
    (hrat : ∀ b : Fin 16384, InRange 25 ((m ((c : Thread nD τ).loc main_arg1) : IVec S16384 32) (ix1 b)))
    (hcur : ∀ b : Fin 16384, InRange 12 ((m ((c : Thread nD τ).loc main_arg2) : IVec S16384 32) (ix1 b)))
    (hiss : ∀ b : Fin 16384, InRange 5000 (issW m c b))
    (hsec : ∀ b : Fin 16384, InRange 25 (secW m c b))
    (b : Fin 16384) (j : Fin 128) :
    (W5 m ρ c (Proc.devRef .tc main_v43) : Mat 16384 128) (ix2 b j)
      = result (nodeRows (m ((c : Thread nD τ).loc main_arg6)) (m ((c : Thread nD τ).loc main_arg0)))
          (m ((c : Thread nD τ).loc main_arg7)) (m ((c : Thread nD τ).loc main_arg8))
          (fun b => rowIx 25 (by decide) ((m ((c : Thread nD τ).loc main_arg1) : IVec S16384 32) (ix1 b)))
          (fun b => rowIx 12 (by decide) ((m ((c : Thread nD τ).loc main_arg2) : IVec S16384 32) (ix1 b)))
          (m ((c : Thread nD τ).loc main_arg3)) (m ((c : Thread nD τ).loc main_arg9))
          (m ((c : Thread nD τ).loc main_arg10)) (m ((c : Thread nD τ).loc main_arg11))
          (m ((c : Thread nD τ).loc main_arg12))
          (issW m c) (secW m c)
          (m ((c : Thread nD τ).loc main_arg13)) (m ((c : Thread nD τ).loc main_arg14))
          (m ((c : Thread nD τ).loc main_arg15)) (m ((c : Thread nD τ).loc main_arg16)) b j := by
  have gi : ∀ b : Fin 16384, (V4 m ρ c main_v26 : WMat 16384 2) (ix2 b (0 : Fin 2)) = issW m c b := fun b => by
    rw [V4_groups m ρ c]; exact (V1_groups m ρ c b).1
  have gs : ∀ b : Fin 16384, (V4 m ρ c main_v26 : WMat 16384 2) (ix2 b (1 : Fin 2)) = secW m c b := fun b => by
    rw [V4_groups m ρ c]; exact (V1_groups m ρ c b).2
  have hi4 : ∀ b : Fin 16384, ((V4 m ρ c main_v26 : WMat 16384 2) (ix2 b (0 : Fin 2))).toNat < 5120 := fun b => by
    rw [gi b]; exact toNat_lt_of_inRange (by decide) (hiss b)
  have hs4 : ∀ b : Fin 16384, ((V4 m ρ c main_v26 : WMat 16384 2) (ix2 b (1 : Fin 2))).toNat < 128 := fun b => by
    rw [gs b]; exact toNat_lt_of_inRange (by decide) (hsec b)
  rw [W5_result m ρ c, region2_value (V4 m ρ) c hi4 hs4 b j]
  have e1 : (fun (b : Fin 16384) (d : Fin 140) => (V4 m ρ c main_v27 : Mat 16384 140) (ix2 b d)) = ownRows m c :=
    funext fun b => funext fun d => by rw [V4_hself m ρ c]; exact hself_value m ρ c hrat hcur b d
  have e2 : (fun (b : Fin 16384) (d : Fin 140) => (V4 m ρ c main_v37 : Mat 5120 140) (ix2 ⟨_, hi4 b⟩ d))
      = fun b d => segmean (ownRows m c) (issW m c) (issW m c b).toNat d :=
    funext fun b => funext fun d => by
      rw [issuer_mean_value m ρ c hrat hcur]
      show segmean _ _ ((V4 m ρ c main_v26 : WMat 16384 2) (ix2 b (0 : Fin 2))).toNat d = _
      rw [gi b]
  have e3 : (fun (b : Fin 16384) (d : Fin 140) => (V4 m ρ c main_v42 : Mat 128 140) (ix2 ⟨_, hs4 b⟩ d))
      = fun b d => segmean (ownRows m c) (secW m c) (secW m c b).toNat d :=
    funext fun b => funext fun d => by
      rw [sector_mean_value m ρ c hrat hcur]
      show segmean _ _ ((V4 m ρ c main_v26 : WMat 16384 2) (ix2 b (1 : Fin 2))).toNat d = _
      rw [gs b]
  rw [e1, e2, e3, V4_arg13 m ρ c, V4_arg14 m ρ c, V4_arg15 m ρ c, V4_arg16 m ρ c]
  rfl

end Cert.KernelIdeal.Val

end
-- ==== Proof.LibGatherRows.lean ====
/-
  A row gather (`x[idx]` along one axis of a rank-2 table) read at an index, in both layouts.

  Table `[N, C]`, start indices `[E, 1]`, result `[E, C]`: result element `(e, k)` is the table's
  `(r, k)`, where `r` is the index word `idx[e, 0]` read as a signed integer and clamped into
  `[0, N - 1]` (a negative number reads as row 0, one past the end as the last row).
  The transposed layout (table `[C, N]`, result `[C, E]`) gathers along axis 1 the same way.
  Beside them: the index wrap `i < 0 ? i + N : i` of a signed 32-bit word in `[-N, N)` lands in `[0, N)`.
-/
import Idealize.ShloMosaic.PureOps
import Idealize.ShloMosaic.Lib.ValueIdx

noncomputable section

namespace Idealize.ShloMosaic.RowGather

open Idealize.ShloMosaic Idealize.ShloMosaic.ValueIdx

variable {α : Type}

/-- Gather of whole rows: table `[N, C]`, indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of whole columns: table `[C, N]`, indices `[E, 1]`, result `[C, E]`. -/
abbrev colDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- The row an index word names: read signed, clamped into `[0, N - 1]`. -/
def clampRow (N : Nat) (hN : 0 < N) {w : Nat} (i : BitVec w) : Fin N :=
  ⟨min i.toInt.toNat (N - 1), by omega⟩

/-- THE ROW GATHER READ AT `(e, k)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

/-- THE COLUMN GATHER READ AT `(k, e)`. -/
theorem gather_cols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (e : Fin E) (k : Fin C) :
    Host.gather (colDims C N E wf) x idx (ix2 k e)
      = x (ix2 k (clampRow N hN (idx (ix2 e (0 : Fin 1))))) := by
  unfold Host.gather
  congr 1
  funext a
  refine Fin.ext ?_
  match a with
  | ⟨0, _⟩ =>
    show (colDims C N E wf).start (ix2 k e) idx 0 + (colDims C N E wf).batchCoord (ix2 k e) 0
      + (colDims C N E wf).offCoord (ix2 k e) 0 = _
    rw [GatherDims.batchCoord_eq_zero _ _ _ List.not_mem_nil]
    unfold GatherDims.start
    rw [dif_neg (show (0 : Fin 2) ∉ (colDims C N E wf).startIndexMap from (by decide : (0 : Fin 2) ∉ [(1 : Fin 2)]))]
    simp only [Nat.add_zero, Nat.zero_add]
    unfold GatherDims.offCoord
    rw [dif_pos ((GatherDims.mem_sKept _ _).mpr ⟨(by decide : (0 : Fin 2) ∉ [(1 : Fin 2)]), List.not_mem_nil⟩)]
    rfl
  | ⟨1, _⟩ =>
    show (colDims C N E wf).start (ix2 k e) idx 1 + (colDims C N E wf).batchCoord (ix2 k e) 1
      + (colDims C N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N E wf).startIndexMap from List.mem_singleton.mpr rfl)]
    have hsi : (colDims C N E wf).siIdx (ix2 k e) ⟨List.idxOf (1 : Fin 2) (colDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The wrapped index `i < 0 ? i + 100000 : i` as the programs spell it. -/
def wrap (i : BitVec 32) : BitVec 32 :=
  Scalar.select (IntOp.cmpi .slt i 0#32) (IntOp.addi i 100000#32) i

/-- The three constants read as signed integers. -/
private theorem toInt_zero32 : (0#32 : BitVec 32).toInt = 0 := by decide
private theorem toInt_n32 : (100000#32 : BitVec 32).toInt = 100000 := by decide
private theorem toInt_m32 : (99999#32 : BitVec 32).toInt = 99999 := by decide

/-- On a negative word the wrap adds `100000`. -/
private theorem wrap_of_neg (i : BitVec 32) (h : i.toInt < 0) : wrap i = i + 100000#32 := by
  have hs : i.slt 0#32 = true := by
    rw [BitVec.slt_iff_toInt_lt, toInt_zero32]; exact h
  show (if BitVec.ofBool (i.slt 0#32) = 1 then i + 100000#32 else i) = _
  rw [hs]; rfl

/-- On a non-negative word the wrap is the identity. -/
private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

/-- The wrapped word, read signed, lies in `[0, 99999]`. -/
private theorem wrap_toInt_range (i : BitVec 32) (h1 : -100000 ≤ i.toInt) (h2 : i.toInt < 100000) :
    0 ≤ (wrap i).toInt ∧ (wrap i).toInt ≤ 99999 := by
  by_cases hneg : i.toInt < 0
  · rw [wrap_of_neg i hneg, BitVec.toInt_add, toInt_n32,
      Int.bmod_eq_of_le_mul_two (by omega) (by omega)]
    omega
  · rw [wrap_of_nonneg i (by omega)]; omega

/-- Both range tests hold of a word whose signed reading lies in `[0, 99999]`. -/
private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

/-- A word in `[-100000, 100000)` wraps into `[0, 100000)`: both range tests of the wrapped word hold. -/
theorem wrap_inb (i : BitVec 32) (h1 : -100000 ≤ i.toInt) (h2 : i.toInt < 100000) :
    IntOp.cmpi .sge (wrap i) 0#32 = 1#1 ∧ IntOp.cmpi .sle (wrap i) 99999#32 = 1#1 := by
  exact range_tests (wrap i) (wrap_toInt_range i h1 h2)

/-- A word that is a row number `n < 100000` is its own wrap, and in range. -/
theorem wrap_of_row (i : BitVec 32) (n : Nat) (hn : n < 100000) (h : i.toInt = (n : Int)) :
    wrap i = i ∧ IntOp.cmpi .sge (wrap i) 0#32 = 1#1 ∧ IntOp.cmpi .sle (wrap i) 99999#32 = 1#1 := by
  have hw : wrap i = i := wrap_of_nonneg i (by omega)
  refine ⟨hw, ?_⟩
  rw [hw]
  exact range_tests i (by omega)

end Idealize.ShloMosaic.RowGather

end
-- ==== Proof.LibScatterRows.lean ====
/-
  The host's accumulating scatter (a segment sum) read at an index, at the ideal instance.

  Operand `[N, C]`, scatter indices `[E, 1]` (one row number per update row), updates `[E, C]`:
  update row `e` is added, column by column, onto operand row `idx[e, 0]` read as a SIGNED integer,
  and is dropped when that number is not a row of the operand. So element `(n, j)` of the result is
  the operand's plus the sum, over the update rows `e` whose index is `n`, of `upd[e, j]`.
  The flat form (operand `[N]`, updates `[E]`) is the same with no column.
-/
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

/-- The dimension numbers of a row scatter: operand `[N, C]`, indices `[E, 1]`, updates `[E, C]`;
    the updates' axis 1 is the window, the operand's axis 0 is the scattered one. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: operand `[N]`, indices `[E, 1]`, updates `[E]`. -/
abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The update rows that land on operand row `n`: those whose index word, read signed, is `n`. -/
def rowsOf {N E w : Nat} (idx : IVec ⟨2, ![E, 1]⟩ w) (n : Fin N) : Finset (Fin E) :=
  Finset.univ.filter fun e => (idx (ix2 e (0 : Fin 1))).toInt = (n.val : Int)

/-- An update index lands on operand index `i` exactly when, on every axis, its start plus its
    window coordinate is `i`'s coordinate (being inside the operand is then automatic). -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

/-- On the scattered axis the start is the update row's index word, read signed. -/
private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

/-- The column axis is not a scattered one: its start is `0`. -/
private theorem rows_start1 (u : (⟨2, ![E, C]⟩ : Shape).Idx) (idx : IVec ⟨2, ![E, 1]⟩ w) :
    (rowsDims N E C wf).start u idx 1 = 0 := by
  unfold ScatterDims.start
  rw [dif_neg (show (1 : Fin 2) ∉ [(0 : Fin 2)] by decide)]

/-- The scattered axis is an inserted one: its window coordinate is `0`. -/
private theorem rows_window0 (u : (⟨2, ![E, C]⟩ : Shape).Idx) :
    (rowsDims N E C wf).window u 0 = 0 := by
  have h : (0 : Fin 2) ∉ (rowsDims N E C wf).sKept := by
    show (0 : Fin 2) ∉ (List.finRange 2).filter (· ∉ [(0 : Fin 2)])
    decide
  unfold ScatterDims.window
  exact dif_neg h

/-- On the column axis the window coordinate is the update's column. -/
private theorem rows_window1 (e : Fin E) (j' : Fin C) :
    (rowsDims N E C wf).window (ix2 e j') 1 = j'.val := by
  have h : (1 : Fin 2) ∈ (rowsDims N E C wf).sKept := by
    show (1 : Fin 2) ∈ (List.finRange 2).filter (· ∉ [(0 : Fin 2)])
    decide
  unfold ScatterDims.window
  rw [dif_pos h]
  rfl

/-- Update element `(e, j')` lands on operand element `(n, j)` exactly when row `e`'s index word,
    read signed, is `n` and the columns agree. -/
private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff]
  constructor
  · intro h
    have h0 : (rowsDims N E C wf).start (ix2 e j') idx 0
        + ((rowsDims N E C wf).window (ix2 e j') 0 : Int) = (n.val : Int) := h 0
    have h1 : (rowsDims N E C wf).start (ix2 e j') idx 1
        + ((rowsDims N E C wf).window (ix2 e j') 1 : Int) = (j.val : Int) := h 1
    rw [rows_start0, rows_window0] at h0
    rw [rows_start1, rows_window1] at h1
    exact ⟨by omega, Fin.ext (by omega)⟩
  · rintro ⟨hn, rfl⟩ a
    match a with
    | ⟨0, _⟩ =>
      show (rowsDims N E C wf).start (ix2 e j') idx 0 + ((rowsDims N E C wf).window (ix2 e j') 0 : Int) = (n.val : Int)
      rw [rows_start0, rows_window0, hn]; simp
    | ⟨1, _⟩ =>
      show (rowsDims N E C wf).start (ix2 e j') idx 1 + ((rowsDims N E C wf).window (ix2 e j') 1 : Int) = (j'.val : Int)
      rw [rows_start1, rows_window1]; simp

end Rows

/-- THE ROW SCATTER READ AT `(n, j)`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

/-- On the one (scattered) axis the start is the update's index word, read signed. -/
private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

/-- The one axis is an inserted one: its window coordinate is `0`. -/
private theorem flat_window0 (u : (⟨1, ![E]⟩ : Shape).Idx) :
    (flatDims N E wf).window u 0 = 0 := by
  have h : (0 : Fin 1) ∉ (flatDims N E wf).sKept := by
    show (0 : Fin 1) ∉ (List.finRange 1).filter (· ∉ [(0 : Fin 1)])
    decide
  unfold ScatterDims.window
  exact dif_neg h

/-- Update element `e` lands on operand element `n` exactly when its index word, read signed, is `n`. -/
private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff]
  constructor
  · intro h
    have h0 : (flatDims N E wf).start (ix1 e) idx 0
        + ((flatDims N E wf).window (ix1 e) 0 : Int) = (n.val : Int) := h 0
    rw [flat_start0, flat_window0] at h0
    omega
  · intro hn a
    match a with
    | ⟨0, _⟩ =>
      show (flatDims N E wf).start (ix1 e) idx 0 + ((flatDims N E wf).window (ix1 e) 0 : Int) = (n.val : Int)
      rw [flat_start0, flat_window0, hn]; simp

end Flat

/-- THE FLAT SCATTER READ AT `n`. -/
theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.RefValue.lean ====
/-
  The reference program's result, index by index, is the specification: its gathers read a table at the row an
  in-range word names, its accumulating scatters add the members' rows (and ones) group by group, and its dot
  products, biases and clips at zero are the two perceptrons.
-/
import proofs.«412861_j3332894622337_3_alg».proof.Proof.Gen.ReferenceIdeal.Run
import proofs.«412861_j3332894622337_3_alg».proof.Proof.Gen.ReferenceIdeal.Read
import proofs.«412861_j3332894622337_3_alg».proof.Proof.Spec
import proofs.«412861_j3332894622337_3_alg».proof.Proof.Words
import proofs.«412861_j3332894622337_3_alg».proof.Proof.LibGatherRows
import proofs.«412861_j3332894622337_3_alg».proof.Proof.LibScatterRows
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefVal

open Cert.ReferenceIdeal Cert.Spec Cert.ReferenceIdeal.Read

/-- Two rank-2 (rank-1) indices are equal when their coordinates are. -/
local macro "ix_rfl2" : term => `(funext fun a => match a with | ⟨0, _⟩ => rfl | ⟨1, _⟩ => rfl)
local macro "ix_rfl1" : term => `(funext fun a => match a with | ⟨0, _⟩ => rfl)

/-! ## Words -/

private theorem toInt_zero32 : (0#32 : BitVec 32).toInt = 0 := by decide

/-- A word whose signed reading is not negative reads the same unsigned. -/
private theorem toInt_eq_toNat_of_nonneg {w : BitVec 32} (h : 0 ≤ w.toInt) : w.toInt = (w.toNat : ℤ) := by
  rw [BitVec.toInt_eq_toNat_cond] at h ⊢
  have := w.isLt
  split at h <;> split <;> omega

/-- The signed reading of a word is a small number exactly when its unsigned reading is. -/
private theorem toInt_eq_iff {w : BitVec 32} {n : ℕ} (hn : n < 2 ^ 31) : w.toInt = (n : ℤ) ↔ w.toNat = n := by
  rw [BitVec.toInt_eq_toNat_cond]
  have := w.isLt
  split <;> omega

/-- The wrap `w < 0 ? w + N : w` of a word that is not negative is the word. -/
private theorem wrap_of_nonneg (Nw w : BitVec 32) (h : 0 ≤ w.toInt) :
    Scalar.select (IntOp.cmpi .slt w 0#32) (IntOp.addi w Nw) w = w := by
  have hs : w.slt 0#32 = false := by
    rw [BitVec.slt_eq_decide, toInt_zero32]; exact decide_eq_false (by omega)
  show (if BitVec.ofBool (w.slt 0#32) = 1 then w + Nw else w) = _
  rw [hs]; rfl

/-- Wrapped, then clamped into the table, an in-range word names its own row, whatever the table's height. -/
private theorem clamp_wrap {N : ℕ} (hN : 0 < N) (Nw : BitVec 32) {w : BitVec 32} (h : InRange N w) :
    RowGather.clampRow N hN (Scalar.select (IntOp.cmpi .slt w 0#32) (IntOp.addi w Nw) w) = rowIx N hN w := by
  rw [wrap_of_nonneg Nw w h.1]
  apply Fin.ext
  show min w.toInt.toNat (N - 1) = min w.toNat (N - 1)
  rw [toInt_eq_toNat_of_nonneg h.1, Int.toNat_natCast]

/-- The pattern of one is the number one. -/
private theorem one_f32 : Ideal.ofBits .f32 0x3F800000#32 = 1 := IdealRules.sign_bit.ideal_onePat .f32

/-- Adding over the rows whose index word reads `n` is the indicator-weighted sum over all rows. -/
private theorem sum_rowsOf {E N : ℕ} (idx : IVec ⟨2, ![E, 1]⟩ 32) (n : Fin N) (hN : N ≤ 2 ^ 31) (f : Fin E → EReal) :
    ∑ e ∈ SegSum.rowsOf idx n, f e = ∑ e : Fin E, hot (idx (ix2 e (0 : Fin 1))) n.val * f e := by
  unfold SegSum.rowsOf
  rw [Finset.sum_filter]
  refine Finset.sum_congr rfl fun e _ => ?_
  have hn : n.val < 2 ^ 31 := lt_of_lt_of_le n.isLt hN
  by_cases h : (idx (ix2 e (0 : Fin 1))).toInt = (n.val : ℤ)
  · rw [if_pos h, hot_eq (by omega), if_pos ((toInt_eq_iff hn).mp h), one_mul]
  · rw [if_neg h, hot_eq (by omega), if_neg (fun h' => h ((toInt_eq_iff hn).mpr h')), zero_mul]

section
variable (x0 x1 x2 : (⟨S16384, .i32⟩ : BufTy).Contents (Elt Ideal)) (x3 : (⟨S16384x16, .f32⟩ : BufTy).Contents (Elt Ideal))
  (x4 x5 : (⟨S1000000, .i32⟩ : BufTy).Contents (Elt Ideal)) (x6 : (⟨S1000000x64, .f32⟩ : BufTy).Contents (Elt Ideal))
  (x7 : (⟨S25x8, .f32⟩ : BufTy).Contents (Elt Ideal)) (x8 : (⟨S12x4, .f32⟩ : BufTy).Contents (Elt Ideal))
  (x9 : (⟨S16x64, .f32⟩ : BufTy).Contents (Elt Ideal)) (x10 : (⟨S64, .f32⟩ : BufTy).Contents (Elt Ideal))
  (x11 : (⟨S64x64, .f32⟩ : BufTy).Contents (Elt Ideal)) (x12 : (⟨S64, .f32⟩ : BufTy).Contents (Elt Ideal))
  (x13 : (⟨S420x128, .f32⟩ : BufTy).Contents (Elt Ideal)) (x14 : (⟨S128, .f32⟩ : BufTy).Contents (Elt Ideal))
  (x15 : (⟨S128x128, .f32⟩ : BufTy).Contents (Elt Ideal)) (x16 : (⟨S128, .f32⟩ : BufTy).Contents (Elt Ideal))

/-! ## The numeric perceptron -/

/-- The first layer of the numeric perceptron: a dot product with the weights, the bias, the clip at zero. -/
private theorem num_hidden (b : Fin 16384) (k : Fin 64) :
    val_main_v4 (F := Ideal) x3 x9 x10 (ix2 b k) = relu (lin (fun b i => x3 (ix2 b i)) x9 x10 b k) := by
  rw [val_main_v4_apply, val_main_v3_apply, val_main_v0_apply, val_main_v2_apply, val_main_v1_apply,
    val_main_call0_v0_apply, val_main_call0_cst_apply]
  have e1 : ∀ i, lidx_main_v0 (ix2 b k) i = ix2 b i := fun i => ix_rfl2
  have e2 : ∀ i, ridx_main_v0 (ix2 b k) i = ix2 i k := fun i => ix_rfl2
  have e3 : idx_main_v1 (idx_main_v2 (ix2 b k)) = ix1 k := ix_rfl1
  simp only [Ideal.maximumf_def, Ideal.addf_def, Ideal.ofBits_def, Ideal.ofBits_zero_f32, e1, e2, e3]
  rfl

/-- The numeric perceptron: the second layer over the first. -/
private theorem num_stage (b : Fin 16384) (j : Fin 64) :
    val_main_v9 (F := Ideal) x3 x9 x10 x11 x12 (ix2 b j) = hnum x3 x9 x10 x11 x12 b j := by
  rw [val_main_v9_apply, val_main_v8_apply, val_main_v5_apply, val_main_v7_apply, val_main_v6_apply,
    val_main_call1_v0_apply, val_main_call1_cst_apply]
  have e1 : ∀ i, lidx_main_v5 (ix2 b j) i = ix2 b i := fun i => ix_rfl2
  have e2 : ∀ i, ridx_main_v5 (ix2 b j) i = ix2 i j := fun i => ix_rfl2
  have e3 : idx_main_v6 (idx_main_v7 (ix2 b j)) = ix1 j := ix_rfl1
  simp only [Ideal.maximumf_def, Ideal.addf_def, Ideal.ofBits_def, Ideal.ofBits_zero_f32, e1, e2, e3, num_hidden]
  rfl

/-! ## The table rows and the group words -/

/-- The node rows are the program's first gather; the issuer and sector words its fourth and fifth. -/
private theorem node_stage : val_main_v16 (F := Ideal) x0 x6 = nodeRows x6 x0 := rfl
private theorem iss_stage : val_main_v38 (F := Ideal) x0 x4 = groupWords x4 x0 := rfl
private theorem sec_stage : val_main_v45 (F := Ideal) x0 x5 = groupWords x5 x0 := rfl

/-- The rating rows: the rating table at the row the sample's rating word names. -/
private theorem rate_stage (b : Fin 16384) (hrat : InRange 25 (x1 (ix1 b))) (k : Fin 8) :
    val_main_v23 (F := Ideal) x1 x7 (ix2 b k) = x7 (ix2 (rowIx 25 (by decide) (x1 (ix1 b))) k) := by
  unfold val_main_v23
  refine (RowGather.gather_rows_apply (N := 25) (C := 8) (E := 16384) (by decide) _ x7
    (val_main_v22 (F := Ideal) x1) b k).trans ?_
  have e : idx_main_v22 (ix2 b (0 : Fin 1)) = ix1 b := ix_rfl1
  rw [val_main_v22_apply, val_main_v21_apply, val_main_v18_apply, val_main_v20_apply, val_main_v19_apply,
    val_main_v17_apply, val_main_c_2_apply, val_main_c_1_apply, e, clamp_wrap (by decide) 25#32 hrat]

/-- The currency rows: the currency table at the row the sample's currency word names. -/
private theorem cur_stage (b : Fin 16384) (hcur : InRange 12 (x2 (ix1 b))) (k : Fin 4) :
    val_main_v30 (F := Ideal) x2 x8 (ix2 b k) = x8 (ix2 (rowIx 12 (by decide) (x2 (ix1 b))) k) := by
  unfold val_main_v30
  refine (RowGather.gather_rows_apply (N := 12) (C := 4) (E := 16384) (by decide) _ x8
    (val_main_v29 (F := Ideal) x2) b k).trans ?_
  have e : idx_main_v29 (ix2 b (0 : Fin 1)) = ix1 b := ix_rfl1
  rw [val_main_v29_apply, val_main_v28_apply, val_main_v25_apply, val_main_v27_apply, val_main_v26_apply,
    val_main_v24_apply, val_main_c_4_apply, val_main_c_3_apply, e, clamp_wrap (by decide) 12#32 hcur]

/-! ## A sample's own row -/

/-- The samples' own rows, as the specification builds them from the arguments. -/
private def ownRows : Fin 16384 → Fin 140 → EReal :=
  hself (nodeRows x6 x0) x7 x8 (fun b => rowIx 25 (by decide) (x1 (ix1 b))) (fun b => rowIx 12 (by decide) (x2 (ix1 b)))
    (hnum x3 x9 x10 x11 x12)

/-- The first concatenation: node row | rating row | currency row | numeric perceptron, by the range of the column. -/
private theorem own_stage (hrat : ∀ b : Fin 16384, InRange 25 (x1 (ix1 b)))
    (hcur : ∀ b : Fin 16384, InRange 12 (x2 (ix1 b))) (b : Fin 16384) (d : Fin 140) :
    val_main_v31 (F := Ideal) x0 x1 x2 x3 x6 x7 x8 x9 x10 x11 x12 (ix2 b d)
      = ownRows x0 x1 x2 x3 x6 x7 x8 x9 x10 x11 x12 b d := by
  unfold val_main_v31 ownRows hself
  have hd := d.isLt
  by_cases h1 : d.val < 64
  · rw [dif_pos h1]
    refine (concatenate_apply_piece _ _ _ (ix2 b d) 0 (by show (0 : ℕ) < 4; decide) S16384x64
      (val_main_v16 (F := Ideal) x0 x6) rfl rfl 0 rfl (ix2 b ⟨d.val, h1⟩) ?_ ?_).trans ?_
    · intro a ha; match a with
      | ⟨0, _⟩ => rfl
      | ⟨1, _⟩ => exact absurd rfl ha
    · exact Nat.zero_add _
    · rw [node_stage]
  · rw [dif_neg h1]
    by_cases h2 : d.val < 72
    · rw [dif_pos h2]
      refine (concatenate_apply_piece _ _ _ (ix2 b d) 1 (by show (1 : ℕ) < 4; decide) S16384x8
        (val_main_v23 (F := Ideal) x1 x7) rfl rfl 64 rfl (ix2 b ⟨d.val - 64, by omega⟩) ?_ ?_).trans ?_
      · intro a ha; match a with
        | ⟨0, _⟩ => rfl
        | ⟨1, _⟩ => exact absurd rfl ha
      · show 64 + (d.val - 64) = d.val; omega
      · exact rate_stage x1 x7 b (hrat b) _
    · rw [dif_neg h2]
      by_cases h3 : d.val < 76
      · rw [dif_pos h3]
        refine (concatenate_apply_piece _ _ _ (ix2 b d) 2 (by show (2 : ℕ) < 4; decide) S16384x4
          (val_main_v30 (F := Ideal) x2 x8) rfl rfl 72 rfl (ix2 b ⟨d.val - 72, by omega⟩) ?_ ?_).trans ?_
        · intro a ha; match a with
          | ⟨0, _⟩ => rfl
          | ⟨1, _⟩ => exact absurd rfl ha
        · show 72 + (d.val - 72) = d.val; omega
        · exact cur_stage x2 x8 b (hcur b) _
      · rw [dif_neg h3]
        refine (concatenate_apply_piece _ _ _ (ix2 b d) 3 (by show (3 : ℕ) < 4; decide) S16384x64
          (val_main_v9 (F := Ideal) x3 x9 x10 x11 x12) rfl rfl 76 rfl (ix2 b ⟨d.val - 76, by omega⟩) ?_ ?_).trans ?_
        · intro a ha; match a with
          | ⟨0, _⟩ => rfl
          | ⟨1, _⟩ => exact absurd rfl ha
        · show 76 + (d.val - 76) = d.val; omega
        · exact num_stage x3 x9 x10 x11 x12 b _

/-! ## The issuer groups: sums, counts, means, and each sample's mean -/

/-- The issuer sums: the accumulating scatter adds each sample's own row onto its group's row of a zero table. -/
private theorem iss_sum_stage (hrat : ∀ b : Fin 16384, InRange 25 (x1 (ix1 b)))
    (hcur : ∀ b : Fin 16384, InRange 12 (x2 (ix1 b))) (n : Fin 5000) (d : Fin 140) :
    val_main_v48 (F := Ideal) x0 x1 x2 x3 x4 x6 x7 x8 x9 x10 x11 x12 (ix2 n d)
      = segsum (ownRows x0 x1 x2 x3 x6 x7 x8 x9 x10 x11 x12) (fun b => groupWords x4 x0 (ix1 b)) n.val d := by
  unfold val_main_v48
  refine (SegSum.hostScatterAdd_rows_apply (N := 5000) (E := 16384) (C := 140) _ (val_main_v46 (F := Ideal))
    (val_main_v47 (F := Ideal) x0 x4) (val_main_v31 (F := Ideal) x0 x1 x2 x3 x6 x7 x8 x9 x10 x11 x12) n d).trans ?_
  rw [val_main_v46_apply, val_main_cst_apply, Ideal.ofBits_def, Ideal.ofBits_zero_f32, zero_add,
    sum_rowsOf _ n (by decide)]
  unfold segsum
  refine Finset.sum_congr rfl fun e _ => ?_
  have e1 : idx_main_v47 (ix2 e (0 : Fin 1)) = ix1 e := ix_rfl1
  rw [val_main_v47_apply, e1, iss_stage, own_stage x0 x1 x2 x3 x6 x7 x8 x9 x10 x11 x12 hrat hcur]

/-- The issuer counts: the same scatter, of ones onto a zero vector. -/
private theorem iss_cnt_stage (n : Fin 5000) :
    val_main_v52 (F := Ideal) x0 x4 (ix1 n) = segcnt (fun b => groupWords x4 x0 (ix1 b)) n.val := by
  unfold val_main_v52
  refine (SegSum.hostScatterAdd_flat_apply (N := 5000) (E := 16384) _ (val_main_v50 (F := Ideal))
    (val_main_v51 (F := Ideal) x0 x4) (val_main_v49 (F := Ideal)) n).trans ?_
  rw [val_main_v50_apply, val_main_cst_10_apply, Ideal.ofBits_def, Ideal.ofBits_zero_f32, zero_add,
    sum_rowsOf _ n (by decide)]
  unfold segcnt
  refine Finset.sum_congr rfl fun e _ => ?_
  have e1 : idx_main_v51 (ix2 e (0 : Fin 1)) = ix1 e := ix_rfl1
  rw [val_main_v51_apply, e1, iss_stage, val_main_v49_apply, val_main_cst_9_apply, Ideal.ofBits_def, one_f32, mul_one]

/-- The issuer means: the sum over the larger of the count and one. -/
private theorem iss_mean_stage (hrat : ∀ b : Fin 16384, InRange 25 (x1 (ix1 b)))
    (hcur : ∀ b : Fin 16384, InRange 12 (x2 (ix1 b))) (n : Fin 5000) (d : Fin 140) :
    val_main_v57 (F := Ideal) x0 x1 x2 x3 x4 x6 x7 x8 x9 x10 x11 x12 (ix2 n d)
      = segmean (ownRows x0 x1 x2 x3 x6 x7 x8 x9 x10 x11 x12) (fun b => groupWords x4 x0 (ix1 b)) n.val d := by
  have e1 : idx_main_v55 (idx_main_v56 (ix2 n d)) = ix1 n := ix_rfl1
  rw [val_main_v57_apply, val_main_v56_apply, val_main_v55_apply, e1, val_main_v54_apply, val_main_v53_apply,
    val_main_cst_11_apply, iss_sum_stage x0 x1 x2 x3 x4 x6 x7 x8 x9 x10 x11 x12 hrat hcur, iss_cnt_stage,
    Ideal.hostDivf_def, Ideal.maximumf_def, Ideal.ofBits_def, one_f32]
  rfl

/-- Each sample's issuer mean: the row of the mean table that its own issuer word names. -/
private theorem iss_gather_stage (hrat : ∀ b : Fin 16384, InRange 25 (x1 (ix1 b)))
    (hcur : ∀ b : Fin 16384, InRange 12 (x2 (ix1 b)))
    (hiss : ∀ b : Fin 16384, InRange 5000 (groupWords x4 x0 (ix1 b))) (b : Fin 16384) (d : Fin 140) :
    val_main_v64 (F := Ideal) x0 x1 x2 x3 x4 x6 x7 x8 x9 x10 x11 x12 (ix2 b d)
      = segmean (ownRows x0 x1 x2 x3 x6 x7 x8 x9 x10 x11 x12) (fun b => groupWords x4 x0 (ix1 b))
          (groupWords x4 x0 (ix1 b)).toNat d := by
  unfold val_main_v64
  refine (RowGather.gather_rows_apply (N := 5000) (C := 140) (E := 16384) (by decide) _
    (val_main_v57 (F := Ideal) x0 x1 x2 x3 x4 x6 x7 x8 x9 x10 x11 x12) (val_main_v63 (F := Ideal) x0 x4) b d).trans ?_
  have e : idx_main_v63 (ix2 b (0 : Fin 1)) = ix1 b := ix_rfl1
  rw [val_main_v63_apply, val_main_v62_apply, val_main_v59_apply, val_main_v61_apply, val_main_v60_apply,
    val_main_v58_apply, val_main_c_13_apply, val_main_c_12_apply, e, iss_stage, clamp_wrap (by decide) 5000#32 (hiss b),
    iss_mean_stage x0 x1 x2 x3 x4 x6 x7 x8 x9 x10 x11 x12 hrat hcur, rowIx_val (by decide) (hiss b)]

/-! ## The sector groups: the same four steps over the sector words and a table of 25 rows -/

/-- The sector sums. -/
private theorem sec_sum_stage (hrat : ∀ b : Fin 16384, InRange 25 (x1 (ix1 b)))
    (hcur : ∀ b : Fin 16384, InRange 12 (x2 (ix1 b))) (n : Fin 25) (d : Fin 140) :
    val_main_v67 (F := Ideal) x0 x1 x2 x3 x5 x6 x7 x8 x9 x10 x11 x12 (ix2 n d)
      = segsum (ownRows x0 x1 x2 x3 x6 x7 x8 x9 x10 x11 x12) (fun b => groupWords x5 x0 (ix1 b)) n.val d := by
  unfold val_main_v67
  refine (SegSum.hostScatterAdd_rows_apply (N := 25) (E := 16384) (C := 140) _ (val_main_v65 (F := Ideal))
    (val_main_v66 (F := Ideal) x0 x5) (val_main_v31 (F := Ideal) x0 x1 x2 x3 x6 x7 x8 x9 x10 x11 x12) n d).trans ?_
  rw [val_main_v65_apply, val_main_cst_14_apply, Ideal.ofBits_def, Ideal.ofBits_zero_f32, zero_add,
    sum_rowsOf _ n (by decide)]
  unfold segsum
  refine Finset.sum_congr rfl fun e _ => ?_
  have e1 : idx_main_v66 (ix2 e (0 : Fin 1)) = ix1 e := ix_rfl1
  rw [val_main_v66_apply, e1, sec_stage, own_stage x0 x1 x2 x3 x6 x7 x8 x9 x10 x11 x12 hrat hcur]

/-- The sector counts. -/
private theorem sec_cnt_stage (n : Fin 25) :
    val_main_v71 (F := Ideal) x0 x5 (ix1 n) = segcnt (fun b => groupWords x5 x0 (ix1 b)) n.val := by
  unfold val_main_v71
  refine (SegSum.hostScatterAdd_flat_apply (N := 25) (E := 16384) _ (val_main_v69 (F := Ideal))
    (val_main_v70 (F := Ideal) x0 x5) (val_main_v68 (F := Ideal)) n).trans ?_
  rw [val_main_v69_apply, val_main_cst_16_apply, Ideal.ofBits_def, Ideal.ofBits_zero_f32, zero_add,
    sum_rowsOf _ n (by decide)]
  unfold segcnt
  refine Finset.sum_congr rfl fun e _ => ?_
  have e1 : idx_main_v70 (ix2 e (0 : Fin 1)) = ix1 e := ix_rfl1
  rw [val_main_v70_apply, e1, sec_stage, val_main_v68_apply, val_main_cst_15_apply, Ideal.ofBits_def, one_f32, mul_one]

/-- The sector means. -/
private theorem sec_mean_stage (hrat : ∀ b : Fin 16384, InRange 25 (x1 (ix1 b)))
    (hcur : ∀ b : Fin 16384, InRange 12 (x2 (ix1 b))) (n : Fin 25) (d : Fin 140) :
    val_main_v76 (F := Ideal) x0 x1 x2 x3 x5 x6 x7 x8 x9 x10 x11 x12 (ix2 n d)
      = segmean (ownRows x0 x1 x2 x3 x6 x7 x8 x9 x10 x11 x12) (fun b => groupWords x5 x0 (ix1 b)) n.val d := by
  have e1 : idx_main_v74 (idx_main_v75 (ix2 n d)) = ix1 n := ix_rfl1
  rw [val_main_v76_apply, val_main_v75_apply, val_main_v74_apply, e1, val_main_v73_apply, val_main_v72_apply,
    val_main_cst_17_apply, sec_sum_stage x0 x1 x2 x3 x5 x6 x7 x8 x9 x10 x11 x12 hrat hcur, sec_cnt_stage,
    Ideal.hostDivf_def, Ideal.maximumf_def, Ideal.ofBits_def, one_f32]
  rfl

/-- Each sample's sector mean. -/
private theorem sec_gather_stage (hrat : ∀ b : Fin 16384, InRange 25 (x1 (ix1 b)))
    (hcur : ∀ b : Fin 16384, InRange 12 (x2 (ix1 b)))
    (hsec : ∀ b : Fin 16384, InRange 25 (groupWords x5 x0 (ix1 b))) (b : Fin 16384) (d : Fin 140) :
    val_main_v83 (F := Ideal) x0 x1 x2 x3 x5 x6 x7 x8 x9 x10 x11 x12 (ix2 b d)
      = segmean (ownRows x0 x1 x2 x3 x6 x7 x8 x9 x10 x11 x12) (fun b => groupWords x5 x0 (ix1 b))
          (groupWords x5 x0 (ix1 b)).toNat d := by
  unfold val_main_v83
  refine (RowGather.gather_rows_apply (N := 25) (C := 140) (E := 16384) (by decide) _
    (val_main_v76 (F := Ideal) x0 x1 x2 x3 x5 x6 x7 x8 x9 x10 x11 x12) (val_main_v82 (F := Ideal) x0 x5) b d).trans ?_
  have e : idx_main_v82 (ix2 b (0 : Fin 1)) = ix1 b := ix_rfl1
  rw [val_main_v82_apply, val_main_v81_apply, val_main_v78_apply, val_main_v80_apply, val_main_v79_apply,
    val_main_v77_apply, val_main_c_19_apply, val_main_c_18_apply, e, sec_stage, clamp_wrap (by decide) 25#32 (hsec b),
    sec_mean_stage x0 x1 x2 x3 x5 x6 x7 x8 x9 x10 x11 x12 hrat hcur, rowIx_val (by decide) (hsec b)]

/-! ## The joined rows and the second perceptron -/

/-- Own row | issuer mean | sector mean, as the specification builds them from the arguments. -/
private def catRows : Fin 16384 → Fin 420 → EReal :=
  hcat (ownRows x0 x1 x2 x3 x6 x7 x8 x9 x10 x11 x12)
    (fun b d => segmean (ownRows x0 x1 x2 x3 x6 x7 x8 x9 x10 x11 x12) (fun b => groupWords x4 x0 (ix1 b))
      (groupWords x4 x0 (ix1 b)).toNat d)
    (fun b d => segmean (ownRows x0 x1 x2 x3 x6 x7 x8 x9 x10 x11 x12) (fun b => groupWords x5 x0 (ix1 b))
      (groupWords x5 x0 (ix1 b)).toNat d)

/-- The second concatenation: own row | issuer mean | sector mean, by the range of the column. -/
private theorem cat_stage (hrat : ∀ b : Fin 16384, InRange 25 (x1 (ix1 b)))
    (hcur : ∀ b : Fin 16384, InRange 12 (x2 (ix1 b)))
    (hiss : ∀ b : Fin 16384, InRange 5000 (groupWords x4 x0 (ix1 b)))
    (hsec : ∀ b : Fin 16384, InRange 25 (groupWords x5 x0 (ix1 b))) (b : Fin 16384) (d : Fin 420) :
    val_main_v84 (F := Ideal) x0 x1 x2 x3 x4 x5 x6 x7 x8 x9 x10 x11 x12 (ix2 b d)
      = catRows x0 x1 x2 x3 x4 x5 x6 x7 x8 x9 x10 x11 x12 b d := by
  unfold val_main_v84 catRows hcat
  have hd := d.isLt
  by_cases h1 : d.val < 140
  · rw [dif_pos h1]
    refine (concatenate_apply_piece _ _ _ (ix2 b d) 0 (by show (0 : ℕ) < 3; decide) S16384x140
      (val_main_v31 (F := Ideal) x0 x1 x2 x3 x6 x7 x8 x9 x10 x11 x12) rfl rfl 0 rfl (ix2 b ⟨d.val, h1⟩) ?_ ?_).trans ?_
    · intro a ha; match a with
      | ⟨0, _⟩ => rfl
      | ⟨1, _⟩ => exact absurd rfl ha
    · exact Nat.zero_add _
    · exact own_stage x0 x1 x2 x3 x6 x7 x8 x9 x10 x11 x12 hrat hcur b _
  · rw [dif_neg h1]
    by_cases h2 : d.val < 280
    · rw [dif_pos h2]
      refine (concatenate_apply_piece _ _ _ (ix2 b d) 1 (by show (1 : ℕ) < 3; decide) S16384x140
        (val_main_v64 (F := Ideal) x0 x1 x2 x3 x4 x6 x7 x8 x9 x10 x11 x12) rfl rfl 140 rfl
        (ix2 b ⟨d.val - 140, by omega⟩) ?_ ?_).trans ?_
      · intro a ha; match a with
        | ⟨0, _⟩ => rfl
        | ⟨1, _⟩ => exact absurd rfl ha
      · show 140 + (d.val - 140) = d.val; omega
      · exact iss_gather_stage x0 x1 x2 x3 x4 x6 x7 x8 x9 x10 x11 x12 hrat hcur hiss b _
    · rw [dif_neg h2]
      refine (concatenate_apply_piece _ _ _ (ix2 b d) 2 (by show (2 : ℕ) < 3; decide) S16384x140
        (val_main_v83 (F := Ideal) x0 x1 x2 x3 x5 x6 x7 x8 x9 x10 x11 x12) rfl rfl 280 rfl
        (ix2 b ⟨d.val - 280, by omega⟩) ?_ ?_).trans ?_
      · intro a ha; match a with
        | ⟨0, _⟩ => rfl
        | ⟨1, _⟩ => exact absurd rfl ha
      · show 280 + (d.val - 280) = d.val; omega
      · exact sec_gather_stage x0 x1 x2 x3 x5 x6 x7 x8 x9 x10 x11 x12 hrat hcur hsec b _

/-- The first layer of the second perceptron, over the joined rows. -/
private theorem out_hidden (hrat : ∀ b : Fin 16384, InRange 25 (x1 (ix1 b)))
    (hcur : ∀ b : Fin 16384, InRange 12 (x2 (ix1 b)))
    (hiss : ∀ b : Fin 16384, InRange 5000 (groupWords x4 x0 (ix1 b)))
    (hsec : ∀ b : Fin 16384, InRange 25 (groupWords x5 x0 (ix1 b))) (b : Fin 16384) (k : Fin 128) :
    val_main_v89 (F := Ideal) x0 x1 x2 x3 x4 x5 x6 x7 x8 x9 x10 x11 x12 x13 x14 (ix2 b k)
      = relu (lin (catRows x0 x1 x2 x3 x4 x5 x6 x7 x8 x9 x10 x11 x12) x13 x14 b k) := by
  rw [val_main_v89_apply, val_main_v88_apply, val_main_v85_apply, val_main_v87_apply, val_main_v86_apply,
    val_main_call2_v0_apply, val_main_call2_cst_apply]
  have e1 : ∀ i, lidx_main_v85 (ix2 b k) i = ix2 b i := fun i => ix_rfl2
  have e2 : ∀ i, ridx_main_v85 (ix2 b k) i = ix2 i k := fun i => ix_rfl2
  have e3 : idx_main_v86 (idx_main_v87 (ix2 b k)) = ix1 k := ix_rfl1
  simp only [Ideal.maximumf_def, Ideal.addf_def, Ideal.ofBits_def, Ideal.ofBits_zero_f32, e1, e2, e3,
    cat_stage x0 x1 x2 x3 x4 x5 x6 x7 x8 x9 x10 x11 x12 hrat hcur hiss hsec]
  rfl

/-- The second perceptron: its affine second layer over the clipped first. -/
private theorem out_stage (hrat : ∀ b : Fin 16384, InRange 25 (x1 (ix1 b)))
    (hcur : ∀ b : Fin 16384, InRange 12 (x2 (ix1 b)))
    (hiss : ∀ b : Fin 16384, InRange 5000 (groupWords x4 x0 (ix1 b)))
    (hsec : ∀ b : Fin 16384, InRange 25 (groupWords x5 x0 (ix1 b))) (b : Fin 16384) (j : Fin 128) :
    val_main_v93 (F := Ideal) x0 x1 x2 x3 x4 x5 x6 x7 x8 x9 x10 x11 x12 x13 x14 x15 x16 (ix2 b j)
      = out (catRows x0 x1 x2 x3 x4 x5 x6 x7 x8 x9 x10 x11 x12) x13 x14 x15 x16 b j := by
  rw [val_main_v93_apply, val_main_v90_apply, val_main_v92_apply, val_main_v91_apply]
  have e1 : ∀ i, lidx_main_v90 (ix2 b j) i = ix2 b i := fun i => ix_rfl2
  have e2 : ∀ i, ridx_main_v90 (ix2 b j) i = ix2 i j := fun i => ix_rfl2
  have e3 : idx_main_v91 (idx_main_v92 (ix2 b j)) = ix1 j := ix_rfl1
  simp only [Ideal.addf_def, e1, e2, e3,
    out_hidden x0 x1 x2 x3 x4 x5 x6 x7 x8 x9 x10 x11 x12 x13 x14 hrat hcur hiss hsec]
  rfl

/-- The whole reference over its seventeen arguments: the specification's result unfolds to the second perceptron of the
    joined rows. -/
private theorem result_stage (hrat : ∀ b : Fin 16384, InRange 25 (x1 (ix1 b)))
    (hcur : ∀ b : Fin 16384, InRange 12 (x2 (ix1 b)))
    (hiss : ∀ b : Fin 16384, InRange 5000 (groupWords x4 x0 (ix1 b)))
    (hsec : ∀ b : Fin 16384, InRange 25 (groupWords x5 x0 (ix1 b))) (b : Fin 16384) (j : Fin 128) :
    val_main_v93 (F := Ideal) x0 x1 x2 x3 x4 x5 x6 x7 x8 x9 x10 x11 x12 x13 x14 x15 x16 (ix2 b j)
      = result (nodeRows x6 x0) x7 x8 (fun b => rowIx 25 (by decide) (x1 (ix1 b)))
          (fun b => rowIx 12 (by decide) (x2 (ix1 b))) x3 x9 x10 x11 x12 (fun b => groupWords x4 x0 (ix1 b))
          (fun b => groupWords x5 x0 (ix1 b)) x13 x14 x15 x16 b j :=
  out_stage x0 x1 x2 x3 x4 x5 x6 x7 x8 x9 x10 x11 x12 x13 x14 x15 x16 hrat hcur hiss hsec b j

end

/-- The reference's result at row `b`, column `j`, under the four index ranges. -/
theorem ref_value (m : (ℓ : Loc nD τ sig) → Buf (Elt Ideal) ℓ) (c : Dev nD)
    (hrat : ∀ b : Fin 16384, InRange 25 ((m ((c.tc : Thread nD τ).loc main_arg1) : IVec S16384 32) (ix1 b)))
    (hcur : ∀ b : Fin 16384, InRange 12 ((m ((c.tc : Thread nD τ).loc main_arg2) : IVec S16384 32) (ix1 b)))
    (hiss : ∀ b : Fin 16384, InRange 5000 (groupWords (m ((c.tc : Thread nD τ).loc main_arg4)) (m ((c.tc : Thread nD τ).loc main_arg0)) (ix1 b)))
    (hsec : ∀ b : Fin 16384, InRange 25 (groupWords (m ((c.tc : Thread nD τ).loc main_arg5)) (m ((c.tc : Thread nD τ).loc main_arg0)) (ix1 b)))
    (b : Fin 16384) (j : Fin 128) :
    (Cert.ReferenceIdeal.Value.res_out0 (F := Ideal) m c : Mat 16384 128) (ix2 b j)
      = result (nodeRows (m ((c.tc : Thread nD τ).loc main_arg6)) (m ((c.tc : Thread nD τ).loc main_arg0)))
          (m ((c.tc : Thread nD τ).loc main_arg7)) (m ((c.tc : Thread nD τ).loc main_arg8))
          (fun b => rowIx 25 (by decide) ((m ((c.tc : Thread nD τ).loc main_arg1) : IVec S16384 32) (ix1 b)))
          (fun b => rowIx 12 (by decide) ((m ((c.tc : Thread nD τ).loc main_arg2) : IVec S16384 32) (ix1 b)))
          (m ((c.tc : Thread nD τ).loc main_arg3)) (m ((c.tc : Thread nD τ).loc main_arg9))
          (m ((c.tc : Thread nD τ).loc main_arg10)) (m ((c.tc : Thread nD τ).loc main_arg11))
          (m ((c.tc : Thread nD τ).loc main_arg12))
          (fun b => groupWords (m ((c.tc : Thread nD τ).loc main_arg4)) (m ((c.tc : Thread nD τ).loc main_arg0)) (ix1 b))
          (fun b => groupWords (m ((c.tc : Thread nD τ).loc main_arg5)) (m ((c.tc : Thread nD τ).loc main_arg0)) (ix1 b))
          (m ((c.tc : Thread nD τ).loc main_arg13)) (m ((c.tc : Thread nD τ).loc main_arg14))
          (m ((c.tc : Thread nD τ).loc main_arg15)) (m ((c.tc : Thread nD τ).loc main_arg16)) b j :=
  (congrFun (val_main_v93_eq (F := Ideal) m c) (ix2 b j)).trans
    (result_stage (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)) (m ((c.tc : Thread nD τ).loc main_arg15))
      (m ((c.tc : Thread nD τ).loc main_arg16)) hrat hcur hiss hsec b j)

end Cert.ReferenceIdeal.RefVal

end
-- ==== Proof.PreRanges.lean ====
/-
  What the stated domain gives: every rating word names a row of the rating table (25 rows), every currency word a
  row of the currency table (12 rows), every entry of the issuer table is an issuer number below 5000 and every entry
  of the sector table a sector number below 25 — read out of the printed predicate, a conjunction of "all entries
  satisfy" tests. And a group word, being an entry of its group table (the gather reads the table at a clamped row),
  is then in range too.
-/
import proofs.«412861_j3332894622337_3_alg».proof.Defs
import proofs.«412861_j3332894622337_3_alg».proof.Proof.Gen.Pre_finite_inputs
import proofs.«412861_j3332894622337_3_alg».proof.Proof.Spec
import proofs.«412861_j3332894622337_3_alg».proof.Proof.Words
import Idealize.ShloMosaic.Lib.ReduceAll
import Idealize.ShloMosaic.Lib.StableHlo.Predicate
import Idealize.ShloMosaic.Lib.ValueIdx

set_option maxRecDepth 16384

noncomputable section

open Idealize.ShloMosaic Idealize.ShloMosaic.ValueIdx

namespace Cert.Ranges

open Cert.Spec

/-- The scalar shape has one index. -/
private instance scalarIdx_subsingleton : Subsingleton Cert.Pre_finite_inputs.S_.Idx :=
  ⟨fun a b => funext fun d => d.elim0⟩

/-- A word that passes the two signed tests `0 ≤ w` and `w < c`, with `c` the word of the number `N`, names a row
    of a table of `N` rows. -/
private theorem inRange_of_tests (N : ℕ) (c w : BitVec 32) (hc : c.toInt = (N : ℤ))
    (h : IntOp.andi (IntOp.cmpi .sge w 0#32) (IntOp.cmpi .slt w c) = 1#1) : InRange N w := by
  obtain ⟨h0, h1⟩ := IntOp.andi_eq_one.1 h
  rw [IntOp.cmpi_sge, BitVec.toInt_zero] at h0
  rw [IntOp.cmpi_slt, hc] at h1
  exact ⟨h0, h1⟩

/-- The four index ranges, out of the printed predicate being all ones. -/
theorem ranges_of_pre
    (a0 a1 a2 : IVec Cert.Pre_finite_inputs.S16384 32) (a3 : FVec Ideal Cert.Pre_finite_inputs.S16384x16 .f32)
    (a4 a5 : IVec Cert.Pre_finite_inputs.S1000000 32) (a6 : FVec Ideal Cert.Pre_finite_inputs.S1000000x64 .f32)
    (a7 : FVec Ideal Cert.Pre_finite_inputs.S25x8 .f32) (a8 : FVec Ideal Cert.Pre_finite_inputs.S12x4 .f32)
    (a9 : FVec Ideal Cert.Pre_finite_inputs.S16x64 .f32) (a10 : FVec Ideal Cert.Pre_finite_inputs.S64 .f32)
    (a11 : FVec Ideal Cert.Pre_finite_inputs.S64x64 .f32) (a12 : FVec Ideal Cert.Pre_finite_inputs.S64 .f32)
    (a13 : FVec Ideal Cert.Pre_finite_inputs.S420x128 .f32) (a14 : FVec Ideal Cert.Pre_finite_inputs.S128 .f32)
    (a15 : FVec Ideal Cert.Pre_finite_inputs.S128x128 .f32) (a16 : FVec Ideal Cert.Pre_finite_inputs.S128 .f32)
    (h : Cert.Pre_finite_inputs.fn (F := Ideal) a0 a1 a2 a3 a4 a5 a6 a7 a8 a9 a10 a11 a12 a13 a14 a15 a16 = fun _ => 1#1) :
    (∀ b : Fin 16384, InRange 25 (a1 (ix1 b))) ∧ (∀ b : Fin 16384, InRange 12 (a2 (ix1 b)))
      ∧ (∀ n : Fin 1000000, InRange 5000 (a4 (ix1 n))) ∧ (∀ n : Fin 1000000, InRange 25 (a5 (ix1 n))) := by
  -- the predicate's one word, as the printed chain of conjunctions
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  -- the last four conjuncts are the four "all entries in range" tests
  obtain ⟨h79, h85⟩ := IntOp.andi_eq_one.1 h0
  obtain ⟨h72, h78⟩ := IntOp.andi_eq_one.1 h79
  obtain ⟨h65, h71⟩ := IntOp.andi_eq_one.1 h72
  obtain ⟨-, h64⟩ := IntOp.andi_eq_one.1 h65
  refine ⟨fun b => ?_, fun b => ?_, fun n => ?_, fun n => ?_⟩
  · exact inRange_of_tests 25 25#32 _ (by decide) (Host.reduce_andi_all _ _ _ _ _ h64 (ix1 b))
  · exact inRange_of_tests 12 12#32 _ (by decide) (Host.reduce_andi_all _ _ _ _ _ h71 (ix1 b))
  · exact inRange_of_tests 5000 5000#32 _ (by decide) (Host.reduce_andi_all _ _ _ _ _ h78 (ix1 n))
  · exact inRange_of_tests 25 25#32 _ (by decide) (Host.reduce_andi_all _ _ _ _ _ h85 (ix1 n))

/-- A rank-1 index built from its coordinate, in the form the gather's read lemma uses. -/
private theorem ix1_eq_ofFin {n : ℕ} (k : Fin n) : (ix1 k : (⟨1, ![n]⟩ : Shape).Idx) = Shape.Idx.ofFin k :=
  Shape.Idx.eq_ofFin (ix1 k)

/-- A group word is an entry of its group table (kernel program's records). -/
theorem groupWords_inRange (N : ℕ) (tbl : IVec Cert.KernelIdeal.S1000000 32) (nid : IVec Cert.KernelIdeal.S16384 32)
    (h : ∀ n : Fin 1000000, InRange N (tbl (ix1 n))) (b : Fin 16384) :
    InRange N (Cert.KernelIdeal.Val.groupWords tbl nid (ix1 b)) := by
  -- the gather reads the table at one clamped row, whatever the index word
  unfold Cert.KernelIdeal.Val.groupWords
  rw [ix1_eq_ofFin b, StableHlo.Predicate.gather_take _ rfl rfl rfl rfl tbl _ b (by decide), ← ix1_eq_ofFin]
  exact h _

/-- A group word is an entry of its group table (reference program's records). -/
theorem refGroupWords_inRange (N : ℕ) (tbl : IVec Cert.ReferenceIdeal.S1000000 32) (nid : IVec Cert.ReferenceIdeal.S16384 32)
    (h : ∀ n : Fin 1000000, InRange N (tbl (ix1 n))) (b : Fin 16384) :
    InRange N (Cert.ReferenceIdeal.RefVal.groupWords tbl nid (ix1 b)) := by
  -- the gather reads the table at one clamped row, whatever the index word
  unfold Cert.ReferenceIdeal.RefVal.groupWords
  rw [ix1_eq_ofFin b, StableHlo.Predicate.gather_take _ rfl rfl rfl rfl tbl _ b (by decide), ← ix1_eq_ofFin]
  exact h _

end Cert.Ranges

end
-- ==== Proof.lean ====
/-
  The certificate's claim: a Pallas kernel of three regions against its jnp reference, equal over the extended reals
  under the stated domain (every float input finite; every rating word a row of the 25-row rating table, every
  currency word a row of the 12-row currency table, every issuer-table entry below 5000 and every sector-table entry
  below 25).

  Both programs compute, for each of 16384 samples, a row of 140 numbers (its node-table row, its rating's and
  currency's rows, a two-layer perceptron of its numeric features), the mean of those rows over the samples sharing
  its issuer and over those sharing its sector, and a second two-layer perceptron of the three joined. The reference
  gathers table rows and adds members' rows by an accumulating scatter; the kernel multiplies by indicator matrices
  (a word in range picks exactly its own row; an indicator-weighted sum over the batch is the sum over the group's
  members) and adds the batch's two halves, sixteen tiles each. Sums over the extended reals may be regrouped freely,
  and a product with zero is zero there, so no finiteness is used: only the index ranges are.

  The three frames are the programs' runs with the results dropped; the idealization rewrote nothing.
-/
import proofs.«412861_j3332894622337_3_alg».proof.Defs
import proofs.«412861_j3332894622337_3_alg».proof.Proof.Gen.Kernel
import proofs.«412861_j3332894622337_3_alg».proof.Proof.Gen.Kernel.Frame
import proofs.«412861_j3332894622337_3_alg».proof.Proof.Gen.KernelIdeal
import proofs.«412861_j3332894622337_3_alg».proof.Proof.Gen.KernelIdeal.Frame
import proofs.«412861_j3332894622337_3_alg».proof.Proof.Gen.ReferenceIdeal
import proofs.«412861_j3332894622337_3_alg».proof.Proof.Gen.ReferenceIdeal.Run
import proofs.«412861_j3332894622337_3_alg».proof.Proof.Gen.ReferenceIdeal.Read
import proofs.«412861_j3332894622337_3_alg».proof.Proof.Gen.Pre_finite_inputs
import proofs.«412861_j3332894622337_3_alg».proof.Proof.RunResult
import proofs.«412861_j3332894622337_3_alg».proof.Proof.KernelValue
import proofs.«412861_j3332894622337_3_alg».proof.Proof.RefValue
import proofs.«412861_j3332894622337_3_alg».proof.Proof.PreRanges
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Spec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end, with one result: the specification of the arguments. -/
theorem algebraic : Cert.algebraic_KernelIdeal_ReferenceIdeal := by
  intro m ρ m' ρ' hpre hagree
  refine ⟨fun c => Cert.KernelIdeal.Gen.W5 (F := Ideal) m ρ c (Proc.devRef .tc Cert.KernelIdeal.main_v43),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  -- the four index ranges, of the kernel's launch arrays
  obtain ⟨hrat, hcur, hit, hst⟩ := Cert.Ranges.ranges_of_pre _ _ _ _ _ _ _ _ _ _ _ _ _ _ _ _ _ (hpre c)
  have hiss := Cert.Ranges.groupWords_inRange 5000 _ (m ((c.tc : Thread Cert.KernelIdeal.nD Cert.KernelIdeal.τ).loc Cert.KernelIdeal.main_arg0)) hit
  have hsec := Cert.Ranges.groupWords_inRange 25 _ (m ((c.tc : Thread Cert.KernelIdeal.nD Cert.KernelIdeal.τ).loc Cert.KernelIdeal.main_arg0)) hst
  obtain ⟨e0, e1, e2, e3, e4, e5, e6, e7, e8, e9, e10, e11, e12, e13, e14, e15, e16⟩ := hagree c
  funext i
  obtain ⟨b, j, rfl⟩ : ∃ (b : Fin 16384) (j : Fin 128), i = ix2 b j := ⟨i 0, i 1, eq_ix2 i⟩
  have hk := Cert.KernelIdeal.Val.kernel_value m ρ c hrat hcur hiss hsec b j
  have hr := Cert.ReferenceIdeal.RefVal.ref_value m' c
    (by rw [e1]; exact hrat) (by rw [e2]; exact hcur) (by rw [e4, e0]; exact hiss) (by rw [e5, e0]; exact hsec) b j
  rw [e0, e1, e2, e3, e4, e5, e6, e7, e8, e9, e10, e11, e12, e13, e14, e15, e16] at hr
  exact hr.trans hk.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
